-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S640000 : Shape := ⟨1, ![640000]⟩
abbrev S640000x16 : Shape := ⟨2, ![640000, 16]⟩
abbrev S640000x32 : Shape := ⟨2, ![640000, 32]⟩
abbrev S128 : Shape := ⟨1, ![128]⟩
abbrev S32x128 : Shape := ⟨2, ![32, 128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S640000x16 : S_.BroadcastsInDim S640000x16 (![] : Fin 0 → Fin S640000x16.rank)
  reducesTo_S640000x16_S_d0_1 : S640000x16.ReducesTo [0, 1] S_
  bcast_S_S640000x32 : S_.BroadcastsInDim S640000x32 (![] : Fin 0 → Fin S640000x32.rank)
  reducesTo_S640000x32_S_d0_1 : S640000x32.ReducesTo [0, 1] S_
  bcast_S_S640000 : S_.BroadcastsInDim S640000 (![] : Fin 0 → Fin S640000.rank)
  reducesTo_S640000_S_d0 : S640000.ReducesTo [0] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  reducesTo_S_S_d : S_.ReducesTo [] S_

variable [Facts]

def fn_part7 {F : FTy → Type} [FloatOps F] (main_arg1 : IVec S640000 32) (main_v118 : IVec S_ 1) (main_v119 : FVec F S_ .f32) : IVec S_ 1 :=
  let main_cst_46 : FVec F S_ .f32 := constant S_ .f32 0x7F800000#32
  let main_v120 : IVec S_ 1 := cmpf .olt main_v119 main_cst_46
  let main_c_47 : IVec S_ 1 := constantI S_ 1 1#1
  let main_v121 : IVec S_ 1 := (fun x v => Host.reduce IntOp.andi x v reducesTo_S_S_d h_S_) main_v120 main_c_47
  let main_v122 : IVec S_ 1 := andi main_v118 main_v121
  let main_c_48 : IVec S_ 32 := constantI S_ 32 4294947296#32
  let main_v123 : IVec S640000 32 := broadcastInDim S640000 ![] bcast_S_S640000 main_c_48
  let main_v124 : IVec S640000 1 := cmpi .sge main_arg1 main_v123
  let main_c_49 : IVec S_ 32 := constantI S_ 32 20000#32
  let main_v125 : IVec S640000 32 := broadcastInDim S640000 ![] bcast_S_S640000 main_c_49
  let main_v126 : IVec S640000 1 := cmpi .slt main_arg1 main_v125
  let main_v127 : IVec S640000 1 := andi main_v124 main_v126
  let main_c_50 : IVec S_ 1 := constantI S_ 1 1#1
  let main_v128 : IVec S_ 1 := (fun x v => Host.reduce IntOp.andi x v reducesTo_S640000_S_d0 h_S_) main_v127 main_c_50
  let main_v129 : IVec S_ 1 := andi main_v122 main_v128
  main_v129

def fn_part6 {F : FTy → Type} [FloatOps F] (main_arg1 : IVec S640000 32) (main_arg23 : FVec F S128 .f32) (main_arg24 : FVec F S128x128 .f32) (main_arg25 : FVec F S128 .f32) (main_arg26 : FVec F S_ .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x128 .f32 := Host.absf main_arg24
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S_ .f32 := Host.absf main_arg26
  fn_part7 (F := F) main_arg1 main_v118 main_v119

def fn_part5 {F : FTy → Type} [FloatOps F] (main_arg1 : IVec S640000 32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S_ .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg20
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg22
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg1 main_arg23 main_arg24 main_arg25 main_arg26 main_v98 main_v101 main_c_39

def fn_part4 {F : FTy → Type} [FloatOps F] (main_arg1 : IVec S640000 32) (main_arg16 : FVec F S128x1 .f32) (main_arg17 : FVec F S1 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S_ .f32) (main_v63 : IVec S_ 1) (main_v67 : IVec S_ 1) : IVec S_ 1 :=
  let main_v68 : IVec S_ 1 := andi main_v63 main_v67
  let main_v69 : FVec F S128x1 .f32 := Host.absf main_arg16
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg1 main_arg20 main_arg21 main_arg22 main_arg23 main_arg24 main_arg25 main_arg26 main_v83 main_v84 main_cst_32

def fn_part3 {F : FTy → Type} [FloatOps F] (main_arg1 : IVec S640000 32) (main_arg13 : FVec F S128 .f32) (main_arg14 : FVec F S32x128 .f32) (main_arg15 : FVec F S128 .f32) (main_arg16 : FVec F S128x1 .f32) (main_arg17 : FVec F S1 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S_ .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S32x128 .f32 := Host.absf main_arg14
  let main_cst_22 : FVec F S_ .f32 := constant S_ .f32 0x7F800000#32
  let main_v60 : FVec F S32x128 .f32 := broadcastInDim S32x128 ![] bcast_S_S32x128 main_cst_22
  let main_v61 : IVec S32x128 1 := cmpf .olt main_v59 main_v60
  let main_c_23 : IVec S_ 1 := constantI S_ 1 1#1
  let main_v62 : IVec S_ 1 := (fun x v => Host.reduce IntOp.andi x v reducesTo_S32x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg16 main_arg17 main_arg18 main_arg19 main_arg20 main_arg21 main_arg22 main_arg23 main_arg24 main_arg25 main_arg26 main_v63 main_v67

def fn_part2 {F : FTy → Type} [FloatOps F] (main_arg1 : IVec S640000 32) (main_arg9 : FVec F S128 .f32) (main_arg10 : FVec F S128x128 .f32) (main_arg11 : FVec F S128 .f32) (main_arg12 : FVec F S128x128 .f32) (main_arg13 : FVec F S128 .f32) (main_arg14 : FVec F S32x128 .f32) (main_arg15 : FVec F S128 .f32) (main_arg16 : FVec F S128x1 .f32) (main_arg17 : FVec F S1 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S_ .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg1 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg1 : IVec S640000 32) (main_arg6 : FVec F S128 .f32) (main_arg7 : FVec F S128 .f32) (main_arg8 : FVec F S32x128 .f32) (main_arg9 : FVec F S128 .f32) (main_arg10 : FVec F S128x128 .f32) (main_arg11 : FVec F S128 .f32) (main_arg12 : FVec F S128x128 .f32) (main_arg13 : FVec F S128 .f32) (main_arg14 : FVec F S32x128 .f32) (main_arg15 : FVec F S128 .f32) (main_arg16 : FVec F S128x1 .f32) (main_arg17 : FVec F S1 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S_ .f32) (main_v13 : IVec S_ 1) (main_v16 : IVec S640000 1) : IVec S_ 1 :=
  let main_c_5 : IVec S_ 1 := constantI S_ 1 1#1
  let main_v17 : IVec S_ 1 := (fun x v => Host.reduce IntOp.andi x v reducesTo_S640000_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S32x128 .f32 := Host.absf main_arg8
  let main_cst_10 : FVec F S_ .f32 := constant S_ .f32 0x7F800000#32
  let main_v30 : FVec F S32x128 .f32 := broadcastInDim S32x128 ![] bcast_S_S32x128 main_cst_10
  let main_v31 : IVec S32x128 1 := cmpf .olt main_v29 main_v30
  let main_c_11 : IVec S_ 1 := constantI S_ 1 1#1
  let main_v32 : IVec S_ 1 := (fun x v => Host.reduce IntOp.andi x v reducesTo_S32x128_S_d0_1 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S20000x128 .f32) (main_arg1 : IVec S640000 32) (main_arg2 : IVec S640000 32) (main_arg3 : FVec F S640000x16 .f32) (main_arg4 : FVec F S640000x32 .f32) (main_arg5 : FVec F S640000 .f32) (main_arg6 : FVec F S128 .f32) (main_arg7 : FVec F S128 .f32) (main_arg8 : FVec F S32x128 .f32) (main_arg9 : FVec F S128 .f32) (main_arg10 : FVec F S128x128 .f32) (main_arg11 : FVec F S128 .f32) (main_arg12 : FVec F S128x128 .f32) (main_arg13 : FVec F S128 .f32) (main_arg14 : FVec F S32x128 .f32) (main_arg15 : FVec F S128 .f32) (main_arg16 : FVec F S128x1 .f32) (main_arg17 : FVec F S1 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S128x128 .f32) (main_arg25 : FVec F S128 .f32) (main_arg26 : FVec F S_ .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S640000x16 .f32 := Host.absf main_arg3
  let main_cst_0 : FVec F S_ .f32 := constant S_ .f32 0x7F800000#32
  let main_v5 : FVec F S640000x16 .f32 := broadcastInDim S640000x16 ![] bcast_S_S640000x16 main_cst_0
  let main_v6 : IVec S640000x16 1 := cmpf .olt main_v4 main_v5
  let main_c_1 : IVec S_ 1 := constantI S_ 1 1#1
  let main_v7 : IVec S_ 1 := (fun x v => Host.reduce IntOp.andi x v reducesTo_S640000x16_S_d0_1 h_S_) main_v6 main_c_1
  let main_v8 : IVec S_ 1 := andi main_v3 main_v7
  let main_v9 : FVec F S640000x32 .f32 := Host.absf main_arg4
  let main_cst_2 : FVec F S_ .f32 := constant S_ .f32 0x7F800000#32
  let main_v10 : FVec F S640000x32 .f32 := broadcastInDim S640000x32 ![] bcast_S_S640000x32 main_cst_2
  let main_v11 : IVec S640000x32 1 := cmpf .olt main_v9 main_v10
  let main_c_3 : IVec S_ 1 := constantI S_ 1 1#1
  let main_v12 : IVec S_ 1 := (fun x v => Host.reduce IntOp.andi x v reducesTo_S640000x32_S_d0_1 h_S_) main_v11 main_c_3
  let main_v13 : IVec S_ 1 := andi main_v8 main_v12
  let main_v14 : FVec F S640000 .f32 := Host.absf main_arg5
  let main_cst_4 : FVec F S_ .f32 := constant S_ .f32 0x7F800000#32
  let main_v15 : FVec F S640000 .f32 := broadcastInDim S640000 ![] bcast_S_S640000 main_cst_4
  let main_v16 : IVec S640000 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S20000x128 : Shape := ⟨2, ![20000, 128]⟩
abbrev S640000 : Shape := ⟨1, ![640000]⟩
abbrev S640000x16 : Shape := ⟨2, ![640000, 16]⟩
abbrev S640000x32 : Shape := ⟨2, ![640000, 32]⟩
abbrev S128 : Shape := ⟨1, ![128]⟩
abbrev S32x128 : Shape := ⟨2, ![32, 128]⟩
abbrev S128x128 : Shape := ⟨2, ![128, 128]⟩
abbrev S128x1 : Shape := ⟨2, ![128, 1]⟩
abbrev S1 : Shape := ⟨1, ![1]⟩
abbrev S_ : Shape := ⟨0, ![]⟩
abbrev S1x128 : Shape := ⟨2, ![1, 128]⟩
abbrev S4000x128 : Shape := ⟨2, ![4000, 128]⟩
abbrev S4000 : Shape := ⟨1, ![4000]⟩
abbrev S4000x1 : Shape := ⟨2, ![4000, 1]⟩
abbrev S640000x1 : Shape := ⟨2, ![640000, 1]⟩
abbrev S1x1 : Shape := ⟨2, ![1, 1]⟩
abbrev S640000x128 : Shape := ⟨2, ![640000, 128]⟩
abbrev S4000x32 : Shape := ⟨2, ![4000, 32]⟩
abbrev S20000x1 : Shape := ⟨2, ![20000, 1]⟩

abbrev nBuf : Space → Nat
  | .hbm => 98
  | .vmem => 43
  | .smem => 0
  | _ => 0

abbrev bufTy : (tb : Table) → Fin (tcTables nBuf tb) → BufTy
  | .hbm, ⟨0, _⟩ => ⟨S20000x128, .f32⟩
  | .hbm, ⟨1, _⟩ => ⟨S640000, .i32⟩
  | .hbm, ⟨2, _⟩ => ⟨S640000, .i32⟩
  | .hbm, ⟨3, _⟩ => ⟨S640000x16, .f32⟩
  | .hbm, ⟨4, _⟩ => ⟨S640000x32, .f32⟩
  | .hbm, ⟨5, _⟩ => ⟨S640000, .f32⟩
  | .hbm, ⟨6, _⟩ => ⟨S128, .f32⟩
  | .hbm, ⟨7, _⟩ => ⟨S128, .f32⟩
  | .hbm, ⟨8, _⟩ => ⟨S32x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S32x128, .f32⟩
  | .hbm, ⟨15, _⟩ => ⟨S128, .f32⟩
  | .hbm, ⟨16, _⟩ => ⟨S128x1, .f32⟩
  | .hbm, ⟨17, _⟩ => ⟨S1, .f32⟩
  | .hbm, ⟨18, _⟩ => ⟨S128x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S128x128, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S20000x128, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S1, .i32⟩
  | .hbm, ⟨39, _⟩ => ⟨S_, .i32⟩
  | .hbm, ⟨40, _⟩ => ⟨S640000x1, .i32⟩
  | .hbm, ⟨41, _⟩ => ⟨S640000x1, .i1⟩
  | .hbm, ⟨42, _⟩ => ⟨S1x1, .i32⟩
  | .hbm, ⟨43, _⟩ => ⟨S640000x1, .i32⟩
  | .hbm, ⟨44, _⟩ => ⟨S640000x1, .i1⟩
  | .hbm, ⟨45, _⟩ => ⟨S640000x1, .i1⟩
  | .hbm, ⟨46, _⟩ => ⟨S_, .i1⟩
  | .hbm, ⟨47, _⟩ => ⟨S640000, .i1⟩
  | .hbm, ⟨48, _⟩ => ⟨S640000x128, .f32⟩
  | .hbm, ⟨49, _⟩ => ⟨S640000x128, .i1⟩
  | .hbm, ⟨50, _⟩ => ⟨S_, .f32⟩
  | .hbm, ⟨51, _⟩ => ⟨S640000x128, .f32⟩
  | .hbm, ⟨52, _⟩ => ⟨S640000x128, .f32⟩
  | .hbm, ⟨53, _⟩ => ⟨S_, .f32⟩
  | .hbm, ⟨54, _⟩ => ⟨S640000, .f32⟩
  | .hbm, ⟨55, _⟩ => ⟨S640000, .f32⟩
  | .hbm, ⟨56, _⟩ => ⟨S_, .f32⟩
  | .hbm, ⟨57, _⟩ => ⟨S640000, .f32⟩
  | .hbm, ⟨58, _⟩ => ⟨S640000, .f32⟩
  | .hbm, ⟨59, _⟩ => ⟨S640000, .f32⟩
  | .hbm, ⟨60, _⟩ => ⟨S_, .f32⟩
  | .hbm, ⟨61, _⟩ => ⟨S640000, .f32⟩
  | .hbm, ⟨62, _⟩ => ⟨S640000, .f32⟩
  | .hbm, ⟨63, _⟩ => ⟨S_, .f32⟩
  | .hbm, ⟨64, _⟩ => ⟨S640000, .f32⟩
  | .hbm, ⟨65, _⟩ => ⟨S640000, .f32⟩
  | .hbm, ⟨66, _⟩ => ⟨S_, .f32⟩
  | .hbm, ⟨67, _⟩ => ⟨S640000, .f32⟩
  | .hbm, ⟨68, _⟩ => ⟨S640000, .i1⟩
  | .hbm, ⟨69, _⟩ => ⟨S640000, .f32⟩
  | .hbm, ⟨70, _⟩ => ⟨S640000, .f32⟩
  | .hbm, ⟨71, _⟩ => ⟨S640000x1, .f32⟩
  | .hbm, ⟨72, _⟩ => ⟨S1x128, .f32⟩
  | .hbm, ⟨73, _⟩ => ⟨S1x1, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S640000x128, .f32⟩
  | .hbm, ⟨78, _⟩ => ⟨S640000x1, .f32⟩
  | .hbm, ⟨79, _⟩ => ⟨S_, .f32⟩
  | .hbm, ⟨80, _⟩ => ⟨S20000x128, .f32⟩
  | .hbm, ⟨81, _⟩ => ⟨S640000x1, .i32⟩
  | .hbm, ⟨82, _⟩ => ⟨S20000x128, .f32⟩
  | .hbm, ⟨83, _⟩ => ⟨S_, .f32⟩
  | .hbm, ⟨84, _⟩ => ⟨S20000x1, .f32⟩
  | .hbm, ⟨85, _⟩ => ⟨S640000x1, .i32⟩
  | .hbm, ⟨86, _⟩ => ⟨S20000x1, .f32⟩
  | .hbm, ⟨87, _⟩ => ⟨S_, .f32⟩
  | .hbm, ⟨88, _⟩ => ⟨S20000x1, .f32⟩
  | .hbm, ⟨89, _⟩ => ⟨S20000x1, .f32⟩
  | .hbm, ⟨90, _⟩ => ⟨S20000x128, .f32⟩
  | .hbm, ⟨91, _⟩ => ⟨S20000x128, .f32⟩
  | .hbm, ⟨92, _⟩ => ⟨S1x1, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S20000x128, .f32⟩
  | .local _ .vmem, ⟨0, _⟩ => ⟨S4000x128, .f32⟩
  | .local _ .vmem, ⟨1, _⟩ => ⟨S4000x128, .f32⟩
  | .local _ .vmem, ⟨2, _⟩ => ⟨S1x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x32, .f32⟩
  | .local _ .vmem, ⟨7, _⟩ => ⟨S4000x32, .f32⟩
  | .local _ .vmem, ⟨8, _⟩ => ⟨S4000x1, .f32⟩
  | .local _ .vmem, ⟨9, _⟩ => ⟨S4000x1, .f32⟩
  | .local _ .vmem, ⟨10, _⟩ => ⟨S4000x128, .f32⟩
  | .local _ .vmem, ⟨11, _⟩ => ⟨S4000x128, .f32⟩
  | .local _ .vmem, ⟨12, _⟩ => ⟨S32x128, .f32⟩
  | .local _ .vmem, ⟨13, _⟩ => ⟨S1x128, .f32⟩
  | .local _ .vmem, ⟨14, _⟩ => ⟨S128x1, .f32⟩
  | .local _ .vmem, ⟨15, _⟩ => ⟨S1x1, .f32⟩
  | .local _ .vmem, ⟨16, _⟩ => ⟨S32x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S4000x128, .f32⟩
  | .local _ .vmem, ⟨23, _⟩ => ⟨S4000x128, .f32⟩
  | .local _ .vmem, ⟨24, _⟩ => ⟨S4000x1, .f32⟩
  | .local _ .vmem, ⟨25, _⟩ => ⟨S4000x1, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S1x1, .f32⟩
  | .local _ .vmem, ⟨41, _⟩ => ⟨S4000x128, .f32⟩
  | .local _ .vmem, ⟨42, _⟩ => ⟨S4000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v3 : Ref sig .tc := ⟨.hbm, 52, rfl⟩
abbrev main_cst : Ref sig .tc := ⟨.hbm, 53, rfl⟩
abbrev main_v4 : Ref sig .tc := ⟨.hbm, 54, rfl⟩
abbrev main_v5 : Ref sig .tc := ⟨.hbm, 55, rfl⟩
abbrev main_cst_0 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_cst_1 : Ref sig .tc := ⟨.hbm, 60, rfl⟩
abbrev main_v9 : Ref sig .tc := ⟨.hbm, 61, rfl⟩
abbrev main_v10 : Ref sig .tc := ⟨.hbm, 62, rfl⟩
abbrev main_cst_2 : Ref sig .tc := ⟨.hbm, 63, rfl⟩
abbrev main_v11 : Ref sig .tc := ⟨.hbm, 64, rfl⟩
abbrev main_v12 : Ref sig .tc := ⟨.hbm, 65, rfl⟩
abbrev main_cst_3 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23_0 : Ref sig .tc := ⟨.hbm, 77, rfl⟩
abbrev main_v23_1 : Ref sig .tc := ⟨.hbm, 78, rfl⟩
abbrev main_cst_4 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_cst_5 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_cst_6 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg13_1 : Ref sig .tc := ⟨.vmem, 23, rfl⟩
abbrev cc1_stg14_0 : Ref sig .tc := ⟨.vmem, 24, rfl⟩
abbrev cc1_stg14_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg8_0 : Ref sig .tc := ⟨.vmem, 37, rfl⟩
abbrev cc2_stg9_0 : Ref sig .tc := ⟨.vmem, 38, rfl⟩
abbrev cc2_stg10_0 : Ref sig .tc := ⟨.vmem, 39, rfl⟩
abbrev cc2_stg11_0 : Ref sig .tc := ⟨.vmem, 40, rfl⟩
abbrev cc2_stg12_0 : Ref sig .tc := ⟨.vmem, 41, rfl⟩
abbrev cc2_stg12_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22
abbrev cc1_sem13_1 : DmaSem sig := 23
abbrev cc1_sem14_0 : DmaSem sig := 24
abbrev cc1_sem14_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem8_0 : DmaSem sig := 37
abbrev cc2_sem9_0 : DmaSem sig := 38
abbrev cc2_sem10_0 : DmaSem sig := 39
abbrev cc2_sem11_0 : DmaSem sig := 40
abbrev cc2_sem12_0 : DmaSem sig := 41
abbrev cc2_sem12_1 : DmaSem sig := 42

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S4000x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S4000x1 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S4000x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

class Facts₀ : Prop where
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  reduces_S4000x128_S4000 : S4000x128.Reduces [1] S4000
  shapeCasts_S4000_S4000x1 : S4000.ShapeCasts S4000x1
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  shapeCasts_S640000_S640000x1 : S640000.ShapeCasts S640000x1
  shapeCasts_S1_S1x1 : S1.ShapeCasts S1x1
  inb_S4000x32_S4000x32_0_0 : ∀ a, (![0, 0] : Fin 2 → Nat) a + S4000x32.size a ≤ S4000x32.size a
  h_S4000x32 : 0 < S4000x32.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  shapeCasts_S4000x128_S4000x128 : S4000x128.ShapeCasts S4000x128
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S128x128_S128x128_0_0 : ∀ a, (![0, 0] : Fin 2 → Nat) a + S128x128.size a ≤ S128x128.size a
  h_S128x128 : 0 < S128x128.numel
  bcast_S_S20000x128 : S_.BroadcastsInDim S20000x128 (![] : Fin 0 → Fin S20000x128.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  shapeCasts_S_S1x1 : S_.ShapeCasts S1x1
  broadcasts_S1x1_S4000x128 : S1x1.Broadcasts S4000x128
  gather_S20000x128_S640000x1_S640000x128_1_0_n_n_0_1_1128_wf : GatherDims.WF S20000x128 S640000x1 S640000x128 [1] [0] [] [0] [] 1 ![1, 128]
  dot_S4000x32_S32x128_S4000x128_1_0_0_1_n_n_wf : DotDims.WF S4000x32 S32x128 S4000x128 [1] [0] [0] [1] [] []
  dot_S4000x128_S128x1_S4000x1_1_0_0_1_n_n_wf : DotDims.WF S4000x128 S128x1 S4000x1 [1] [0] [0] [1] [] []
  dot_S4000x128_S128x128_S4000x128_1_0_0_1_n_n_wf : DotDims.WF S4000x128 S128x128 S4000x128 [1] [0] [0] [1] [] []
  scatter_S20000x128_S640000x1_S640000x128_1_0_0_1_wf : ScatterDims.WF S20000x128 S640000x1 S640000x128 [1] [0] [0] 1
  scatter_S20000x1_S640000x1_S640000x1_1_0_0_1_wf : ScatterDims.WF S20000x1 S640000x1 S640000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S20000x128.size a
  hwx0_0 : ∀ i : grid0.Coords, EltTy.bits .f32 = 32 ∨ (Rect.block (s := S20000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S20000x128.size a
  hwx0_3 : ∀ i : grid0.Coords, EltTy.bits .f32 = 32 ∨ (Rect.block (s := S20000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S640000x32.size a
  hwx1_0 : ∀ i : grid1.Coords, EltTy.bits .f32 = 32 ∨ (Rect.block (s := S640000x32) S4000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S640000x1.size a
  hwx1_1 : ∀ i : grid1.Coords, EltTy.bits .f32 = 32 ∨ (Rect.block (s := S640000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S640000x128.size a
  hwx1_2 : ∀ i : grid1.Coords, EltTy.bits .f32 = 32 ∨ (Rect.block (s := S640000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x128.size a ≤ S32x128.size a
  hwx1_3 : ∀ i : grid1.Coords, EltTy.bits .f32 = 32 ∨ (Rect.block (s := S32x128) S32x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x128.size a ≤ S32x128.size a
  hwx1_7 : ∀ i : grid1.Coords, EltTy.bits .f32 = 32 ∨ (Rect.block (s := S32x128) S32x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x128.size a ≤ S128x128.size a
  hwx1_11 : ∀ i : grid1.Coords, EltTy.bits .f32 = 32 ∨ (Rect.block (s := S128x128) S128x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S4000x128.size a ≤ S640000x128.size a
  hwx1_13 : ∀ i : grid1.Coords, EltTy.bits .f32 = 32 ∨ (Rect.block (s := S640000x128) S4000x128.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S4000x1.size a ≤ S640000x1.size a
  hwx1_14 : ∀ i : grid1.Coords, EltTy.bits .f32 = 32 ∨ (Rect.block (s := S640000x1) S4000x1.size (cc1_transform_14 i) (hinb1_14 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S20000x128.size a
  hwx2_0 : ∀ i : grid2.Coords, EltTy.bits .f32 = 32 ∨ (Rect.block (s := S20000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S20000x128.size a
  hwx2_1 : ∀ i : grid2.Coords, EltTy.bits .f32 = 32 ∨ (Rect.block (s := S20000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S20000x128.size a
  hwx2_2 : ∀ i : grid2.Coords, EltTy.bits .f32 = 32 ∨ (Rect.block (s := S20000x128) S4000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x1.size a ≤ S1x1.size a
  hwx2_11 : ∀ i : grid2.Coords, EltTy.bits .f32 = 32 ∨ (Rect.block (s := S1x1) S1x1.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S4000x128.size a ≤ S20000x128.size a
  hwx2_12 : ∀ i : grid2.Coords, EltTy.bits .f32 = 32 ∨ (Rect.block (s := S20000x128) S4000x128.size (cc2_transform_12 i) (hinb2_12 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S20000x1_S640000x1_S640000x1_1_0_0_1 : ScatterDims S20000x1 S640000x1 S640000x1 where
  updateWindowDims := [1]
  insertedWindowDims := [0]
  scatterDimsToOperandDims := [0]
  indexVectorDim := 1
  wf := scatter_S20000x1_S640000x1_S640000x1_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg4) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg14) S32x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg16) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S32x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v20) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg10) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v21) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg12) S128x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v22) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v23_0) S4000x128.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v23_1) S4000x1.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_arg0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg18) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg20) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg22) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v37) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg24) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v38) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v34) S1x1.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v39) S4000x128.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

class Facts : Prop extends Facts₀ where

variable [Facts]
-- ==== ReferenceIdeal.lean ====
abbrev S20000x128 : Shape := ⟨2, ![20000, 128]⟩
abbrev S640000 : Shape := ⟨1, ![640000]⟩
abbrev S640000x16 : Shape := ⟨2, ![640000, 16]⟩
abbrev S640000x32 : Shape := ⟨2, ![640000, 32]⟩
abbrev S128 : Shape := ⟨1, ![128]⟩
abbrev S32x128 : Shape := ⟨2, ![32, 128]⟩
abbrev S128x128 : Shape := ⟨2, ![128, 128]⟩
abbrev S128x1 : Shape := ⟨2, ![128, 1]⟩
abbrev S1 : Shape := ⟨1, ![1]⟩
abbrev S_ : Shape := ⟨0, ![]⟩
abbrev S20000 : Shape := ⟨1, ![20000]⟩
abbrev S20000x1 : Shape := ⟨2, ![20000, 1]⟩
abbrev S1x128 : Shape := ⟨2, ![1, 128]⟩
abbrev S640000x128 : Shape := ⟨2, ![640000, 128]⟩
abbrev S640000x1 : Shape := ⟨2, ![640000, 1]⟩
abbrev S1x1 : Shape := ⟨2, ![1, 1]⟩

abbrev nBuf : Space → Nat
  | .hbm => 200
  | .vmem => 0
  | .smem => 0
  | _ => 0

abbrev hbmTy0_0 (i : Nat) : BufTy := match i % 128 with
  | 0 => ⟨S20000x128, .f32⟩
  | 1 => ⟨S640000, .i32⟩
  | 2 => ⟨S640000, .i32⟩
  | 3 => ⟨S640000x16, .f32⟩
  | 4 => ⟨S640000x32, .f32⟩
  | 5 => ⟨S640000, .f32⟩
  | 6 => ⟨S128, .f32⟩
  | 7 => ⟨S128, .f32⟩
  | 8 => ⟨S32x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S32x128, .f32⟩
  | 15 => ⟨S128, .f32⟩
  | 16 => ⟨S128x1, .f32⟩
  | 17 => ⟨S1, .f32⟩
  | 18 => ⟨S128x128, .f32⟩
  | 19 => ⟨S128, .f32⟩
  | 20 => ⟨S128x128, .f32⟩
  | 21 => ⟨S128, .f32⟩
  | 22 => ⟨S128x128, .f32⟩
  | 23 => ⟨S128, .f32⟩
  | 24 => ⟨S128x128, .f32⟩
  | 25 => ⟨S128, .f32⟩
  | 26 => ⟨S_, .f32⟩
  | 27 => ⟨S_, .f32⟩
  | 28 => ⟨S20000, .f32⟩
  | 29 => ⟨S20000x1, .f32⟩
  | 30 => ⟨S_, .f32⟩
  | 31 => ⟨S20000x1, .f32⟩
  | 32 => ⟨S20000x1, .f32⟩
  | 33 => ⟨S_, .i32⟩
  | 34 => ⟨S_, .f32⟩
  | 35 => ⟨S20000, .f32⟩
  | 36 => ⟨S20000x1, .f32⟩
  | 37 => ⟨S_, .f32⟩
  | 38 => ⟨S20000x1, .f32⟩
  | 39 => ⟨S20000x1, .f32⟩
  | 40 => ⟨S20000x128, .f32⟩
  | 41 => ⟨S20000x128, .f32⟩
  | 42 => ⟨S20000x128, .f32⟩
  | 43 => ⟨S_, .f32⟩
  | 44 => ⟨S_, .f32⟩
  | 45 => ⟨S_, .f32⟩
  | 46 => ⟨S_, .f32⟩
  | 47 => ⟨S20000, .f32⟩
  | 48 => ⟨S20000x1, .f32⟩
  | 49 => ⟨S20000x1, .f32⟩
  | 50 => ⟨S20000x1, .f32⟩
  | 51 => ⟨S_, .f32⟩
  | 52 => ⟨S_, .i1⟩
  | 53 => ⟨S_, .f32⟩
  | 54 => ⟨S_, .f32⟩
  | 55 => ⟨S20000x1, .f32⟩
  | 56 => ⟨S20000x1, .f32⟩
  | 57 => ⟨S20000x128, .f32⟩
  | 58 => ⟨S20000x128, .f32⟩
  | 59 => ⟨S_, .f32⟩
  | 60 => ⟨S20000x1, .f32⟩
  | 61 => ⟨S20000x1, .f32⟩
  | 62 => ⟨S20000x1, .f32⟩
  | 63 => ⟨S20000x128, .f32⟩
  | 64 => ⟨S20000x128, .f32⟩
  | 65 => ⟨S1x128, .f32⟩
  | 66 => ⟨S20000x128, .f32⟩
  | 67 => ⟨S20000x128, .f32⟩
  | 68 => ⟨S1x128, .f32⟩
  | 69 => ⟨S20000x128, .f32⟩
  | 70 => ⟨S20000x128, .f32⟩
  | 71 => ⟨S_, .f32⟩
  | 72 => ⟨S640000, .f32⟩
  | 73 => ⟨S640000, .f32⟩
  | 74 => ⟨S_, .f32⟩
  | 75 => ⟨S640000, .f32⟩
  | 76 => ⟨S640000, .f32⟩
  | 77 => ⟨S640000, .f32⟩
  | 78 => ⟨S_, .f32⟩
  | 79 => ⟨S640000, .f32⟩
  | 80 => ⟨S640000, .f32⟩
  | 81 => ⟨S_, .f32⟩
  | 82 => ⟨S640000, .f32⟩
  | 83 => ⟨S640000, .f32⟩
  | 84 => ⟨S_, .f32⟩
  | 85 => ⟨S640000, .f32⟩
  | 86 => ⟨S640000, .i1⟩
  | 87 => ⟨S640000, .f32⟩
  | 88 => ⟨S640000, .f32⟩
  | 89 => ⟨S640000x128, .f32⟩
  | 90 => ⟨S1x128, .f32⟩
  | 91 => ⟨S640000x128, .f32⟩
  | 92 => ⟨S640000x128, .f32⟩
  | 93 => ⟨S640000x128, .f32⟩
  | 94 => ⟨S640000x128, .f32⟩
  | 95 => ⟨S_, .f32⟩
  | 96 => ⟨S640000x128, .f32⟩
  | 97 => ⟨S640000x128, .f32⟩
  | 98 => ⟨S_, .f32⟩
  | 99 => ⟨S640000x128, .f32⟩
  | 100 => ⟨S640000x128, .f32⟩
  | 101 => ⟨S640000x128, .f32⟩
  | 102 => ⟨S640000x1, .f32⟩
  | 103 => ⟨S1x1, .f32⟩
  | 104 => ⟨S640000x1, .f32⟩
  | 105 => ⟨S640000x1, .f32⟩
  | 106 => ⟨S640000x1, .f32⟩
  | 107 => ⟨S640000x1, .f32⟩
  | 108 => ⟨S_, .f32⟩
  | 109 => ⟨S640000x1, .f32⟩
  | 110 => ⟨S640000x1, .f32⟩
  | 111 => ⟨S_, .f32⟩
  | 112 => ⟨S640000x1, .f32⟩
  | 113 => ⟨S640000x1, .f32⟩
  | 114 => ⟨S640000x1, .f32⟩
  | 115 => ⟨S640000x1, .f32⟩
  | 116 => ⟨S640000x128, .f32⟩
  | 117 => ⟨S1x128, .f32⟩
  | 118 => ⟨S640000x128, .f32⟩
  | 119 => ⟨S640000x128, .f32⟩
  | 120 => ⟨S640000x128, .f32⟩
  | 121 => ⟨S640000x128, .f32⟩
  | 122 => ⟨S_, .f32⟩
  | 123 => ⟨S640000x128, .f32⟩
  | 124 => ⟨S640000x128, .f32⟩
  | 125 => ⟨S_, .f32⟩
  | 126 => ⟨S640000x128, .f32⟩
  | 127 => ⟨S640000x128, .f32⟩
  | _ => ⟨S20000x128, .f32⟩

abbrev hbmTy0_1 (i : Nat) : BufTy := match i % 128 with
  | 0 => ⟨S640000x128, .f32⟩
  | 1 => ⟨S640000x128, .f32⟩
  | 2 => ⟨S1x128, .f32⟩
  | 3 => ⟨S640000x128, .f32⟩
  | 4 => ⟨S640000x128, .f32⟩
  | 5 => ⟨S640000x128, .f32⟩
  | 6 => ⟨S640000x128, .f32⟩
  | 7 => ⟨S_, .f32⟩
  | 8 => ⟨S640000x128, .f32⟩
  | 9 => ⟨S640000x128, .f32⟩
  | 10 => ⟨S_, .f32⟩
  | 11 => ⟨S640000x128, .f32⟩
  | 12 => ⟨S640000x128, .f32⟩
  | 13 => ⟨S640000x128, .f32⟩
  | 14 => ⟨S640000x128, .f32⟩
  | 15 => ⟨S1x128, .f32⟩
  | 16 => ⟨S640000x128, .f32⟩
  | 17 => ⟨S640000x128, .f32⟩
  | 18 => ⟨S_, .i32⟩
  | 19 => ⟨S640000, .i32⟩
  | 20 => ⟨S640000, .i1⟩
  | 21 => ⟨S_, .i32⟩
  | 22 => ⟨S640000, .i32⟩
  | 23 => ⟨S640000, .i32⟩
  | 24 => ⟨S640000, .i32⟩
  | 25 => ⟨S640000x1, .i32⟩
  | 26 => ⟨S640000x128, .f32⟩
  | 27 => ⟨S640000x128, .f32⟩
  | 28 => ⟨S640000x128, .f32⟩
  | 29 => ⟨S640000x128, .f32⟩
  | 30 => ⟨S_, .f32⟩
  | 31 => ⟨S20000x128, .f32⟩
  | 32 => ⟨S640000x1, .i32⟩
  | 33 => ⟨S20000x128, .f32⟩
  | 34 => ⟨S_, .f32⟩
  | 35 => ⟨S20000x1, .f32⟩
  | 36 => ⟨S640000x1, .i32⟩
  | 37 => ⟨S20000x1, .f32⟩
  | 38 => ⟨S_, .f32⟩
  | 39 => ⟨S20000x1, .f32⟩
  | 40 => ⟨S20000x1, .f32⟩
  | 41 => ⟨S20000x128, .f32⟩
  | 42 => ⟨S20000x128, .f32⟩
  | 43 => ⟨S20000x128, .f32⟩
  | 44 => ⟨S1x128, .f32⟩
  | 45 => ⟨S20000x128, .f32⟩
  | 46 => ⟨S20000x128, .f32⟩
  | 47 => ⟨S20000x128, .f32⟩
  | 48 => ⟨S20000x128, .f32⟩
  | 49 => ⟨S_, .f32⟩
  | 50 => ⟨S20000x128, .f32⟩
  | 51 => ⟨S20000x128, .f32⟩
  | 52 => ⟨S_, .f32⟩
  | 53 => ⟨S20000x128, .f32⟩
  | 54 => ⟨S20000x128, .f32⟩
  | 55 => ⟨S20000x128, .f32⟩
  | 56 => ⟨S20000x128, .f32⟩
  | 57 => ⟨S1x128, .f32⟩
  | 58 => ⟨S20000x128, .f32⟩
  | 59 => ⟨S20000x128, .f32⟩
  | 60 => ⟨S20000x128, .f32⟩
  | 61 => ⟨S1x128, .f32⟩
  | 62 => ⟨S20000x128, .f32⟩
  | 63 => ⟨S20000x128, .f32⟩
  | 64 => ⟨S20000x128, .f32⟩
  | 65 => ⟨S1x128, .f32⟩
  | 66 => ⟨S20000x128, .f32⟩
  | 67 => ⟨S20000x128, .f32⟩
  | 68 => ⟨S20000x128, .f32⟩
  | 69 => ⟨S20000x128, .f32⟩
  | 70 => ⟨S20000x128, .f32⟩
  | 71 => ⟨S20000x128, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_cst : Ref sig .tc := ⟨.hbm, 27, rfl⟩
abbrev main_v0 : Ref sig .tc := ⟨.hbm, 28, rfl⟩
abbrev main_v1 : Ref sig .tc := ⟨.hbm, 29, rfl⟩
abbrev main_cst_0 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_cst_3 : Ref sig .tc := ⟨.hbm, 51, rfl⟩
abbrev main_call0_v13 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_cst_1 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_cst_2 : Ref sig .tc := ⟨.hbm, 71, rfl⟩
abbrev main_v18 : Ref sig .tc := ⟨.hbm, 72, rfl⟩
abbrev main_v19 : Ref sig .tc := ⟨.hbm, 73, rfl⟩
abbrev main_cst_3 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_cst_4 : Ref sig .tc := ⟨.hbm, 78, rfl⟩
abbrev main_v23 : Ref sig .tc := ⟨.hbm, 79, rfl⟩
abbrev main_v24 : Ref sig .tc := ⟨.hbm, 80, rfl⟩
abbrev main_cst_5 : Ref sig .tc := ⟨.hbm, 81, rfl⟩
abbrev main_v25 : Ref sig .tc := ⟨.hbm, 82, rfl⟩
abbrev main_v26 : Ref sig .tc := ⟨.hbm, 83, rfl⟩
abbrev main_cst_6 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_call1_v0 : Ref sig .tc := ⟨.hbm, 93, rfl⟩
abbrev main_call1_v1 : Ref sig .tc := ⟨.hbm, 94, rfl⟩
abbrev main_call1_cst : Ref sig .tc := ⟨.hbm, 95, rfl⟩
abbrev main_call1_v2 : Ref sig .tc := ⟨.hbm, 96, rfl⟩
abbrev main_call1_v3 : Ref sig .tc := ⟨.hbm, 97, rfl⟩
abbrev main_call1_cst_0 : Ref sig .tc := ⟨.hbm, 98, rfl⟩
abbrev main_call1_v4 : Ref sig .tc := ⟨.hbm, 99, rfl⟩
abbrev main_call1_v5 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_cst_7 : Ref sig .tc := ⟨.hbm, 108, rfl⟩
abbrev main_v42 : Ref sig .tc := ⟨.hbm, 109, rfl⟩
abbrev main_v43 : Ref sig .tc := ⟨.hbm, 110, rfl⟩
abbrev main_cst_8 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_call2_v0 : Ref sig .tc := ⟨.hbm, 120, rfl⟩
abbrev main_call2_v1 : Ref sig .tc := ⟨.hbm, 121, rfl⟩
abbrev main_call2_cst : Ref sig .tc := ⟨.hbm, 122, rfl⟩
abbrev main_call2_v2 : Ref sig .tc := ⟨.hbm, 123, rfl⟩
abbrev main_call2_v3 : Ref sig .tc := ⟨.hbm, 124, rfl⟩
abbrev main_call2_cst_0 : Ref sig .tc := ⟨.hbm, 125, rfl⟩
abbrev main_call2_v4 : Ref sig .tc := ⟨.hbm, 126, rfl⟩
abbrev main_call2_v5 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_call3_v0 : Ref sig .tc := ⟨.hbm, 133, rfl⟩
abbrev main_call3_v1 : Ref sig .tc := ⟨.hbm, 134, rfl⟩
abbrev main_call3_cst : Ref sig .tc := ⟨.hbm, 135, rfl⟩
abbrev main_call3_v2 : Ref sig .tc := ⟨.hbm, 136, rfl⟩
abbrev main_call3_v3 : Ref sig .tc := ⟨.hbm, 137, rfl⟩
abbrev main_call3_cst_0 : Ref sig .tc := ⟨.hbm, 138, rfl⟩
abbrev main_call3_v4 : Ref sig .tc := ⟨.hbm, 139, rfl⟩
abbrev main_call3_v5 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_c_9 : Ref sig .tc := ⟨.hbm, 146, rfl⟩
abbrev main_v62 : Ref sig .tc := ⟨.hbm, 147, rfl⟩
abbrev main_v63 : Ref sig .tc := ⟨.hbm, 148, rfl⟩
abbrev main_c_10 : Ref sig .tc := ⟨.hbm, 149, rfl⟩
abbrev main_v64 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_cst_11 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_cst_12 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_cst_13 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_call4_v0 : Ref sig .tc := ⟨.hbm, 175, rfl⟩
abbrev main_call4_v1 : Ref sig .tc := ⟨.hbm, 176, rfl⟩
abbrev main_call4_cst : Ref sig .tc := ⟨.hbm, 177, rfl⟩
abbrev main_call4_v2 : Ref sig .tc := ⟨.hbm, 178, rfl⟩
abbrev main_call4_v3 : Ref sig .tc := ⟨.hbm, 179, rfl⟩
abbrev main_call4_cst_0 : Ref sig .tc := ⟨.hbm, 180, rfl⟩
abbrev main_call4_v4 : Ref sig .tc := ⟨.hbm, 181, rfl⟩
abbrev main_call4_v5 : Ref sig .tc := ⟨.hbm, 182, rfl⟩
abbrev main_v86 : Ref sig .tc := ⟨.hbm, 183, rfl⟩
abbrev main_v87 : Ref sig .tc := ⟨.hbm, 184, rfl⟩
abbrev main_v88 : Ref sig .tc := ⟨.hbm, 185, rfl⟩
abbrev main_v89 : Ref sig .tc := ⟨.hbm, 186, rfl⟩
abbrev main_v90 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩

abbrev nD : Nat := 1
abbrev τ : Topo := Topo.v7x

variable {F : FTy → Type} [FloatOps F]

class Facts₀ : Prop where
  reducesTo_S20000x128_S20000_d1 : S20000x128.ReducesTo [1] S20000
  h_S_ : 0 < S_.numel
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S640000 : S_.BroadcastsInDim S640000 (![] : Fin 0 → Fin S640000.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S_S640000x1 : S_.BroadcastsInDim S640000x1 (![] : Fin 0 → Fin S640000x1.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S20000x128 : S_.BroadcastsInDim S20000x128 (![] : Fin 0 → Fin S20000x128.rank)
  dot_S640000x32_S32x128_S640000x128_1_0_0_1_n_n_wf : DotDims.WF S640000x32 S32x128 S640000x128 [1] [0] [0] [1] [] []
  dot_S640000x128_S128x1_S640000x1_1_0_0_1_n_n_wf : DotDims.WF S640000x128 S128x1 S640000x1 [1] [0] [0] [1] [] []
  dot_S640000x128_S128x128_S640000x128_1_0_0_1_n_n_wf : DotDims.WF S640000x128 S128x128 S640000x128 [1] [0] [0] [1] [] []
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  scatter_S20000x1_S640000x1_S640000x1_1_0_0_1_wf : ScatterDims.WF S20000x1 S640000x1 S640000x1 [1] [0] [0] 1
  dot_S20000x128_S128x128_S20000x128_1_0_0_1_n_n_wf : DotDims.WF S20000x128 S128x128 S20000x128 [1] [0] [0] [1] [] []

variable [Facts₀]

def dot_S640000x32_S32x128_S640000x128_1_0_0_1_n_n : DotDims S640000x32 S32x128 S640000x128 where
  lhsContracting := [1]
  rhsContracting := [0]
  lhsNonContracting := [0]
  rhsNonContracting := [1]
  lhsBatch := []
  rhsBatch := []
  wf := dot_S640000x32_S32x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S20000x1_S640000x1_S640000x1_1_0_0_1 : ScatterDims S20000x1 S640000x1 S640000x1 where
  updateWindowDims := [1]
  insertedWindowDims := [0]
  scatterDimsToOperandDims := [0]
  indexVectorDim := 1
  wf := scatter_S20000x1_S640000x1_S640000x1_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

class Facts : Prop extends Facts₀ where

variable [Facts]
-- ==== Proof.Spec.lean ====
/-
  The mathematics both programs compute, written once over the extended reals, row by row.

  A node's features are normalised over the 128 features of its row (mean and biased variance, then
  `(v - μ) · (σ² + ε)^(-1/2) · g + b`). An edge's weight is `cut · logistic(silu(rbf · W₁ + b₁) · w₂ + b₂)`,
  its radial factor a three-layer perceptron of the same radial basis row, and its message the gathered
  source row times the radial factor times the edge weight. A node's update is the residual
  `x + s · ((xn · Wsl + bsl) + ((silu(agg · W₁ + b₁) · W₂ + b₂) · Wul + bul))`.
  Every dense layer is the sum over the contracted index of products plus a bias; nothing here depends on
  how rows are grouped into blocks.
-/
import Idealize.ShloMosaic.PureOps.Ideal
import Idealize.ShloMosaic.Lib.ValueIdx

noncomputable section

namespace Cert.Spec

open Idealize.ShloMosaic

/-- The divisor 128.0 both layer norms divide their sums by. -/
def c128 : EReal := Ideal.ofBits .f32 0x43000000#32
/-- The layer norm's epsilon, the f32 nearest 1e-5, the same word in both programs. -/
def eps : EReal := Ideal.ofBits .f32 0x3727C5AC#32

/-- `z · logistic z`. -/
def silu (z : EReal) : EReal := z * Ideal.logistic z

/-- One output of a dense layer: `Σ_k a_k · W_{k,q} + b_q`. -/
def lin {K N : Nat} (a : Fin K → EReal) (W : Fin K → Fin N → EReal) (b : Fin N → EReal) (q : Fin N) : EReal :=
  (∑ k : Fin K, a k * W k q) + b q

/-- The mean of a row of 128 entries. -/
def mean (v : Fin 128 → EReal) : EReal := Ideal.div (∑ k : Fin 128, v k) c128

/-- The biased variance of a row of 128 entries. -/
def var (v : Fin 128 → EReal) : EReal := Ideal.div (∑ k : Fin 128, (v k - mean v) * (v k - mean v)) c128

/-- Layer normalisation of one row, at feature `q`. -/
def lnRow (v g b : Fin 128 → EReal) (q : Fin 128) : EReal :=
  (v q - mean v) * Ideal.rsqrt (var v + eps) * g q + b q

/-- The edge weight of one edge: the cutoff value times the gate. -/
def edgeW (rbf : Fin 32 → EReal) (cut : EReal) (w1 : Fin 32 → Fin 128 → EReal) (b1 : Fin 128 → EReal)
    (w2 : Fin 128 → EReal) (b2 : EReal) : EReal :=
  cut * Ideal.logistic ((∑ k : Fin 128, silu (lin rbf w1 b1 k) * w2 k) + b2)

/-- The radial factor of one edge at feature `q`. -/
def radial (rbf : Fin 32 → EReal) (w1 : Fin 32 → Fin 128 → EReal) (b1 : Fin 128 → EReal)
    (w2 : Fin 128 → Fin 128 → EReal) (b2 : Fin 128 → EReal) (w3 : Fin 128 → Fin 128 → EReal) (b3 : Fin 128 → EReal)
    (q : Fin 128) : EReal :=
  lin (fun j => silu (lin (fun i => silu (lin rbf w1 b1 i)) w2 b2 j)) w3 b3 q

/-- The message of one edge at feature `q`: gathered source row × radial factor × edge weight. -/
def msg (xg : Fin 128 → EReal) (rad : Fin 128 → EReal) (ew : EReal) (q : Fin 128) : EReal :=
  xg q * rad q * ew

/-- The update of one node at feature `q`. -/
def node (x xn agg : Fin 128 → EReal)
    (mw1 : Fin 128 → Fin 128 → EReal) (mb1 : Fin 128 → EReal) (mw2 : Fin 128 → Fin 128 → EReal) (mb2 : Fin 128 → EReal)
    (slw : Fin 128 → Fin 128 → EReal) (slb : Fin 128 → EReal) (ulw : Fin 128 → Fin 128 → EReal) (ulb : Fin 128 → EReal)
    (rs : EReal) (q : Fin 128) : EReal :=
  x q + rs * (lin xn slw slb q
    + lin (fun j => lin (fun i => silu (lin agg mw1 mb1 i)) mw2 mb2 j) ulw ulb q)

/-! ## The same, array by array -/

open Idealize.ShloMosaic.ValueIdx

/-- A rank-2 array of extended reals. -/
abbrev A2 (a b : Nat) : Type := (⟨2, ![a, b]⟩ : Shape).Idx → EReal
/-- Row `r` of a rank-2 array. -/
def row {a b : Nat} (A : A2 a b) (r : Fin a) : Fin b → EReal := fun k => A (ix2 r k)
/-- A rank-2 array as a function of its two coordinates. -/
def mat {a b : Nat} (A : A2 a b) : Fin a → Fin b → EReal := fun p q => A (ix2 p q)

/-- The one column of an [a, 1] array. -/
def col0 {a : Nat} (A : A2 a 1) : Fin a → EReal := fun e => A (ix2 e 0)
/-- The one entry of a [1, 1] array. -/
def at00 (A : A2 1 1) : EReal := A (ix2 0 0)

/-- The normalised node features: every row normalised. -/
def lnArr (x : A2 20000 128) (g b : Fin 128 → EReal) : A2 20000 128 :=
  fun i => lnRow (row x (i 0)) g b (i 1)

/-- Every edge's weight, as a column. -/
def ewArr (rbf : A2 640000 32) (cut : Fin 640000 → EReal) (w1 : A2 32 128) (b1 : Fin 128 → EReal)
    (w2 : Fin 128 → EReal) (b2 : EReal) : A2 640000 1 :=
  fun i => edgeW (row rbf (i 0)) (cut (i 0)) (mat w1) b1 w2 b2

/-- Every edge's message. -/
def msgArr (rbf : A2 640000 32) (cut : Fin 640000 → EReal) (xg : A2 640000 128)
    (gw1 : A2 32 128) (gb1 : Fin 128 → EReal) (gw2 : Fin 128 → EReal) (gb2 : EReal)
    (w1 : A2 32 128) (b1 : Fin 128 → EReal) (w2 : A2 128 128) (b2 : Fin 128 → EReal) (w3 : A2 128 128) (b3 : Fin 128 → EReal) :
    A2 640000 128 :=
  fun i => msg (row xg (i 0)) (radial (row rbf (i 0)) (mat w1) b1 (mat w2) b2 (mat w3) b3)
    (edgeW (row rbf (i 0)) (cut (i 0)) (mat gw1) gb1 gw2 gb2) (i 1)

/-- Every node's update. -/
def nodeArr (x xn agg : A2 20000 128)
    (mw1 : A2 128 128) (mb1 : Fin 128 → EReal) (mw2 : A2 128 128) (mb2 : Fin 128 → EReal)
    (slw : A2 128 128) (slb : Fin 128 → EReal) (ulw : A2 128 128) (ulb : Fin 128 → EReal) (rs : EReal) : A2 20000 128 :=
  fun i => node (row x (i 0)) (row xn (i 0)) (row agg (i 0)) (mat mw1) mb1 (mat mw2) mb2 (mat slw) slb (mat ulw) ulb rs (i 1)

end Cert.Spec

end
-- ==== Proof.KReg0.lean ====
/-
  Region 0, the layer norm of the node features, array by array.

  The body's stored block is, entry by entry, the layer norm of the matching row of its feature block with the gain and
  bias rows (the lane sums are sums over the 128 features; the mean and variance columns are those sums divided by 128;
  the columns and the two rows are spread back over the block). Row p of the block at grid point t is row 4000·t + p of
  the feature array, the gain's and the bias's blocks are their whole rows, so what point t writes back is block t of
  the normalised array; the five blocks cover the 20000 rows (row r lies in block r / 4000), hence the array after the
  region is the normalised array.
-/
import proofs.«408722_j80805514707436_1_alg».proof.Proof.Gen.KernelIdeal.Frame
import proofs.«408722_j80805514707436_1_alg».proof.Proof.Spec
import Idealize.ShloMosaic.Lib.Pipeline.Value
import Idealize.ShloMosaic.PureOps.Ideal.Laws

set_option maxRecDepth 16384

noncomputable section

namespace Cert.KernelIdeal.Reg0

open Idealize.ShloMosaic Idealize.ShloMosaic.TcCoe Idealize.SL.Sem Idealize.ShloMosaic.ValueIdx
open Idealize.ShloMosaic.Pipeline (Dat Cfg Window)
open Cert.KernelIdeal Cert.KernelIdeal.Gen
variable (V : (c : Dev nD) → (b : Ref sig .tc) → Buf (Elt Ideal) ((c : Thread nD τ).loc b))

/-- The lane sum of a block of rows, at row p: the sum over the 128 features of that row. -/
theorem laneSum_apply (v : Vec Ideal S4000x128 .f32) (p : Fin 4000) :
    multiReduction (F := Ideal) .add [1] S4000 v 0x00000000#32 reduces_S4000x128_S4000 (.inl rfl) rfl (ix1 p)
      = ∑ k : Fin 128, v (ix2 p k) := by
  refine (Ideal.multiReduction_add_single v _ reduces_S4000x128_S4000 (.inl rfl) rfl (ix1 p)).trans ?_
  refine Finset.sum_congr rfl fun k _ => congrArg v ?_
  funext a; apply Fin.ext
  match a with
  | ⟨0, _⟩ => rfl
  | ⟨1, _⟩ => rfl

/-- A vector of 4000 entries viewed as a column [4000, 1], read at (p, 0). -/
theorem colCast_apply (v : Vec Ideal S4000 .f32) (p : Fin 4000) (z : Fin 1) :
    shapeCast S4000x1 v shapeCasts_S4000_S4000x1 (ix2 p z) = v (ix1 p) := by
  refine shapeCast_apply v _ (ix2 p z) (ix1 p) ?_
  rw [Shape.rowMajor_val_one, Shape.rowMajor_val_two]
  show p.val = p.val * 1 + z.val
  omega

/-- A column [4000, 1] spread over the 128 features, read at (p, q). -/
theorem colSpread_apply (v : Vec Ideal S4000x1 .f32) (p : Fin 4000) (q : Fin 128) :
    broadcastTo S4000x128 v broadcasts_S4000x1_S4000x128 (ix2 p q) = v (ix2 p 0) := by
  refine broadcastTo_apply v _ (ix2 p q) (ix2 p 0) fun a => ?_
  match a with
  | ⟨0, _⟩ => rfl
  | ⟨1, _⟩ => rfl

/-- A row [1, 128] spread over the 4000 rows, read at (p, q). -/
theorem rowSpread_apply (v : Vec Ideal S1x128 .f32) (p : Fin 4000) (q : Fin 128) :
    broadcastTo S4000x128 v broadcasts_S1x128_S4000x128 (ix2 p q) = v (ix2 0 q) := by
  refine broadcastTo_apply v _ (ix2 p q) (ix2 0 q) fun a => ?_
  match a with
  | ⟨0, _⟩ => rfl
  | ⟨1, _⟩ => rfl

/-- The reciprocal square root of a vector, read at an index. -/
theorem rsqrt_apply {s : Shape} {φ : FTy} (a : FVec Ideal s φ) (i : s.Idx) : rsqrt a i = Ideal.rsqrt (a i) := rfl

/-- The column of row means of a block: each row's lane sum divided by 128. -/
abbrev meanCol (x : Vec Ideal S4000x128 .f32) : FVec Ideal S4000x1 .f32 :=
  divf (shapeCast S4000x1 (multiReduction (F := Ideal) .add [1] S4000 x 0x00000000#32 reduces_S4000x128_S4000 (.inl rfl) rfl) shapeCasts_S4000_S4000x1)
    (broadcast S4000x1 (Scalar.ofBits (F := Ideal) .f32 0x43000000#32))

/-- The block with each row's mean taken off. -/
abbrev centred (x : Vec Ideal S4000x128 .f32) : FVec Ideal S4000x128 .f32 :=
  subf x (broadcastTo S4000x128 (meanCol x) broadcasts_S4000x1_S4000x128)

/-- The column of row variances of a block: the lane sum of the squared centred entries divided by 128. -/
abbrev varCol (x : Vec Ideal S4000x128 .f32) : FVec Ideal S4000x1 .f32 :=
  divf (shapeCast S4000x1 (multiReduction (F := Ideal) .add [1] S4000 (mulf (centred x) (centred x)) 0x00000000#32 reduces_S4000x128_S4000 (.inl rfl) rfl) shapeCasts_S4000_S4000x1)
    (broadcast S4000x1 (Scalar.ofBits (F := Ideal) .f32 0x43000000#32))

/-- The mean column at row p is the mean of row p. -/
theorem meanCol_apply (x : Vec Ideal S4000x128 .f32) (p : Fin 4000) (z : Fin 1) :
    meanCol x (ix2 p z) = Cert.Spec.mean (fun k => x (ix2 p k)) := by
  show Ideal.div (shapeCast S4000x1 _ shapeCasts_S4000_S4000x1 (ix2 p z)) _ = _
  rw [colCast_apply, laneSum_apply]
  rfl

/-- The centred block at (p, q) is the entry less its row's mean. -/
theorem centred_apply (x : Vec Ideal S4000x128 .f32) (p : Fin 4000) (q : Fin 128) :
    centred x (ix2 p q) = x (ix2 p q) - Cert.Spec.mean (fun k => x (ix2 p k)) := by
  show x (ix2 p q) - broadcastTo S4000x128 (meanCol x) broadcasts_S4000x1_S4000x128 (ix2 p q) = _
  rw [colSpread_apply, meanCol_apply]

/-- The variance column at row p is the biased variance of row p. -/
theorem varCol_apply (x : Vec Ideal S4000x128 .f32) (p : Fin 4000) (z : Fin 1) :
    varCol x (ix2 p z) = Cert.Spec.var (fun k => x (ix2 p k)) := by
  show Ideal.div (shapeCast S4000x1 _ shapeCasts_S4000_S4000x1 (ix2 p z)) _ = _
  rw [colCast_apply, laneSum_apply]
  refine congrArg (fun s => Ideal.div s _) (Finset.sum_congr rfl fun k _ => ?_)
  show centred x (ix2 p k) * centred x (ix2 p k) = _
  rw [centred_apply]

/-- The body's stored value is this tree of the named columns. -/
theorem pay_eq (x : Vec Ideal S4000x128 .f32) (g b : Vec Ideal S1x128 .f32) :
    k0_pay1 (F := Ideal) x g b
      = addf (mulf (mulf (centred x)
            (broadcastTo S4000x128 (rsqrt (addf (varCol x) (broadcast S4000x1 (Scalar.ofBits (F := Ideal) .f32 0x3727C5AC#32)))) broadcasts_S4000x1_S4000x128))
          (broadcastTo S4000x128 (shapeCast S1x128 g shapeCasts_S1x128_S1x128) broadcasts_S1x128_S4000x128))
        (broadcastTo S4000x128 (shapeCast S1x128 b shapeCasts_S1x128_S1x128) broadcasts_S1x128_S4000x128) := rfl

/-- The body's stored value at row p, feature q of its block: the layer norm of row p of the block. -/
theorem pay_apply (x : Vec Ideal S4000x128 .f32) (g b : Vec Ideal S1x128 .f32) (p : Fin 4000) (q : Fin 128) :
    k0_pay1 (F := Ideal) x g b (ix2 p q)
      = Cert.Spec.lnRow (fun k => x (ix2 p k)) (fun k => g (ix2 0 k)) (fun k => b (ix2 0 k)) q := by
  rw [pay_eq]
  show centred x (ix2 p q) * broadcastTo S4000x128 (rsqrt (addf (varCol x) _)) broadcasts_S4000x1_S4000x128 (ix2 p q)
      * broadcastTo S4000x128 (shapeCast S1x128 g shapeCasts_S1x128_S1x128) broadcasts_S1x128_S4000x128 (ix2 p q)
      + broadcastTo S4000x128 (shapeCast S1x128 b shapeCasts_S1x128_S1x128) broadcasts_S1x128_S4000x128 (ix2 p q) = _
  rw [rowSpread_apply, rowSpread_apply, colSpread_apply, centred_apply, shapeCast_self, shapeCast_self]
  show _ * Ideal.rsqrt (varCol x (ix2 p 0) + _) * _ + _ = _
  rw [varCol_apply]
  rfl

theorem hz : (![0, 0] : Fin 2 → Nat) = fun _ => 0 := funext fun a => by fin_cases a <;> rfl

/-- The block index maps, decided over the five grid points: the feature rows' windows sit at block t along the rows,
    the gain's and the bias's at the one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The blocks and the arrays at their literal types. -/
abbrev xblk (c : Dev nD) (t : Fin cfg0.N) : Vec Ideal S4000x128 .f32 := iblk0 V c 0 t
abbrev gblk (c : Dev nD) (t : Fin cfg0.N) : Vec Ideal S1x128 .f32 := iblk0 V c 1 t
abbrev bblk (c : Dev nD) (t : Fin cfg0.N) : Vec Ideal S1x128 .f32 := iblk0 V c 2 t
abbrev xarr (c : Dev nD) : Vec Ideal S20000x128 .f32 := V c main_arg0
abbrev garr (c : Dev nD) : Vec Ideal S1x128 .f32 := V c main_v0
abbrev barr (c : Dev nD) : Vec Ideal S1x128 .f32 := V c main_v1

/-- Row p of the feature block at point t is row 4000·t + p of the feature array. -/
theorem xblk_apply (c : Dev nD) (t : Fin cfg0.N) (p : Fin 4000) (k : Fin 128) (r : Fin 20000)
    (hr : r.val = 4000 * t.val + p.val) : xblk V c t (ix2 p k) = xarr V c (ix2 r k) := by
  obtain ⟨e0, e1, -⟩ := idx_facts t
  unfold xblk iblk0
  rw [View.read_apply]
  show V c main_arg0 _ = V c main_arg0 _
  congr 1
  funext a; apply Fin.ext
  match a with
  | ⟨0, _⟩ => show win0_0.index t (0 : Fin 2) * 4000 + 1 * p.val = r.val; rw [e0, hr]; omega
  | ⟨1, _⟩ => show win0_0.index t (1 : Fin 2) * 128 + 1 * k.val = k.val; rw [e1]; omega

/-- The gain's block at every point is the gain row. -/
theorem gblk_apply (c : Dev nD) (t : Fin cfg0.N) (k : Fin 128) : gblk V c t (ix2 0 k) = garr V c (ix2 0 k) := by
  obtain ⟨-, -, e2, e3, -⟩ := idx_facts t
  unfold gblk iblk0
  rw [View.read_apply]
  show V c main_v0 _ = V c main_v0 _
  congr 1
  funext a; apply Fin.ext
  match a with
  | ⟨0, _⟩ => show win0_1.index t (0 : Fin 2) * 1 + 1 * 0 = 0; rw [e2]
  | ⟨1, _⟩ => show win0_1.index t (1 : Fin 2) * 128 + 1 * k.val = k.val; rw [e3]; omega

/-- The bias's block at every point is the bias row. -/
theorem bblk_apply (c : Dev nD) (t : Fin cfg0.N) (k : Fin 128) : bblk V c t (ix2 0 k) = barr V c (ix2 0 k) := by
  obtain ⟨-, -, -, -, e4, e5, -⟩ := idx_facts t
  unfold bblk iblk0
  rw [View.read_apply]
  show V c main_v1 _ = V c main_v1 _
  congr 1
  funext a; apply Fin.ext
  match a with
  | ⟨0, _⟩ => show win0_2.index t (0 : Fin 2) * 1 + 1 * 0 = 0; rw [e4]
  | ⟨1, _⟩ => show win0_2.index t (1 : Fin 2) * 128 + 1 * k.val = k.val; rw [e5]; omega

/-- What point t stores at row p, feature q of its block is the normalised feature array at row 4000·t + p. -/
theorem stored_apply (c : Dev nD) (t : Fin cfg0.N) (p : Fin 4000) (q : Fin 128) (r : Fin 20000)
    (hr : r.val = 4000 * t.val + p.val) :
    k0_pay1 (F := Ideal) (xblk V c t) (gblk V c t) (bblk V c t) (ix2 p q)
      = Cert.Spec.lnArr (xarr V c) (Cert.Spec.row (garr V c) 0) (Cert.Spec.row (barr V c) 0) (ix2 r q) := by
  rw [pay_apply]
  show Cert.Spec.lnRow _ _ _ q = Cert.Spec.lnRow (Cert.Spec.row (xarr V c) r) (Cert.Spec.row (garr V c) 0) (Cert.Spec.row (barr V c) 0) q
  congr 1
  · funext k; exact xblk_apply V c t p k r hr
  · funext k; exact gblk_apply V c t k
  · funext k; exact bblk_apply V c t k

/-- What point t writes back is block t of the normalised feature array. -/
theorem flushed_eq (c : Dev nD) (t : Fin cfg0.N) :
    (dat0 (F := Ideal) V c).flushed 3 t
      = ((cfg0.win 3).blk t).view.read (Elt Ideal)
          (Cert.Spec.lnArr (xarr V c) (Cert.Spec.row (garr V c) 0) (Cert.Spec.row (barr V c) 0)) := by
  show (cfg0.win 3).cut (grid0.coords t) ((dat0 V c).after 3 t) = _
  rw [after0_3]
  unfold out0_3
  rw [View.canon_unit_zero hz]
  simp only [View.ld_unit_zero (S := S4000x128) hz, View.ld_unit_zero (S := S1x128) hz]
  obtain ⟨-, -, -, -, -, -, e6, e7⟩ := idx_facts t
  have ht : t.val < 5 := by have h := t.isLt; have hN : cfg0.N = 5 := N_0; omega
  funext j
  have hj0 : (j 0).val < 4000 := (j 0).isLt
  have hj1 : (j 1).val < 128 := (j 1).isLt
  rw [View.read_apply]
  have ej : (cfg0.win 3).xinj (grid0.coords t) j = ix2 (⟨(j 0).val, hj0⟩ : Fin 4000) (⟨(j 1).val, hj1⟩ : Fin 128) :=
    funext fun a => by match a with | ⟨0, _⟩ => rfl | ⟨1, _⟩ => rfl
  have ei : ((cfg0.win 3).blk t).view.emb j
      = ix2 (⟨4000 * t.val + (j 0).val, by omega⟩ : Fin 20000) (⟨(j 1).val, hj1⟩ : Fin 128) :=
    funext fun a => Fin.ext (by
      match a with
      | ⟨0, _⟩ => show win0_3.index t (0 : Fin 2) * 4000 + 1 * (j 0).val = 4000 * t.val + (j 0).val; rw [e6]; omega
      | ⟨1, _⟩ => show win0_3.index t (1 : Fin 2) * 128 + 1 * (j 1).val = (j 1).val; rw [e7]; omega)
  show k0_pay1 (F := Ideal) (xblk V c t) (gblk V c t) (bblk V c t) ((cfg0.win 3).xinj (grid0.coords t) j)
      = Cert.Spec.lnArr (xarr V c) (Cert.Spec.row (garr V c) 0) (Cert.Spec.row (barr V c) 0) (((cfg0.win 3).blk t).view.emb j)
  refine (congrArg (k0_pay1 (F := Ideal) (xblk V c t) (gblk V c t) (bblk V c t)) ej).trans ?_
  refine Eq.trans ?_ (congrArg (Cert.Spec.lnArr (xarr V c) (Cert.Spec.row (garr V c) 0) (Cert.Spec.row (barr V c) 0)) ei).symm
  exact stored_apply V c t _ _ _ rfl

/-- An index of the array is in point t's block iff each coordinate is in the block's range on its axis. -/
theorem mem_blk (t : Fin cfg0.N) (i : S20000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v2).slice (win0_3.rect t)).set ↔ _
  rw [View.set_slice_whole, Rect.mem_set_unit]
  exact Iff.rfl

/-- Every row r is in the block of point r / 4000. -/
theorem covered (i : S20000x128.Idx) :
    ∃ t : Fin cfg0.N, (cfg0.win 3).flush t = true ∧ i ∈ ((cfg0.win 3).blk t).view.set := by
  have hi0 : (i 0).val < 20000 := (i 0).isLt
  have hi1 : (i 1).val < 128 := (i 1).isLt
  obtain ⟨t, ht⟩ : ∃ t : Fin cfg0.N, t.val = (i 0).val / 4000 :=
    ⟨⟨(i 0).val / 4000, by rw [show cfg0.N = 5 from N_0]; omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 4000 ≤ (i 0).val ∧ (i 0).val < win0_3.index t (0 : Fin 2) * 4000 + 4000; rw [e6, ht]; omega
  | ⟨1, _⟩ => show win0_3.index t (1 : Fin 2) * 128 ≤ (i 1).val ∧ (i 1).val < win0_3.index t (1 : Fin 2) * 128 + 128; rw [e7]; omega

/-- The array after the region is the normalised feature array. -/
theorem final3 (c : Dev nD) :
    (dat0 (F := Ideal) V c).arrAt 3 cfg0.N
      = Cert.Spec.lnArr (V c main_arg0) (Cert.Spec.row (V c main_v0) 0) (Cert.Spec.row (V c main_v1) 0) :=
  (dat0 (F := Ideal) V c).arrAt_eq_of_cover 3
    (Cert.Spec.lnArr (xarr V c) (Cert.Spec.row (garr V c) 0) (Cert.Spec.row (barr V c) 0))
    (fun t _ => flushed_eq V c t) covered

end Cert.KernelIdeal.Reg0

end
-- ==== Proof.KReg1.lean ====
/-
  The edge region's two output arrays at the ideal values. The body's payloads are read at an entry: each of the five
  matrix products is the sum over its contracted coordinate of the products of the operands' entries, the bias rows and
  the edge-weight column are spread along the other axis, and silu is `z · logistic z`; so the edge-weight payload at row
  `p` is the edge weight of the edge in that row, and the message payload at `(p, q)` is that edge's message at feature
  `q`. Point `t` of the 160 holds rows `4000 t … 4000 t + 3999` of the three edge inputs and the whole of every weight
  and bias, and writes back the same rows of the two outputs; the point `edge / 4000` covers an edge, so each output
  array ends as the whole-array function of the inputs.
-/
import proofs.«408722_j80805514707436_1_alg».proof.Proof.Gen.KernelIdeal.Frame
import proofs.«408722_j80805514707436_1_alg».proof.Proof.Spec
import Idealize.ShloMosaic.Lib.Pipeline.Value
import Idealize.ShloMosaic.PureOps.Ideal.Laws

set_option maxRecDepth 16384

noncomputable section

namespace Cert.KernelIdeal.Reg1

open Idealize.ShloMosaic Idealize.ShloMosaic.TcCoe Idealize.SL.Sem Idealize.ShloMosaic.ValueIdx
open Idealize.ShloMosaic.Pipeline (Dat Cfg Window)
open Cert.KernelIdeal Cert.KernelIdeal.Gen
variable (V : (c : Dev nD) → (b : Ref sig .tc) → Buf (Elt Ideal) ((c : Thread nD τ).loc b))

/-! ## The three contractions' operand indices, coordinate by coordinate, and each product at an entry -/

theorem lhs32_0 (j : S4000x128.Idx) (k : dot_S4000x32_S32x128_S4000x128_1_0_0_1_n_n.contr.Idx) :
    (dot_S4000x32_S32x128_S4000x128_1_0_0_1_n_n.lhsIdx j k 0 : ℕ) = j 0 := by
  simp [DotDims.lhsIdx, dot_S4000x32_S32x128_S4000x128_1_0_0_1_n_n]; rfl
theorem lhs32_1 (j : S4000x128.Idx) (k : dot_S4000x32_S32x128_S4000x128_1_0_0_1_n_n.contr.Idx) :
    (dot_S4000x32_S32x128_S4000x128_1_0_0_1_n_n.lhsIdx j k 1 : ℕ) = k ⟨0, by decide⟩ := by
  simp [DotDims.lhsIdx, dot_S4000x32_S32x128_S4000x128_1_0_0_1_n_n]; rfl
theorem rhs32_0 (j : S4000x128.Idx) (k : dot_S4000x32_S32x128_S4000x128_1_0_0_1_n_n.contr.Idx) :
    (dot_S4000x32_S32x128_S4000x128_1_0_0_1_n_n.rhsIdx j k 0 : ℕ) = k ⟨0, by decide⟩ := by
  simp [DotDims.rhsIdx, dot_S4000x32_S32x128_S4000x128_1_0_0_1_n_n]; rfl
theorem rhs32_1 (j : S4000x128.Idx) (k : dot_S4000x32_S32x128_S4000x128_1_0_0_1_n_n.contr.Idx) :
    (dot_S4000x32_S32x128_S4000x128_1_0_0_1_n_n.rhsIdx j k 1 : ℕ) = j 1 := by
  simp [DotDims.rhsIdx, dot_S4000x32_S32x128_S4000x128_1_0_0_1_n_n]; rfl

/-- A [4000,32] by [32,128] product into the zero accumulator, at an entry: the sum over the contracted coordinate
    of the products of the two operands' entries. -/
theorem mm32_at (A : FVec Ideal S4000x32 .bf16) (B : FVec Ideal S32x128 .bf16) (p : Fin 4000) (q : Fin 128) :
    matmul dot_S4000x32_S32x128_S4000x128_1_0_0_1_n_n none A B (constant (F := Ideal) S4000x128 .f32 0x00000000#32) (ix2 p q)
      = ∑ k : Fin 32, A (ix2 p k) * B (ix2 k q) := by
  show FloatOps.matmul _ none A B _ (ix2 p q) = _
  rw [Ideal.matmul_constant_zero_apply,
    ← Equiv.sum_comp (contrEquiv1 dot_S4000x32_S32x128_S4000x128_1_0_0_1_n_n 32 rfl rfl).symm]
  refine Finset.sum_congr rfl fun c _ => ?_
  have c2 := contrEquiv1_symm_val dot_S4000x32_S32x128_S4000x128_1_0_0_1_n_n 32 rfl rfl c
  have l2 : dot_S4000x32_S32x128_S4000x128_1_0_0_1_n_n.lhsIdx (ix2 p q) ((contrEquiv1 _ 32 rfl rfl).symm c) = ix2 p c := by
    funext ax; apply Fin.ext
    match ax with
    | ⟨0, _⟩ => exact lhs32_0 _ _
    | ⟨1, _⟩ => exact (lhs32_1 _ _).trans c2
  have r2 : dot_S4000x32_S32x128_S4000x128_1_0_0_1_n_n.rhsIdx (ix2 p q) ((contrEquiv1 _ 32 rfl rfl).symm c) = ix2 c q := by
    funext ax; apply Fin.ext
    match ax with
    | ⟨0, _⟩ => exact (rhs32_0 _ _).trans c2
    | ⟨1, _⟩ => exact rhs32_1 _ _
  rw [l2, r2]

theorem lhs128_0 (j : S4000x128.Idx) (k : dot_S4000x128_S128x128_S4000x128_1_0_0_1_n_n.contr.Idx) :
    (dot_S4000x128_S128x128_S4000x128_1_0_0_1_n_n.lhsIdx j k 0 : ℕ) = j 0 := by
  simp [DotDims.lhsIdx, dot_S4000x128_S128x128_S4000x128_1_0_0_1_n_n]; rfl
theorem lhs128_1 (j : S4000x128.Idx) (k : dot_S4000x128_S128x128_S4000x128_1_0_0_1_n_n.contr.Idx) :
    (dot_S4000x128_S128x128_S4000x128_1_0_0_1_n_n.lhsIdx j k 1 : ℕ) = k ⟨0, by decide⟩ := by
  simp [DotDims.lhsIdx, dot_S4000x128_S128x128_S4000x128_1_0_0_1_n_n]; rfl
theorem rhs128_0 (j : S4000x128.Idx) (k : dot_S4000x128_S128x128_S4000x128_1_0_0_1_n_n.contr.Idx) :
    (dot_S4000x128_S128x128_S4000x128_1_0_0_1_n_n.rhsIdx j k 0 : ℕ) = k ⟨0, by decide⟩ := by
  simp [DotDims.rhsIdx, dot_S4000x128_S128x128_S4000x128_1_0_0_1_n_n]; rfl
theorem rhs128_1 (j : S4000x128.Idx) (k : dot_S4000x128_S128x128_S4000x128_1_0_0_1_n_n.contr.Idx) :
    (dot_S4000x128_S128x128_S4000x128_1_0_0_1_n_n.rhsIdx j k 1 : ℕ) = j 1 := by
  simp [DotDims.rhsIdx, dot_S4000x128_S128x128_S4000x128_1_0_0_1_n_n]; rfl

/-- A [4000,128] by [128,128] product into the zero accumulator, at an entry: the sum over the contracted coordinate
    of the products of the two operands' entries. -/
theorem mm128_at (A : FVec Ideal S4000x128 .bf16) (B : FVec Ideal S128x128 .bf16) (p : Fin 4000) (q : Fin 128) :
    matmul dot_S4000x128_S128x128_S4000x128_1_0_0_1_n_n none A B (constant (F := Ideal) S4000x128 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S4000x128_S128x128_S4000x128_1_0_0_1_n_n 128 rfl rfl).symm]
  refine Finset.sum_congr rfl fun c _ => ?_
  have c2 := contrEquiv1_symm_val dot_S4000x128_S128x128_S4000x128_1_0_0_1_n_n 128 rfl rfl c
  have l2 : dot_S4000x128_S128x128_S4000x128_1_0_0_1_n_n.lhsIdx (ix2 p q) ((contrEquiv1 _ 128 rfl rfl).symm c) = ix2 p c := by
    funext ax; apply Fin.ext
    match ax with
    | ⟨0, _⟩ => exact lhs128_0 _ _
    | ⟨1, _⟩ => exact (lhs128_1 _ _).trans c2
  have r2 : dot_S4000x128_S128x128_S4000x128_1_0_0_1_n_n.rhsIdx (ix2 p q) ((contrEquiv1 _ 128 rfl rfl).symm c) = ix2 c q := by
    funext ax; apply Fin.ext
    match ax with
    | ⟨0, _⟩ => exact (rhs128_0 _ _).trans c2
    | ⟨1, _⟩ => exact rhs128_1 _ _
  rw [l2, r2]

theorem lhscol_0 (j : S4000x1.Idx) (k : dot_S4000x128_S128x1_S4000x1_1_0_0_1_n_n.contr.Idx) :
    (dot_S4000x128_S128x1_S4000x1_1_0_0_1_n_n.lhsIdx j k 0 : ℕ) = j 0 := by
  simp [DotDims.lhsIdx, dot_S4000x128_S128x1_S4000x1_1_0_0_1_n_n]; rfl
theorem lhscol_1 (j : S4000x1.Idx) (k : dot_S4000x128_S128x1_S4000x1_1_0_0_1_n_n.contr.Idx) :
    (dot_S4000x128_S128x1_S4000x1_1_0_0_1_n_n.lhsIdx j k 1 : ℕ) = k ⟨0, by decide⟩ := by
  simp [DotDims.lhsIdx, dot_S4000x128_S128x1_S4000x1_1_0_0_1_n_n]; rfl
theorem rhscol_0 (j : S4000x1.Idx) (k : dot_S4000x128_S128x1_S4000x1_1_0_0_1_n_n.contr.Idx) :
    (dot_S4000x128_S128x1_S4000x1_1_0_0_1_n_n.rhsIdx j k 0 : ℕ) = k ⟨0, by decide⟩ := by
  simp [DotDims.rhsIdx, dot_S4000x128_S128x1_S4000x1_1_0_0_1_n_n]; rfl
theorem rhscol_1 (j : S4000x1.Idx) (k : dot_S4000x128_S128x1_S4000x1_1_0_0_1_n_n.contr.Idx) :
    (dot_S4000x128_S128x1_S4000x1_1_0_0_1_n_n.rhsIdx j k 1 : ℕ) = j 1 := by
  have h1 : (dot_S4000x128_S128x1_S4000x1_1_0_0_1_n_n.rhsIdx j k 1 : ℕ) < 1 :=
    (dot_S4000x128_S128x1_S4000x1_1_0_0_1_n_n.rhsIdx j k 1).isLt
  have h2 : (j 1 : ℕ) < 1 := (j 1).isLt
  omega

/-- A [4000,128] by [128,1] product into the zero accumulator, at an entry: the sum over the contracted coordinate
    of the products of the two operands' entries. -/
theorem mmcol_at (A : FVec Ideal S4000x128 .bf16) (B : FVec Ideal S128x1 .bf16) (p : Fin 4000) (q : Fin 1) :
    matmul dot_S4000x128_S128x1_S4000x1_1_0_0_1_n_n none A B (constant (F := Ideal) S4000x1 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S4000x128_S128x1_S4000x1_1_0_0_1_n_n 128 rfl rfl).symm]
  refine Finset.sum_congr rfl fun c _ => ?_
  have c2 := contrEquiv1_symm_val dot_S4000x128_S128x1_S4000x1_1_0_0_1_n_n 128 rfl rfl c
  have l2 : dot_S4000x128_S128x1_S4000x1_1_0_0_1_n_n.lhsIdx (ix2 p q) ((contrEquiv1 _ 128 rfl rfl).symm c) = ix2 p c := by
    funext ax; apply Fin.ext
    match ax with
    | ⟨0, _⟩ => exact lhscol_0 _ _
    | ⟨1, _⟩ => exact (lhscol_1 _ _).trans c2
  have r2 : dot_S4000x128_S128x1_S4000x1_1_0_0_1_n_n.rhsIdx (ix2 p q) ((contrEquiv1 _ 128 rfl rfl).symm c) = ix2 c q := by
    funext ax; apply Fin.ext
    match ax with
    | ⟨0, _⟩ => exact (rhscol_0 _ _).trans c2
    | ⟨1, _⟩ => exact rhscol_1 _ _
  rw [l2, r2]

/-! ## The layout operations of the body at an entry -/

/-- The logistic of a vector at an entry is the logistic of the entry. -/
theorem logistic_at {s : Shape} {φ : FTy} (a : FVec Ideal s φ) (i : s.Idx) : logistic a i = Ideal.logistic (a i) := rfl

/-- A [1,128] row spread over 4000 rows reads the row's entry in the same column. -/
theorem spread_row_at {α : Type} (b : S1x128.Idx → α) (h : S1x128.Broadcasts S4000x128) (p : Fin 4000) (q : Fin 128) :
    broadcastTo S4000x128 b h (ix2 p q) = b (ix2 0 q) := by
  refine broadcastTo_apply b h (ix2 p q) (ix2 0 q) fun a => ?_
  match a with
  | ⟨0, _⟩ => rfl
  | ⟨1, _⟩ => rfl

/-- A [4000,1] column spread over 128 columns reads the column's entry in the same row. -/
theorem spread_col_at {α : Type} (b : S4000x1.Idx → α) (h : S4000x1.Broadcasts S4000x128) (p : Fin 4000) (q : Fin 128) :
    broadcastTo S4000x128 b h (ix2 p q) = b (ix2 p 0) := by
  refine broadcastTo_apply b h (ix2 p q) (ix2 p 0) fun a => ?_
  match a with
  | ⟨0, _⟩ => rfl
  | ⟨1, _⟩ => rfl

/-- A [1,1] scalar spread down a [4000,1] column reads the scalar. -/
theorem spread_one_at {α : Type} (b : S1x1.Idx → α) (h : S1x1.Broadcasts S4000x1) (p : Fin 4000) :
    broadcastTo S4000x1 b h (ix2 p 0) = b (ix2 0 0) := by
  refine broadcastTo_apply b h (ix2 p 0) (ix2 0 0) fun a => ?_
  match a with
  | ⟨0, _⟩ => rfl
  | ⟨1, _⟩ => rfl

/-! ## The body's payloads at an entry -/

/-- The gate's hidden layer at an entry: silu of the 32-deep dense layer of the edge's radial basis row. -/
theorem hidden_at (x0 : Vec Ideal S4000x32 .f32) (w1 : Vec Ideal S32x128 .f32) (b1 : Vec Ideal S1x128 .f32)
    (p : Fin 4000) (q : Fin 128) :
    k1_pay5 x0 w1 b1 (ix2 p q) = Cert.Spec.silu (Cert.Spec.lin (Cert.Spec.row x0 p) (Cert.Spec.mat w1) (Cert.Spec.row b1 0) q) := by
  unfold k1_pay5 k1_pay3
  simp only [shapeCast_self, mulf_apply, addf_apply, logistic_at, mm32_at, spread_row_at, truncf_apply]
  rfl

/-- The edge weight's payload at an entry of its column is the edge weight of that edge. -/
theorem pay4_at (x0 : Vec Ideal S4000x32 .f32) (x1 : Vec Ideal S4000x1 .f32) (w1 : Vec Ideal S32x128 .f32)
    (b1 : Vec Ideal S1x128 .f32) (w2 : Vec Ideal S128x1 .f32) (b2 : Vec Ideal S1x1 .f32) (p : Fin 4000) :
    k1_pay4 x0 x1 w1 b1 w2 b2 (ix2 p 0)
      = Cert.Spec.edgeW (Cert.Spec.row x0 p) (Cert.Spec.col0 x1 p) (Cert.Spec.mat w1) (Cert.Spec.row b1 0)
          (Cert.Spec.col0 w2) (Cert.Spec.at00 b2) := by
  unfold k1_pay4 k1_pay3
  simp only [shapeCast_self, mulf_apply, addf_apply, logistic_at, mmcol_at, mm32_at, spread_row_at, spread_one_at, truncf_apply]
  rfl

/-- The message's payload at an entry, over any hidden layer `h` and edge weight column `ew`: the gathered entry times
    the two further dense layers of the hidden row, times the edge's weight. -/
theorem pay1_at (x2 : Vec Ideal S4000x128 .f32) (ew : FVec Ideal S4000x1 .f32) (h : FVec Ideal S4000x128 .f32)
    (w2 : Vec Ideal S128x128 .f32) (b2 : Vec Ideal S1x128 .f32) (w3 : Vec Ideal S128x128 .f32) (b3 : Vec Ideal S1x128 .f32)
    (p : Fin 4000) (q : Fin 128) :
    k1_pay1 (k1_pay2 x2) ew h (k1_pay6 w2) b2 w3 b3 (ix2 p q)
      = x2 (ix2 p q)
          * Cert.Spec.lin (fun j => Cert.Spec.silu (Cert.Spec.lin (fun i => h (ix2 p i)) (Cert.Spec.mat w2) (Cert.Spec.row b2 0) j))
              (Cert.Spec.mat w3) (Cert.Spec.row b3 0) q
          * ew (ix2 p 0) := by
  unfold k1_pay1 k1_pay2 k1_pay6
  simp only [shapeCast_self, mulf_apply, addf_apply, logistic_at, mm128_at, spread_row_at, spread_col_at, truncf_apply]
  rfl

/-- The message's payload over the body's own hidden layer and edge weight, at an entry: the message of that edge. -/
theorem msg_at (x0 : Vec Ideal S4000x32 .f32) (x1 : Vec Ideal S4000x1 .f32) (x2 : Vec Ideal S4000x128 .f32)
    (gw1 : Vec Ideal S32x128 .f32) (gb1 : Vec Ideal S1x128 .f32) (gw2 : Vec Ideal S128x1 .f32) (gb2 : Vec Ideal S1x1 .f32)
    (w1 : Vec Ideal S32x128 .f32) (b1 : Vec Ideal S1x128 .f32) (w2 : Vec Ideal S128x128 .f32) (b2 : Vec Ideal S1x128 .f32)
    (w3 : Vec Ideal S128x128 .f32) (b3 : Vec Ideal S1x128 .f32) (p : Fin 4000) (q : Fin 128) :
    k1_pay1 (k1_pay2 x2) (k1_pay4 x0 x1 gw1 gb1 gw2 gb2) (k1_pay5 x0 w1 b1) (k1_pay6 w2) b2 w3 b3 (ix2 p q)
      = Cert.Spec.msg (Cert.Spec.row x2 p)
          (Cert.Spec.radial (Cert.Spec.row x0 p) (Cert.Spec.mat w1) (Cert.Spec.row b1 0) (Cert.Spec.mat w2) (Cert.Spec.row b2 0)
            (Cert.Spec.mat w3) (Cert.Spec.row b3 0))
          (Cert.Spec.edgeW (Cert.Spec.row x0 p) (Cert.Spec.col0 x1 p) (Cert.Spec.mat gw1) (Cert.Spec.row gb1 0)
            (Cert.Spec.col0 gw2) (Cert.Spec.at00 gb2)) q := by
  rw [pay1_at]
  simp only [hidden_at, pay4_at]
  rfl

/-! ## From blocks to the arrays -/

theorem hz : (![0, 0] : Fin 2 → Nat) = fun _ => 0 := funext fun a => by fin_cases a <;> rfl

/-- The windows' index maps, decided once over the 160 grid points: the three edge inputs and the two outputs are at row
    block `t`, column block 0; every weight and bias window is at block (0, 0). -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = 0
    ∧ win1_11.index t (1 : Fin 2) = 0
    ∧ win1_12.index t (0 : Fin 2) = 0
    ∧ win1_12.index t (1 : Fin 2) = 0
    ∧ win1_13.index t (0 : Fin 2) = t.val
    ∧ win1_13.index t (1 : Fin 2) = 0
    ∧ win1_14.index t (0 : Fin 2) = t.val
    ∧ win1_14.index t (1 : Fin 2) = 0 :=
  (by decide +kernel : ∀ t : Fin grid1.N, _)

/-- Window 0's block at point `t` is rows `4000 t … 4000 t + 3999` of its array. -/
theorem rbf_block (c : Dev nD) (t : Fin cfg1.N) (x : S4000x32.Idx) (k : S640000x32.Idx)
    (hk0 : (k 0).val = 4000 * t.val + (x 0).val) (hk1 : (k 1).val = (x 1).val) :
    (iblk1 V c 0 t : Vec Ideal S4000x32 .f32) x = (V c main_arg4 : S640000x32.Idx → EReal) k := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1⟩ := idx_facts t
  unfold iblk1
  rw [View.read_apply]
  show V c main_arg4 _ = V c main_arg4 _
  congr 1
  funext a
  apply Fin.ext
  match a with
  | ⟨0, _⟩ => show win1_0.index t 0 * 4000 + 1 * (x 0).val = (k 0).val; rw [f0_0, hk0]; omega
  | ⟨1, _⟩ => show win1_0.index t 1 * 32 + 1 * (x 1).val = (k 1).val; rw [f0_1, hk1]; omega

/-- Window 1's block at point `t` is rows `4000 t … 4000 t + 3999` of its array. -/
theorem cut_block (c : Dev nD) (t : Fin cfg1.N) (x : S4000x1.Idx) (k : S640000x1.Idx)
    (hk0 : (k 0).val = 4000 * t.val + (x 0).val) (hk1 : (k 1).val = (x 1).val) :
    (iblk1 V c 1 t : Vec Ideal S4000x1 .f32) x = (V c main_v17 : S640000x1.Idx → EReal) k := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1⟩ := idx_facts t
  unfold iblk1
  rw [View.read_apply]
  show V c main_v17 _ = V c main_v17 _
  congr 1
  funext a
  apply Fin.ext
  match a with
  | ⟨0, _⟩ => show win1_1.index t 0 * 4000 + 1 * (x 0).val = (k 0).val; rw [f1_0, hk0]; omega
  | ⟨1, _⟩ => show win1_1.index t 1 * 1 + 1 * (x 1).val = (k 1).val; rw [f1_1, hk1]; omega

/-- Window 2's block at point `t` is rows `4000 t … 4000 t + 3999` of its array. -/
theorem xg_block (c : Dev nD) (t : Fin cfg1.N) (x : S4000x128.Idx) (k : S640000x128.Idx)
    (hk0 : (k 0).val = 4000 * t.val + (x 0).val) (hk1 : (k 1).val = (x 1).val) :
    (iblk1 V c 2 t : Vec Ideal S4000x128 .f32) x = (V c main_v3 : S640000x128.Idx → EReal) k := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1⟩ := idx_facts t
  unfold iblk1
  rw [View.read_apply]
  show V c main_v3 _ = V c main_v3 _
  congr 1
  funext a
  apply Fin.ext
  match a with
  | ⟨0, _⟩ => show win1_2.index t 0 * 4000 + 1 * (x 0).val = (k 0).val; rw [f2_0, hk0]; omega
  | ⟨1, _⟩ => show win1_2.index t 1 * 128 + 1 * (x 1).val = (k 1).val; rw [f2_1, hk1]; omega

/-- Window 3's block at every point is its whole array. -/
theorem gw1_block (c : Dev nD) (t : Fin cfg1.N) :
    (iblk1 V c 3 t : Vec Ideal S32x128 .f32) = (V c main_arg14 : S32x128.Idx → EReal) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1⟩ := idx_facts t
  funext x
  unfold iblk1
  rw [View.read_apply]
  show V c main_arg14 _ = V c main_arg14 _
  congr 1
  funext a
  apply Fin.ext
  match a with
  | ⟨0, _⟩ => show win1_3.index t 0 * 32 + 1 * (x 0).val = (x 0).val; rw [f3_0]; omega
  | ⟨1, _⟩ => show win1_3.index t 1 * 128 + 1 * (x 1).val = (x 1).val; rw [f3_1]; omega

/-- Window 4's block at every point is its whole array. -/
theorem gb1_block (c : Dev nD) (t : Fin cfg1.N) :
    (iblk1 V c 4 t : Vec Ideal S1x128 .f32) = (V c main_v18 : S1x128.Idx → EReal) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1⟩ := idx_facts t
  funext x
  unfold iblk1
  rw [View.read_apply]
  show V c main_v18 _ = V c main_v18 _
  congr 1
  funext a
  apply Fin.ext
  match a with
  | ⟨0, _⟩ => show win1_4.index t 0 * 1 + 1 * (x 0).val = (x 0).val; rw [f4_0]; omega
  | ⟨1, _⟩ => show win1_4.index t 1 * 128 + 1 * (x 1).val = (x 1).val; rw [f4_1]; omega

/-- Window 5's block at every point is its whole array. -/
theorem gw2_block (c : Dev nD) (t : Fin cfg1.N) :
    (iblk1 V c 5 t : Vec Ideal S128x1 .f32) = (V c main_arg16 : S128x1.Idx → EReal) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1⟩ := idx_facts t
  funext x
  unfold iblk1
  rw [View.read_apply]
  show V c main_arg16 _ = V c main_arg16 _
  congr 1
  funext a
  apply Fin.ext
  match a with
  | ⟨0, _⟩ => show win1_5.index t 0 * 128 + 1 * (x 0).val = (x 0).val; rw [f5_0]; omega
  | ⟨1, _⟩ => show win1_5.index t 1 * 1 + 1 * (x 1).val = (x 1).val; rw [f5_1]; omega

/-- Window 6's block at every point is its whole array. -/
theorem gb2_block (c : Dev nD) (t : Fin cfg1.N) :
    (iblk1 V c 6 t : Vec Ideal S1x1 .f32) = (V c main_v19 : S1x1.Idx → EReal) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1⟩ := idx_facts t
  funext x
  unfold iblk1
  rw [View.read_apply]
  show V c main_v19 _ = V c main_v19 _
  congr 1
  funext a
  apply Fin.ext
  match a with
  | ⟨0, _⟩ => show win1_6.index t 0 * 1 + 1 * (x 0).val = (x 0).val; rw [f6_0]; omega
  | ⟨1, _⟩ => show win1_6.index t 1 * 1 + 1 * (x 1).val = (x 1).val; rw [f6_1]; omega

/-- Window 7's block at every point is its whole array. -/
theorem w1_block (c : Dev nD) (t : Fin cfg1.N) :
    (iblk1 V c 7 t : Vec Ideal S32x128 .f32) = (V c main_arg8 : S32x128.Idx → EReal) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1⟩ := idx_facts t
  funext x
  unfold iblk1
  rw [View.read_apply]
  show V c main_arg8 _ = V c main_arg8 _
  congr 1
  funext a
  apply Fin.ext
  match a with
  | ⟨0, _⟩ => show win1_7.index t 0 * 32 + 1 * (x 0).val = (x 0).val; rw [f7_0]; omega
  | ⟨1, _⟩ => show win1_7.index t 1 * 128 + 1 * (x 1).val = (x 1).val; rw [f7_1]; omega

/-- Window 8's block at every point is its whole array. -/
theorem b1_block (c : Dev nD) (t : Fin cfg1.N) :
    (iblk1 V c 8 t : Vec Ideal S1x128 .f32) = (V c main_v20 : S1x128.Idx → EReal) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1⟩ := idx_facts t
  funext x
  unfold iblk1
  rw [View.read_apply]
  show V c main_v20 _ = V c main_v20 _
  congr 1
  funext a
  apply Fin.ext
  match a with
  | ⟨0, _⟩ => show win1_8.index t 0 * 1 + 1 * (x 0).val = (x 0).val; rw [f8_0]; omega
  | ⟨1, _⟩ => show win1_8.index t 1 * 128 + 1 * (x 1).val = (x 1).val; rw [f8_1]; omega

/-- Window 9's block at every point is its whole array. -/
theorem w2_block (c : Dev nD) (t : Fin cfg1.N) :
    (iblk1 V c 9 t : Vec Ideal S128x128 .f32) = (V c main_arg10 : S128x128.Idx → EReal) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1⟩ := idx_facts t
  funext x
  unfold iblk1
  rw [View.read_apply]
  show V c main_arg10 _ = V c main_arg10 _
  congr 1
  funext a
  apply Fin.ext
  match a with
  | ⟨0, _⟩ => show win1_9.index t 0 * 128 + 1 * (x 0).val = (x 0).val; rw [f9_0]; omega
  | ⟨1, _⟩ => show win1_9.index t 1 * 128 + 1 * (x 1).val = (x 1).val; rw [f9_1]; omega

/-- Window 10's block at every point is its whole array. -/
theorem b2_block (c : Dev nD) (t : Fin cfg1.N) :
    (iblk1 V c 10 t : Vec Ideal S1x128 .f32) = (V c main_v21 : S1x128.Idx → EReal) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1⟩ := idx_facts t
  funext x
  unfold iblk1
  rw [View.read_apply]
  show V c main_v21 _ = V c main_v21 _
  congr 1
  funext a
  apply Fin.ext
  match a with
  | ⟨0, _⟩ => show win1_10.index t 0 * 1 + 1 * (x 0).val = (x 0).val; rw [f10_0]; omega
  | ⟨1, _⟩ => show win1_10.index t 1 * 128 + 1 * (x 1).val = (x 1).val; rw [f10_1]; omega

/-- Window 11's block at every point is its whole array. -/
theorem w3_block (c : Dev nD) (t : Fin cfg1.N) :
    (iblk1 V c 11 t : Vec Ideal S128x128 .f32) = (V c main_arg12 : S128x128.Idx → EReal) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1⟩ := idx_facts t
  funext x
  unfold iblk1
  rw [View.read_apply]
  show V c main_arg12 _ = V c main_arg12 _
  congr 1
  funext a
  apply Fin.ext
  match a with
  | ⟨0, _⟩ => show win1_11.index t 0 * 128 + 1 * (x 0).val = (x 0).val; rw [f11_0]; omega
  | ⟨1, _⟩ => show win1_11.index t 1 * 128 + 1 * (x 1).val = (x 1).val; rw [f11_1]; omega

/-- Window 12's block at every point is its whole array. -/
theorem b3_block (c : Dev nD) (t : Fin cfg1.N) :
    (iblk1 V c 12 t : Vec Ideal S1x128 .f32) = (V c main_v22 : S1x128.Idx → EReal) := by
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1⟩ := idx_facts t
  funext x
  unfold iblk1
  rw [View.read_apply]
  show V c main_v22 _ = V c main_v22 _
  congr 1
  funext a
  apply Fin.ext
  match a with
  | ⟨0, _⟩ => show win1_12.index t 0 * 1 + 1 * (x 0).val = (x 0).val; rw [f12_0]; omega
  | ⟨1, _⟩ => show win1_12.index t 1 * 128 + 1 * (x 1).val = (x 1).val; rw [f12_1]; omega

/-! ## The edge weights: what each point writes back, the cover, the array -/

/-- What the edge-weight array ends holding: every edge's weight, from the arrays as the region finds them. -/
abbrev ewOf (c : Dev nD) : Cert.Spec.A2 640000 1 :=
  Cert.Spec.ewArr (V c main_arg4) (Cert.Spec.col0 (V c main_v17)) (V c main_arg14) (Cert.Spec.row (V c main_v18) 0)
    (Cert.Spec.col0 (V c main_arg16)) (Cert.Spec.at00 (V c main_v19))

/-- Row `p` of point `t`'s radial-basis block is row `4000 t + p` of the array. -/
theorem rbf_row (c : Dev nD) (t : Fin cfg1.N) (p : Fin 4000) (r : Fin 640000) (hr : r.val = 4000 * t.val + p.val) :
    Cert.Spec.row (iblk1 V c 0 t : Vec Ideal S4000x32 .f32) p = Cert.Spec.row (V c main_arg4) r :=
  funext fun k => rbf_block V c t (ix2 p k) (ix2 r k) hr rfl

/-- Entry `p` of point `t`'s cutoff block is entry `4000 t + p` of the column. -/
theorem cut_entry (c : Dev nD) (t : Fin cfg1.N) (p : Fin 4000) (r : Fin 640000) (hr : r.val = 4000 * t.val + p.val) :
    Cert.Spec.col0 (iblk1 V c 1 t : Vec Ideal S4000x1 .f32) p = Cert.Spec.col0 (V c main_v17) r :=
  cut_block V c t (ix2 p 0) (ix2 r 0) hr rfl

/-- Row `p` of point `t`'s gathered block is row `4000 t + p` of the array. -/
theorem xg_row (c : Dev nD) (t : Fin cfg1.N) (p : Fin 4000) (r : Fin 640000) (hr : r.val = 4000 * t.val + p.val) :
    Cert.Spec.row (iblk1 V c 2 t : Vec Ideal S4000x128 .f32) p = Cert.Spec.row (V c main_v3) r :=
  funext fun k => xg_block V c t (ix2 p k) (ix2 r k) hr rfl

/-- The edge weight's payload over point `t`'s blocks, at a block entry, is the array's entry it is written to. -/
theorem ew_point (c : Dev nD) (t : Fin cfg1.N) (y : S4000x1.Idx) (i : S640000x1.Idx)
    (hi : (i 0).val = 4000 * t.val + (y 0).val) :
    k1_pay4 (iblk1 V c 0 t) (iblk1 V c 1 t) (V c main_arg14) (V c main_v18) (V c main_arg16) (V c main_v19) y
      = ewOf V c i := by
  obtain ⟨p, z, rfl⟩ : ∃ (p : Fin 4000) (z : Fin 1), y = ix2 p z := ⟨y 0, y 1, eq_ix2 y⟩
  obtain rfl : z = 0 := Subsingleton.elim _ _
  refine (pay4_at (iblk1 V c 0 t) (iblk1 V c 1 t) (V c main_arg14) (V c main_v18) (V c main_arg16) (V c main_v19) p).trans ?_
  rw [rbf_row V c t p (i 0) hi, cut_entry V c t p (i 0) hi]
  rfl

/-- WHAT POINT `t` WRITES BACK to the edge-weight array is block `t` of `ewOf`. -/
theorem flushed14_eq (c : Dev nD) (t : Fin cfg1.N) :
    (dat1 V c).flushed 14 t = ((cfg1.win 14).blk t).view.read (Elt Ideal) (ewOf V c) := by
  show (cfg1.win 14).cut (grid1.coords t) ((dat1 V c).after 14 t) = _
  rw [after1_14]
  unfold out1_14
  rw [View.canon_unit_zero hz]
  simp only [View.ld_unit_zero (S := S4000x32) hz, View.ld_unit_zero (S := S4000x1) hz, View.ld_unit_zero (S := S32x128) hz,
    View.ld_unit_zero (S := S1x128) hz, View.ld_unit_zero (S := S128x1) hz, View.ld_unit_zero (S := S1x1) hz]
  rw [gw1_block V c t, gb1_block V c t, gw2_block V c t, gb2_block V c t]
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1⟩ := idx_facts t
  funext j
  exact ew_point V c t _ (((cfg1.win 14).blk t).view.emb j)
    (by show win1_14.index t 0 * 4000 + 1 * (j 0).val = 4000 * t.val + (j 0).val; rw [f14_0]; omega)

/-- An index of the edge-weight array is in point `t`'s block iff each coordinate is in the block's range on its axis. -/
theorem mem_blk14 (t : Fin cfg1.N) (i : S640000x1.Idx) :
    i ∈ ((cfg1.win 14).blk t).view.set ↔ ∀ a : Fin 2, win1_14.index t a * S4000x1.size a ≤ (i a).val
      ∧ (i a).val < win1_14.index t a * S4000x1.size a + S4000x1.size a := by
  show i ∈ ((View.whole main_v23_1).slice (win1_14.rect t)).set ↔ _
  rw [View.set_slice_whole, Rect.mem_set_unit]
  exact Iff.rfl

/-- Every edge is in the block of the point `edge / 4000`. -/
theorem cover14 (i : S640000x1.Idx) :
    ∃ t : Fin cfg1.N, (cfg1.win 14).flush t = true ∧ i ∈ ((cfg1.win 14).blk t).view.set := by
  have hi0 : (i 0).val < 640000 := (i 0).isLt
  have hi1 : (i 1).val < 1 := (i 1).isLt
  have hN : cfg1.N = 160 := N_1
  obtain ⟨t, ht⟩ : ∃ t : Fin cfg1.N, t.val = (i 0).val / 4000 := ⟨⟨(i 0).val / 4000, by rw [hN]; omega⟩, rfl⟩
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1⟩ := idx_facts t
  refine ⟨t, flush1_14 t, ?_⟩
  rw [mem_blk14]
  intro a
  match a with
  | ⟨0, _⟩ => show win1_14.index t 0 * 4000 ≤ (i 0).val ∧ (i 0).val < win1_14.index t 0 * 4000 + 4000; rw [f14_0, ht]; omega
  | ⟨1, _⟩ => show win1_14.index t 1 * 1 ≤ (i 1).val ∧ (i 1).val < win1_14.index t 1 * 1 + 1; rw [f14_1]; omega

theorem final14 (c : Dev nD) :
    (dat1 (F := Ideal) V c).arrAt 14 cfg1.N
      = Cert.Spec.ewArr (V c main_arg4) (Cert.Spec.col0 (V c main_v17))
          (V c main_arg14) (Cert.Spec.row (V c main_v18) 0) (Cert.Spec.col0 (V c main_arg16)) (Cert.Spec.at00 (V c main_v19)) :=
  (dat1 V c).arrAt_eq_of_cover 14 (ewOf V c) (fun t _ => flushed14_eq V c t) cover14

/-! ## The messages: what each point writes back, the cover, the array -/

/-- What the message array ends holding: every edge's message, from the arrays as the region finds them. -/
abbrev msgOf (c : Dev nD) : Cert.Spec.A2 640000 128 :=
  Cert.Spec.msgArr (V c main_arg4) (Cert.Spec.col0 (V c main_v17)) (V c main_v3)
    (V c main_arg14) (Cert.Spec.row (V c main_v18) 0) (Cert.Spec.col0 (V c main_arg16)) (Cert.Spec.at00 (V c main_v19))
    (V c main_arg8) (Cert.Spec.row (V c main_v20) 0) (V c main_arg10) (Cert.Spec.row (V c main_v21) 0)
    (V c main_arg12) (Cert.Spec.row (V c main_v22) 0)

/-- The message's payload over point `t`'s blocks, at a block entry, is the array's entry it is written to. -/
theorem msg_point (c : Dev nD) (t : Fin cfg1.N) (y : S4000x128.Idx) (i : S640000x128.Idx)
    (hi0 : (i 0).val = 4000 * t.val + (y 0).val) (hi1 : (i 1).val = (y 1).val) :
    k1_pay1 (k1_pay2 (iblk1 V c 2 t))
        (k1_pay4 (iblk1 V c 0 t) (iblk1 V c 1 t) (V c main_arg14) (V c main_v18) (V c main_arg16) (V c main_v19))
        (k1_pay5 (iblk1 V c 0 t) (V c main_arg8) (V c main_v20)) (k1_pay6 (V c main_arg10)) (V c main_v21)
        (V c main_arg12) (V c main_v22) y
      = msgOf V c i := by
  obtain ⟨p, q, rfl⟩ : ∃ (p : Fin 4000) (q : Fin 128), y = ix2 p q := ⟨y 0, y 1, eq_ix2 y⟩
  refine (msg_at (iblk1 V c 0 t) (iblk1 V c 1 t) (iblk1 V c 2 t) (V c main_arg14) (V c main_v18) (V c main_arg16)
    (V c main_v19) (V c main_arg8) (V c main_v20) (V c main_arg10) (V c main_v21) (V c main_arg12) (V c main_v22) p q).trans ?_
  rw [rbf_row V c t p (i 0) hi0, cut_entry V c t p (i 0) hi0, xg_row V c t p (i 0) hi0]
  obtain rfl : q = i 1 := Fin.ext hi1.symm
  rfl

/-- WHAT POINT `t` WRITES BACK to the message array is block `t` of `msgOf`. -/
theorem flushed13_eq (c : Dev nD) (t : Fin cfg1.N) :
    (dat1 V c).flushed 13 t = ((cfg1.win 13).blk t).view.read (Elt Ideal) (msgOf V c) := by
  show (cfg1.win 13).cut (grid1.coords t) ((dat1 V c).after 13 t) = _
  rw [after1_13]
  unfold out1_13
  rw [View.canon_unit_zero hz]
  simp only [View.ld_unit_zero (S := S4000x32) hz, View.ld_unit_zero (S := S4000x1) hz, View.ld_unit_zero (S := S4000x128) hz,
    View.ld_unit_zero (S := S32x128) hz, View.ld_unit_zero (S := S1x128) hz, View.ld_unit_zero (S := S128x1) hz,
    View.ld_unit_zero (S := S1x1) hz, View.ld_unit_zero (S := S128x128) hz]
  rw [gw1_block V c t, gb1_block V c t, gw2_block V c t, gb2_block V c t, w1_block V c t, b1_block V c t, w2_block V c t,
    b2_block V c t, w3_block V c t, b3_block V c t]
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1⟩ := idx_facts t
  funext j
  exact msg_point V c t _ (((cfg1.win 13).blk t).view.emb j)
    (by show win1_13.index t 0 * 4000 + 1 * (j 0).val = 4000 * t.val + (j 0).val; rw [f13_0]; omega)
    (by show win1_13.index t 1 * 128 + 1 * (j 1).val = (j 1).val; rw [f13_1]; omega)

/-- An index of the message array is in point `t`'s block iff each coordinate is in the block's range on its axis. -/
theorem mem_blk13 (t : Fin cfg1.N) (i : S640000x128.Idx) :
    i ∈ ((cfg1.win 13).blk t).view.set ↔ ∀ a : Fin 2, win1_13.index t a * S4000x128.size a ≤ (i a).val
      ∧ (i a).val < win1_13.index t a * S4000x128.size a + S4000x128.size a := by
  show i ∈ ((View.whole main_v23_0).slice (win1_13.rect t)).set ↔ _
  rw [View.set_slice_whole, Rect.mem_set_unit]
  exact Iff.rfl

/-- Every entry of an edge's row is in the block of the point `edge / 4000`. -/
theorem cover13 (i : S640000x128.Idx) :
    ∃ t : Fin cfg1.N, (cfg1.win 13).flush t = true ∧ i ∈ ((cfg1.win 13).blk t).view.set := by
  have hi0 : (i 0).val < 640000 := (i 0).isLt
  have hi1 : (i 1).val < 128 := (i 1).isLt
  have hN : cfg1.N = 160 := N_1
  obtain ⟨t, ht⟩ : ∃ t : Fin cfg1.N, t.val = (i 0).val / 4000 := ⟨⟨(i 0).val / 4000, by rw [hN]; omega⟩, rfl⟩
  obtain ⟨f0_0, f0_1, f1_0, f1_1, f2_0, f2_1, f3_0, f3_1, f4_0, f4_1, f5_0, f5_1, f6_0, f6_1, f7_0, f7_1, f8_0, f8_1, f9_0, f9_1, f10_0, f10_1, f11_0, f11_1, f12_0, f12_1, f13_0, f13_1, f14_0, f14_1⟩ := idx_facts t
  refine ⟨t, flush1_13 t, ?_⟩
  rw [mem_blk13]
  intro a
  match a with
  | ⟨0, _⟩ => show win1_13.index t 0 * 4000 ≤ (i 0).val ∧ (i 0).val < win1_13.index t 0 * 4000 + 4000; rw [f13_0, ht]; omega
  | ⟨1, _⟩ => show win1_13.index t 1 * 128 ≤ (i 1).val ∧ (i 1).val < win1_13.index t 1 * 128 + 128; rw [f13_1]; omega

theorem final13 (c : Dev nD) :
    (dat1 (F := Ideal) V c).arrAt 13 cfg1.N
      = Cert.Spec.msgArr (V c main_arg4) (Cert.Spec.col0 (V c main_v17)) (V c main_v3)
          (V c main_arg14) (Cert.Spec.row (V c main_v18) 0) (Cert.Spec.col0 (V c main_arg16)) (Cert.Spec.at00 (V c main_v19))
          (V c main_arg8) (Cert.Spec.row (V c main_v20) 0) (V c main_arg10) (Cert.Spec.row (V c main_v21) 0)
          (V c main_arg12) (Cert.Spec.row (V c main_v22) 0) :=
  (dat1 V c).arrAt_eq_of_cover 13 (msgOf V c) (fun t _ => flushed13_eq V c t) cover13

end Cert.KernelIdeal.Reg1

end
-- ==== Proof.KReg2.lean ====
import proofs.«408722_j80805514707436_1_alg».proof.Proof.Gen.KernelIdeal.Frame
import proofs.«408722_j80805514707436_1_alg».proof.Proof.Spec
import Idealize.ShloMosaic.Lib.Pipeline.Value
import Idealize.ShloMosaic.PureOps.Ideal.Laws

set_option maxRecDepth 16384

noncomputable section

namespace Cert.KernelIdeal.Reg2

open Idealize.ShloMosaic Idealize.ShloMosaic.TcCoe Idealize.SL.Sem Idealize.ShloMosaic.ValueIdx
open Idealize.ShloMosaic.Pipeline (Dat Cfg Window)
open Cert.KernelIdeal Cert.KernelIdeal.Gen
variable (V : (c : Dev nD) → (b : Ref sig .tc) → Buf (Elt Ideal) ((c : Thread nD τ).loc b))

/-! # The node kernel's output array

  The region updates the 20000 nodes in five blocks of 4000 rows. At a grid point the body reads the point's rows of
  the node features, of their normalised form and of the aggregated messages, and the whole of four weight matrices,
  four bias rows and the residual scale; it stores, at entry (p, q) of the block, the residual update of row p at
  feature q: a dense layer is the sum over the contracted index of products plus a bias, the gated unit is
  `z · logistic z`, and a change of float format is the identity on extended reals. Row p of a block at point t is
  row 4000·t + p of its array, so the block stored at point t is block t of the whole-array update, and the five
  blocks cover the array. -/

/-! ## One matrix product at an entry -/

/-- The dimension numbers of every product here: a [4000,128] block of rows against a [128,128] matrix. -/
abbrev D22 := dot_S4000x128_S128x128_S4000x128_1_0_0_1_n_n

theorem lhs_D22_0 (j : S4000x128.Idx) (k : D22.contr.Idx) : (D22.lhsIdx j k 0).val = (j 0).val := by
  simp [DotDims.lhsIdx, D22, dot_S4000x128_S128x128_S4000x128_1_0_0_1_n_n]; rfl

theorem lhs_D22_1 (j : S4000x128.Idx) (k : D22.contr.Idx) : (D22.lhsIdx j k 1).val = (k ⟨0, by decide⟩).val :=
  D22.lhsIdx_val_of_single (cl := 1) rfl j k

theorem rhs_D22_0 (j : S4000x128.Idx) (k : D22.contr.Idx) : (D22.rhsIdx j k 0).val = (k ⟨0, by decide⟩).val :=
  D22.rhsIdx_val_of_single (cr := 0) rfl j k

theorem rhs_D22_1 (j : S4000x128.Idx) (k : D22.contr.Idx) : (D22.rhsIdx j k 1).val = (j 1).val := by
  simp [DotDims.rhsIdx, D22, dot_S4000x128_S128x128_S4000x128_1_0_0_1_n_n]; rfl

/-- Entry (p, q) of a product into the zero accumulator is the sum over the contracted index of the products of
    row p of the left factor and column q of the right one. -/
theorem mm_apply {φ₁ φ₂ : FTy} (A : FVec Ideal S4000x128 φ₁) (B : FVec Ideal S128x128 φ₂) (p : Fin 4000) (q : Fin 128) :
    matmul D22 none A B (constant (F := Ideal) S4000x128 .f32 0x00000000#32) (ix2 p q)
      = ∑ k : Fin 128, A (ix2 p k) * B (ix2 k q) := by
  refine (Ideal.matmul_constant_zero_apply D22 none A B (ix2 p q)).trans ?_
  rw [← Equiv.sum_comp (contrEquiv1 D22 128 rfl rfl).symm]
  refine Finset.sum_congr rfl fun k _ => ?_
  have ck := contrEquiv1_symm_val D22 128 rfl rfl k
  have l : D22.lhsIdx (ix2 p q) ((contrEquiv1 D22 128 rfl rfl).symm k) = ix2 p k := by
    funext ax; apply Fin.ext
    match ax with
    | ⟨0, _⟩ => exact lhs_D22_0 _ _
    | ⟨1, _⟩ => exact (lhs_D22_1 _ _).trans ck
  have r : D22.rhsIdx (ix2 p q) ((contrEquiv1 D22 128 rfl rfl).symm k) = ix2 k q := by
    funext ax; apply Fin.ext
    match ax with
    | ⟨0, _⟩ => exact (rhs_D22_0 _ _).trans ck
    | ⟨1, _⟩ => exact rhs_D22_1 _ _
  rw [l, r]

/-! ## The broadcasts -/

/-- A bias row [1,128] spread over the 4000 rows reads its entry of the column. -/
theorem bias_apply (b : Vec Ideal S1x128 .f32) (p : Fin 4000) (q : Fin 128) :
    broadcastTo S4000x128 (shapeCast S1x128 b shapeCasts_S1x128_S1x128) broadcasts_S1x128_S4000x128 (ix2 p q)
      = Cert.Spec.row b 0 q := by
  rw [shapeCast_self]
  refine broadcastTo_apply b _ (ix2 p q) (ix2 (0 : Fin 1) q) fun ax => ?_
  match ax with
  | ⟨0, _⟩ => rfl
  | ⟨1, _⟩ => rfl

/-- The one entry of a [1,1] array spread over the whole block reads that entry. -/
theorem scale_apply (s : Vec Ideal S1x1 .f32) (p : Fin 4000) (q : Fin 128) :
    broadcastTo S4000x128 (shapeCast S1x1 s shapeCasts_S1x1_S1x1) broadcasts_S1x1_S4000x128 (ix2 p q)
      = Cert.Spec.at00 s := by
  rw [shapeCast_self]
  refine broadcastTo_apply s _ (ix2 p q) (ix2 (0 : Fin 1) (0 : Fin 1)) fun ax => ?_
  match ax with
  | ⟨0, _⟩ => rfl
  | ⟨1, _⟩ => rfl

/-! ## A dense layer at an entry -/

/-- A dense layer of the block: the product of the rows with the weights plus the bias row, at entry (p, q), is
    the layer's one output on row p (a change of float format is the identity on extended reals). -/
theorem dense_apply (a : FVec Ideal S4000x128 .f32) (w : Vec Ideal S128x128 .f32) (b : Vec Ideal S1x128 .f32)
    (p : Fin 4000) (q : Fin 128) :
    addf (matmul D22 none (truncf .bf16 a bitsLt_bf16_f32) (truncf .bf16 w bitsLt_bf16_f32)
        (constant (F := Ideal) S4000x128 .f32 0x00000000#32))
      (broadcastTo S4000x128 (shapeCast S1x128 b shapeCasts_S1x128_S1x128) broadcasts_S1x128_S4000x128) (ix2 p q)
      = Cert.Spec.lin (Cert.Spec.row a p) (Cert.Spec.mat w) (Cert.Spec.row b 0) q := by
  refine (addf_apply _ _ _).trans ?_
  unfold Cert.Spec.lin
  refine congrArg₂ (· + ·) ((mm_apply _ _ p q).trans ?_) (bias_apply b p q)
  rfl

/-- The first branch: the normalised rows through one dense layer. -/
theorem pay2_apply (xn : Vec Ideal S4000x128 .f32) (w : Vec Ideal S128x128 .f32) (b : Vec Ideal S1x128 .f32)
    (p : Fin 4000) (q : Fin 128) :
    k2_pay2 xn w b (ix2 p q) = Cert.Spec.lin (Cert.Spec.row xn p) (Cert.Spec.mat w) (Cert.Spec.row b 0) q := by
  unfold k2_pay2
  rw [shapeCast_self]
  exact dense_apply xn w b p q

/-- The message branch before its last bias: two dense layers with the gated unit between them, then the product with
    the third weight matrix. -/
theorem pay3_apply (agg : Vec Ideal S4000x128 .f32) (w1 : Vec Ideal S128x128 .f32) (b1 : Vec Ideal S1x128 .f32)
    (w2 : Vec Ideal S128x128 .f32) (b2 : Vec Ideal S1x128 .f32) (wu : Vec Ideal S128x128 .f32)
    (p : Fin 4000) (q : Fin 128) :
    k2_pay3 agg w1 b1 w2 b2 wu (ix2 p q)
      = ∑ j : Fin 128, Cert.Spec.lin (fun i => Cert.Spec.silu (Cert.Spec.lin (Cert.Spec.row agg p) (Cert.Spec.mat w1) (Cert.Spec.row b1 0) i))
            (Cert.Spec.mat w2) (Cert.Spec.row b2 0) j * Cert.Spec.mat wu j q := by
  unfold k2_pay3
  rw [shapeCast_self]
  refine (mm_apply _ _ p q).trans (Finset.sum_congr rfl fun j _ => ?_)
  refine congrArg₂ (· * ·) ?_ rfl
  refine (dense_apply _ w2 b2 p j).trans ?_
  refine congrArg (fun r => Cert.Spec.lin r (Cert.Spec.mat w2) (Cert.Spec.row b2 0) j) (funext fun i => ?_)
  show mulf _ _ (ix2 p i) = _
  refine (mulf_apply _ _ _).trans ?_
  unfold Cert.Spec.silu
  have e := dense_apply agg w1 b1 p i
  exact congrArg₂ (· * ·) e (congrArg Ideal.logistic e)

/-- The residual: the node's row plus the scale times the sum of the two branches (the second with its bias). -/
theorem pay1_apply (x : Vec Ideal S4000x128 .f32) (u v : FVec Ideal S4000x128 .f32) (bu : Vec Ideal S1x128 .f32)
    (s : Vec Ideal S1x1 .f32) (p : Fin 4000) (q : Fin 128) :
    k2_pay1 x u v bu s (ix2 p q)
      = x (ix2 p q) + Cert.Spec.at00 s * (u (ix2 p q) + (v (ix2 p q) + Cert.Spec.row bu 0 q)) := by
  unfold k2_pay1
  refine (addf_apply _ _ _).trans (congrArg (x (ix2 p q) + ·) ?_)
  refine (mulf_apply _ _ _).trans (congrArg₂ (· * ·) (scale_apply s p q) ?_)
  refine (addf_apply _ _ _).trans (congrArg (u (ix2 p q) + ·) ?_)
  exact (addf_apply _ _ _).trans (congrArg (v (ix2 p q) + ·) (bias_apply bu p q))

/-- What the body stores at entry (p, q) of its block: the node update of row p of the three row blocks. -/
theorem body_apply (x xn agg : Vec Ideal S4000x128 .f32)
    (mw1 : Vec Ideal S128x128 .f32) (mb1 : Vec Ideal S1x128 .f32) (mw2 : Vec Ideal S128x128 .f32) (mb2 : Vec Ideal S1x128 .f32)
    (slw : Vec Ideal S128x128 .f32) (slb : Vec Ideal S1x128 .f32) (ulw : Vec Ideal S128x128 .f32) (ulb : Vec Ideal S1x128 .f32)
    (rs : Vec Ideal S1x1 .f32) (p : Fin 4000) (q : Fin 128) :
    k2_pay1 x (k2_pay2 xn slw slb) (k2_pay3 agg mw1 mb1 mw2 mb2 ulw) ulb rs (ix2 p q)
      = Cert.Spec.node (Cert.Spec.row x p) (Cert.Spec.row xn p) (Cert.Spec.row agg p)
          (Cert.Spec.mat mw1) (Cert.Spec.row mb1 0) (Cert.Spec.mat mw2) (Cert.Spec.row mb2 0)
          (Cert.Spec.mat slw) (Cert.Spec.row slb 0) (Cert.Spec.mat ulw) (Cert.Spec.row ulb 0) (Cert.Spec.at00 rs) q := by
  refine (pay1_apply x _ _ ulb rs p q).trans ?_
  rw [pay2_apply, pay3_apply]
  rfl

/-! ## The blocks as parts of the arrays -/

theorem hz : (![0, 0] : Fin 2 → Nat) = fun _ => 0 := funext fun a => by fin_cases a <;> rfl

/-- Where each window's block sits at grid point t: the three row-blocked inputs and the output at block row t,
    every weight, bias and the scale at its one block. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_12.index t (0 : Fin 2) = t.val ∧ win2_12.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = 0 ∧ win2_11.index t (1 : Fin 2) = 0) :=
  (by decide +kernel : ∀ t : Fin grid2.N, _)

/-- The input blocks at a grid point, each at its literal type. -/
abbrev xB (c : Dev nD) (t : Fin cfg2.N) : Vec Ideal S4000x128 .f32 := iblk2 V c 0 t
abbrev xnB (c : Dev nD) (t : Fin cfg2.N) : Vec Ideal S4000x128 .f32 := iblk2 V c 1 t
abbrev aggB (c : Dev nD) (t : Fin cfg2.N) : Vec Ideal S4000x128 .f32 := iblk2 V c 2 t
abbrev mw1B (c : Dev nD) (t : Fin cfg2.N) : Vec Ideal S128x128 .f32 := iblk2 V c 3 t
abbrev mb1B (c : Dev nD) (t : Fin cfg2.N) : Vec Ideal S1x128 .f32 := iblk2 V c 4 t
abbrev mw2B (c : Dev nD) (t : Fin cfg2.N) : Vec Ideal S128x128 .f32 := iblk2 V c 5 t
abbrev mb2B (c : Dev nD) (t : Fin cfg2.N) : Vec Ideal S1x128 .f32 := iblk2 V c 6 t
abbrev slwB (c : Dev nD) (t : Fin cfg2.N) : Vec Ideal S128x128 .f32 := iblk2 V c 7 t
abbrev slbB (c : Dev nD) (t : Fin cfg2.N) : Vec Ideal S1x128 .f32 := iblk2 V c 8 t
abbrev ulwB (c : Dev nD) (t : Fin cfg2.N) : Vec Ideal S128x128 .f32 := iblk2 V c 9 t
abbrev ulbB (c : Dev nD) (t : Fin cfg2.N) : Vec Ideal S1x128 .f32 := iblk2 V c 10 t
abbrev rsB (c : Dev nD) (t : Fin cfg2.N) : Vec Ideal S1x1 .f32 := iblk2 V c 11 t

/-- The arrays as the region finds them, each at its literal type. -/
abbrev xA (c : Dev nD) : Vec Ideal S20000x128 .f32 := V c main_arg0
abbrev xnA (c : Dev nD) : Vec Ideal S20000x128 .f32 := V c main_v2
abbrev aggA (c : Dev nD) : Vec Ideal S20000x128 .f32 := V c main_v33
abbrev mw1A (c : Dev nD) : Vec Ideal S128x128 .f32 := V c main_arg18
abbrev mb1A (c : Dev nD) : Vec Ideal S1x128 .f32 := V c main_v35
abbrev mw2A (c : Dev nD) : Vec Ideal S128x128 .f32 := V c main_arg20
abbrev mb2A (c : Dev nD) : Vec Ideal S1x128 .f32 := V c main_v36
abbrev slwA (c : Dev nD) : Vec Ideal S128x128 .f32 := V c main_arg22
abbrev slbA (c : Dev nD) : Vec Ideal S1x128 .f32 := V c main_v37
abbrev ulwA (c : Dev nD) : Vec Ideal S128x128 .f32 := V c main_arg24
abbrev ulbA (c : Dev nD) : Vec Ideal S1x128 .f32 := V c main_v38
abbrev rsA (c : Dev nD) : Vec Ideal S1x1 .f32 := V c main_v34

/-! Row p of a row block at point t is row 4000·t + p of its array. -/

theorem xB_row (c : Dev nD) (t : Fin cfg2.N) (p : Fin 4000) (r : Fin 20000) (hr : r.val = 4000 * t.val + p.val) :
    Cert.Spec.row (xB V c t) p = Cert.Spec.row (xA V c) r := by
  have e := (idx_facts t).1
  funext q
  show iblk2 V c 0 t (ix2 p q) = V c main_arg0 (ix2 r q)
  unfold iblk2
  rw [View.read_apply]
  show V c main_arg0 _ = V c main_arg0 _
  congr 1
  funext a; apply Fin.ext
  match a with
  | ⟨0, _⟩ => show win2_0.index t (0 : Fin 2) * 4000 + 1 * p.val = r.val; rw [e.1, hr]; omega
  | ⟨1, _⟩ => show win2_0.index t (1 : Fin 2) * 128 + 1 * q.val = q.val; rw [e.2]; omega

theorem xnB_row (c : Dev nD) (t : Fin cfg2.N) (p : Fin 4000) (r : Fin 20000) (hr : r.val = 4000 * t.val + p.val) :
    Cert.Spec.row (xnB V c t) p = Cert.Spec.row (xnA V c) r := by
  have e := (idx_facts t).2.1
  funext q
  show iblk2 V c 1 t (ix2 p q) = V c main_v2 (ix2 r q)
  unfold iblk2
  rw [View.read_apply]
  show V c main_v2 _ = V c main_v2 _
  congr 1
  funext a; apply Fin.ext
  match a with
  | ⟨0, _⟩ => show win2_1.index t (0 : Fin 2) * 4000 + 1 * p.val = r.val; rw [e.1, hr]; omega
  | ⟨1, _⟩ => show win2_1.index t (1 : Fin 2) * 128 + 1 * q.val = q.val; rw [e.2]; omega

theorem aggB_row (c : Dev nD) (t : Fin cfg2.N) (p : Fin 4000) (r : Fin 20000) (hr : r.val = 4000 * t.val + p.val) :
    Cert.Spec.row (aggB V c t) p = Cert.Spec.row (aggA V c) r := by
  have e := (idx_facts t).2.2.1
  funext q
  show iblk2 V c 2 t (ix2 p q) = V c main_v33 (ix2 r q)
  unfold iblk2
  rw [View.read_apply]
  show V c main_v33 _ = V c main_v33 _
  congr 1
  funext a; apply Fin.ext
  match a with
  | ⟨0, _⟩ => show win2_2.index t (0 : Fin 2) * 4000 + 1 * p.val = r.val; rw [e.1, hr]; omega
  | ⟨1, _⟩ => show win2_2.index t (1 : Fin 2) * 128 + 1 * q.val = q.val; rw [e.2]; omega

/-! A weight's, a bias's and the scale's one block is its whole array. -/

theorem mw1B_eq (c : Dev nD) (t : Fin cfg2.N) : mw1B V c t = mw1A V c := by
  have e := (idx_facts t).2.2.2.2.1
  funext j
  show iblk2 V c 3 t j = V c main_arg18 j
  unfold iblk2
  rw [View.read_apply]
  show V c main_arg18 _ = V c main_arg18 _
  congr 1
  funext a; apply Fin.ext
  match a with
  | ⟨0, _⟩ => show win2_3.index t (0 : Fin 2) * 128 + 1 * (j 0).val = (j 0).val; rw [e.1]; omega
  | ⟨1, _⟩ => show win2_3.index t (1 : Fin 2) * 128 + 1 * (j 1).val = (j 1).val; rw [e.2]; omega

theorem mb1B_eq (c : Dev nD) (t : Fin cfg2.N) : mb1B V c t = mb1A V c := by
  have e := (idx_facts t).2.2.2.2.2.1
  funext j
  show iblk2 V c 4 t j = V c main_v35 j
  unfold iblk2
  rw [View.read_apply]
  show V c main_v35 _ = V c main_v35 _
  congr 1
  funext a; apply Fin.ext
  match a with
  | ⟨0, _⟩ => show win2_4.index t (0 : Fin 2) * 1 + 1 * (j 0).val = (j 0).val; rw [e.1]; omega
  | ⟨1, _⟩ => show win2_4.index t (1 : Fin 2) * 128 + 1 * (j 1).val = (j 1).val; rw [e.2]; omega

theorem mw2B_eq (c : Dev nD) (t : Fin cfg2.N) : mw2B V c t = mw2A V c := by
  have e := (idx_facts t).2.2.2.2.2.2.1
  funext j
  show iblk2 V c 5 t j = V c main_arg20 j
  unfold iblk2
  rw [View.read_apply]
  show V c main_arg20 _ = V c main_arg20 _
  congr 1
  funext a; apply Fin.ext
  match a with
  | ⟨0, _⟩ => show win2_5.index t (0 : Fin 2) * 128 + 1 * (j 0).val = (j 0).val; rw [e.1]; omega
  | ⟨1, _⟩ => show win2_5.index t (1 : Fin 2) * 128 + 1 * (j 1).val = (j 1).val; rw [e.2]; omega

theorem mb2B_eq (c : Dev nD) (t : Fin cfg2.N) : mb2B V c t = mb2A V c := by
  have e := (idx_facts t).2.2.2.2.2.2.2.1
  funext j
  show iblk2 V c 6 t j = V c main_v36 j
  unfold iblk2
  rw [View.read_apply]
  show V c main_v36 _ = V c main_v36 _
  congr 1
  funext a; apply Fin.ext
  match a with
  | ⟨0, _⟩ => show win2_6.index t (0 : Fin 2) * 1 + 1 * (j 0).val = (j 0).val; rw [e.1]; omega
  | ⟨1, _⟩ => show win2_6.index t (1 : Fin 2) * 128 + 1 * (j 1).val = (j 1).val; rw [e.2]; omega

theorem slwB_eq (c : Dev nD) (t : Fin cfg2.N) : slwB V c t = slwA V c := by
  have e := (idx_facts t).2.2.2.2.2.2.2.2.1
  funext j
  show iblk2 V c 7 t j = V c main_arg22 j
  unfold iblk2
  rw [View.read_apply]
  show V c main_arg22 _ = V c main_arg22 _
  congr 1
  funext a; apply Fin.ext
  match a with
  | ⟨0, _⟩ => show win2_7.index t (0 : Fin 2) * 128 + 1 * (j 0).val = (j 0).val; rw [e.1]; omega
  | ⟨1, _⟩ => show win2_7.index t (1 : Fin 2) * 128 + 1 * (j 1).val = (j 1).val; rw [e.2]; omega

theorem slbB_eq (c : Dev nD) (t : Fin cfg2.N) : slbB V c t = slbA V c := by
  have e := (idx_facts t).2.2.2.2.2.2.2.2.2.1
  funext j
  show iblk2 V c 8 t j = V c main_v37 j
  unfold iblk2
  rw [View.read_apply]
  show V c main_v37 _ = V c main_v37 _
  congr 1
  funext a; apply Fin.ext
  match a with
  | ⟨0, _⟩ => show win2_8.index t (0 : Fin 2) * 1 + 1 * (j 0).val = (j 0).val; rw [e.1]; omega
  | ⟨1, _⟩ => show win2_8.index t (1 : Fin 2) * 128 + 1 * (j 1).val = (j 1).val; rw [e.2]; omega

theorem ulwB_eq (c : Dev nD) (t : Fin cfg2.N) : ulwB V c t = ulwA V c := by
  have e := (idx_facts t).2.2.2.2.2.2.2.2.2.2.1
  funext j
  show iblk2 V c 9 t j = V c main_arg24 j
  unfold iblk2
  rw [View.read_apply]
  show V c main_arg24 _ = V c main_arg24 _
  congr 1
  funext a; apply Fin.ext
  match a with
  | ⟨0, _⟩ => show win2_9.index t (0 : Fin 2) * 128 + 1 * (j 0).val = (j 0).val; rw [e.1]; omega
  | ⟨1, _⟩ => show win2_9.index t (1 : Fin 2) * 128 + 1 * (j 1).val = (j 1).val; rw [e.2]; omega

theorem ulbB_eq (c : Dev nD) (t : Fin cfg2.N) : ulbB V c t = ulbA V c := by
  have e := (idx_facts t).2.2.2.2.2.2.2.2.2.2.2.1
  funext j
  show iblk2 V c 10 t j = V c main_v38 j
  unfold iblk2
  rw [View.read_apply]
  show V c main_v38 _ = V c main_v38 _
  congr 1
  funext a; apply Fin.ext
  match a with
  | ⟨0, _⟩ => show win2_10.index t (0 : Fin 2) * 1 + 1 * (j 0).val = (j 0).val; rw [e.1]; omega
  | ⟨1, _⟩ => show win2_10.index t (1 : Fin 2) * 128 + 1 * (j 1).val = (j 1).val; rw [e.2]; omega

theorem rsB_eq (c : Dev nD) (t : Fin cfg2.N) : rsB V c t = rsA V c := by
  have e := (idx_facts t).2.2.2.2.2.2.2.2.2.2.2.2
  funext j
  show iblk2 V c 11 t j = V c main_v34 j
  unfold iblk2
  rw [View.read_apply]
  show V c main_v34 _ = V c main_v34 _
  congr 1
  funext a; apply Fin.ext
  match a with
  | ⟨0, _⟩ => show win2_11.index t (0 : Fin 2) * 1 + 1 * (j 0).val = (j 0).val; rw [e.1]; omega
  | ⟨1, _⟩ => show win2_11.index t (1 : Fin 2) * 1 + 1 * (j 1).val = (j 1).val; rw [e.2]; omega

/-! ## What a grid point writes back -/

/-- The whole-array result: every node's update, from the arrays as the region finds them. -/
abbrev nodeOf (c : Dev nD) : Vec Ideal S20000x128 .f32 :=
  Cert.Spec.nodeArr (xA V c) (xnA V c) (aggA V c)
    (mw1A V c) (Cert.Spec.row (mb1A V c) 0) (mw2A V c) (Cert.Spec.row (mb2A V c) 0)
    (slwA V c) (Cert.Spec.row (slbA V c) 0) (ulwA V c) (Cert.Spec.row (ulbA V c) 0)
    (Cert.Spec.at00 (rsA V c))

/-- Entry (p, q) of what point t's body stores is the update of node 4000·t + p at feature q. -/
theorem body_at (c : Dev nD) (t : Fin cfg2.N) (p : Fin 4000) (q : Fin 128) (r : Fin 20000) (hr : r.val = 4000 * t.val + p.val) :
    k2_pay1 (xB V c t) (k2_pay2 (xnB V c t) (slwB V c t) (slbB V c t))
        (k2_pay3 (aggB V c t) (mw1B V c t) (mb1B V c t) (mw2B V c t) (mb2B V c t) (ulwB V c t)) (ulbB V c t) (rsB V c t) (ix2 p q)
      = nodeOf V c (ix2 r q) := by
  refine (body_apply (xB V c t) (xnB V c t) (aggB V c t) (mw1B V c t) (mb1B V c t) (mw2B V c t) (mb2B V c t)
    (slwB V c t) (slbB V c t) (ulwB V c t) (ulbB V c t) (rsB V c t) p q).trans ?_
  rw [xB_row V c t p r hr, xnB_row V c t p r hr, aggB_row V c t p r hr, mw1B_eq V c t, mb1B_eq V c t, mw2B_eq V c t,
    mb2B_eq V c t, slwB_eq V c t, slbB_eq V c t, ulwB_eq V c t, ulbB_eq V c t, rsB_eq V c t]
  rfl

/-- WHAT POINT t WRITES BACK is block t of the whole-array result. -/
theorem flushed_eq (c : Dev nD) (t : Fin cfg2.N) :
    (dat2 (F := Ideal) V c).flushed 12 t = ((cfg2.win 12).blk t).view.read (Elt Ideal) (nodeOf V c) := by
  show (cfg2.win 12).cut (grid2.coords t) ((dat2 V c).after 12 t) = _
  rw [after2_12]
  unfold out2_12
  rw [View.canon_unit_zero hz]
  simp only [View.ld_unit_zero (S := S4000x128) hz, View.ld_unit_zero (S := S128x128) hz,
    View.ld_unit_zero (S := S1x128) hz, View.ld_unit_zero (S := S1x1) hz]
  obtain ⟨-, -, -, ⟨e0, e1⟩, -⟩ := idx_facts t
  funext j
  show k2_pay1 (xB V c t) (k2_pay2 (xnB V c t) (slwB V c t) (slbB V c t))
        (k2_pay3 (aggB V c t) (mw1B V c t) (mb1B V c t) (mw2B V c t) (mb2B V c t) (ulwB V c t)) (ulbB V c t) (rsB V c t) j
      = nodeOf V c (((cfg2.win 12).blk t).view.emb j)
  obtain ⟨p, q, rfl⟩ : ∃ (p : Fin 4000) (q : Fin 128), j = ix2 p q := ⟨j 0, j 1, eq_ix2 j⟩
  have ht : t.val < 5 := by have h : t.val < cfg2.N := t.isLt; have hN : cfg2.N = 5 := N_2; omega
  refine (body_at V c t p q ⟨4000 * t.val + p.val, by have := p.isLt; omega⟩ rfl).trans ?_
  refine congrArg (nodeOf V c) ?_
  funext a; apply Fin.ext
  match a with
  | ⟨0, _⟩ => show 4000 * t.val + p.val = win2_12.index t (0 : Fin 2) * 4000 + 1 * p.val; rw [e0]; omega
  | ⟨1, _⟩ => show q.val = win2_12.index t (1 : Fin 2) * 128 + 1 * q.val; rw [e1]; omega

/-! ## The blocks cover the array -/

/-- A node row and feature lie in point t's block iff each coordinate is in the block's range. -/
theorem mem_blk (t : Fin cfg2.N) (i : S20000x128.Idx) :
    i ∈ ((cfg2.win 12).blk t).view.set ↔ ∀ a : Fin 2, win2_12.index t a * S4000x128.size a ≤ (i a).val
      ∧ (i a).val < win2_12.index t a * S4000x128.size a + S4000x128.size a := by
  show i ∈ ((View.whole main_v39).slice (win2_12.rect t)).set ↔ _
  rw [View.set_slice_whole, Rect.mem_set_unit]
  exact Iff.rfl

/-- Node row r is written by the point r / 4000. -/
theorem covered (i : S20000x128.Idx) :
    ∃ t : Fin cfg2.N, (cfg2.win 12).flush t = true ∧ i ∈ ((cfg2.win 12).blk t).view.set := by
  have hi0 : (i 0).val < 20000 := (i 0).isLt
  have hi1 : (i 1).val < 128 := (i 1).isLt
  have hN : cfg2.N = 5 := N_2
  have hlt : (i 0).val / 4000 < cfg2.N := by rw [hN]; omega
  obtain ⟨-, -, -, ⟨e0, e1⟩, -⟩ := idx_facts ⟨(i 0).val / 4000, hlt⟩
  refine ⟨⟨(i 0).val / 4000, hlt⟩, flush2_12 _, ?_⟩
  rw [mem_blk]
  intro a
  match a with
  | ⟨0, _⟩ =>
    show win2_12.index ⟨(i 0).val / 4000, hlt⟩ (0 : Fin 2) * 4000 ≤ (i 0).val
      ∧ (i 0).val < win2_12.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win2_12.index ⟨(i 0).val / 4000, hlt⟩ (1 : Fin 2) * 128 ≤ (i 1).val
      ∧ (i 1).val < win2_12.index ⟨(i 0).val / 4000, hlt⟩ (1 : Fin 2) * 128 + 128
    rw [e1]; omega

/-- THE ARRAY after the region: every node's update. -/
theorem final12 (c : Dev nD) :
    (dat2 (F := Ideal) V c).arrAt 12 cfg2.N
      = Cert.Spec.nodeArr (V c main_arg0) (V c main_v2) (V c main_v33)
          (V c main_arg18) (Cert.Spec.row (V c main_v35) 0) (V c main_arg20) (Cert.Spec.row (V c main_v36) 0)
          (V c main_arg22) (Cert.Spec.row (V c main_v37) 0) (V c main_arg24) (Cert.Spec.row (V c main_v38) 0)
          (Cert.Spec.at00 (V c main_v34)) :=
  (dat2 (F := Ideal) V c).arrAt_eq_of_cover 12 (nodeOf V c) (fun t _ => flushed_eq V c t) covered

end Cert.KernelIdeal.Reg2

end
-- ==== Proof.KStages.lean ====
/-
  The host side of the idealized kernel program as pure functions of arrays: the wrap of the source
  indices and the fill-mode row lookup (a row whose wrapped index lies outside [0, 19999] reads as the
  fill word), the cosine cutoff of the edge lengths, and the normalised scatter-sum of the messages
  (sum of messages landing on a node divided by the larger of the summed edge weights and the word 1e-8).
  `KVal` is the program's result as one function of its 27 argument arrays, the three kernel regions
  read through their whole-array forms.
-/
import proofs.«408722_j80805514707436_1_alg».proof.Proof.Gen.KernelIdeal
import proofs.«408722_j80805514707436_1_alg».proof.Proof.Spec

noncomputable section

namespace Cert.KernelIdeal.Stages

open Idealize.ShloMosaic Idealize.ShloMosaic.ValueIdx Cert.KernelIdeal Cert.KernelIdeal.Facts₀ Cert.KernelIdeal.Facts

variable {F : FTy → Type} [FloatOps F]

/-- The source indices with the negative ones wrapped by 20000, as a column. -/
def idxK (src : IVec S640000 32) : IVec S640000x1 32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 20000#32))) src)

/-- Per edge: is the wrapped index inside [0, 19999]? -/
def maskK (idx : IVec S640000x1 32) : IVec S640000 1 :=
  (fun x v => Host.reduce IntOp.andi x v reducesTo_S640000x1_S640000_d1 h_S_)
    (andi (cmpi .sge idx (broadcastInDim S640000x1 ![] bcast_S_S640000x1 (constantI S_ 32 0#32)))
      (cmpi .sle idx (broadcastInDim S640000x1 ![0, 1] bcast_S1x1_S640000x1_0_1
        (broadcastInDim S1x1 ![1] bcast_S1_S1x1_1 (constantI S1 32 19999#32)))))
    (constantI S_ 1 1#1)

/-- The fill-mode row lookup: row `idx e` of `xn` where the index is in range, the fill word elsewhere. -/
def takeK (xn : FVec F S20000x128 .f32) (src : IVec S640000 32) : FVec F S640000x128 .f32 :=
  select (broadcastInDim S640000x128 ![0] bcast_S640000_S640000x128_0 (maskK (idxK src)))
    (Host.gather gather_S20000x128_S640000x1_S640000x128_1_0_n_n_0_1_1128 xn (idxK src))
    (broadcastInDim S640000x128 ![] bcast_S_S640000x128 (constant S_ .f32 0x7FC00000#32))

/-- The cosine cutoff `½ (cos(π · len / 5) + 1) · [len ≤ 5]` of every edge length. -/
def cutK (len : FVec F S640000 .f32) : FVec F S640000 .f32 :=
  mulf
    (mulf (broadcastInDim S640000 ![] bcast_S_S640000 (constant S_ .f32 0x3F000000#32))
      (addf
        (Host.cos (mulf (broadcastInDim S640000 ![] bcast_S_S640000 (constant S_ .f32 0x40490FDB#32))
          (Host.divf len (broadcastInDim S640000 ![] bcast_S_S640000 (constant S_ .f32 0x40A00000#32)))))
        (broadcastInDim S640000 ![] bcast_S_S640000 (constant S_ .f32 0x3F800000#32))))
    (uitofp .f32 (cmpf .ole len (broadcastInDim S640000 ![] bcast_S_S640000 (constant S_ .f32 0x40A00000#32))))

/-- The messages summed per destination node and divided by the larger of the summed edge weights and 1e-8. -/
def aggK (msg : FVec F S640000x128 .f32) (ew : FVec F S640000x1 .f32) (dst : IVec S640000 32) : FVec F S20000x128 .f32 :=
  Host.divf
    (Host.scatterAdd scatter_S20000x128_S640000x1_S640000x128_1_0_0_1
      (broadcastInDim S20000x128 ![] bcast_S_S20000x128 (constant S_ .f32 0x00000000#32))
      (broadcastInDim S640000x1 ![0] bcast_S640000_S640000x1_0 dst) msg)
    (broadcastInDim S20000x128 ![0, 1] bcast_S20000x1_S20000x128_0_1
      (maximumf
        (Host.scatterAdd scatter_S20000x1_S640000x1_S640000x1_1_0_0_1
          (broadcastInDim S20000x1 ![] bcast_S_S20000x1 (constant S_ .f32 0x00000000#32))
          (broadcastInDim S640000x1 ![0] bcast_S640000_S640000x1_0 dst) ew)
        (broadcastInDim S20000x1 ![] bcast_S_S20000x1 (constant S_ .f32 0x322BCC77#32))))

/-- A rank-1 array as a function of its coordinate. -/
def v1 {n : Nat} (a : (⟨1, ![n]⟩ : Shape).Idx → EReal) : Fin n → EReal := fun k => a (ix1 k)

/-- The idealized kernel program's result as a function of its argument arrays. -/
def KVal (a0 : FVec Ideal S20000x128 .f32) (a1 a2 : IVec S640000 32) (a4 : FVec Ideal S640000x32 .f32) (a5 : FVec Ideal S640000 .f32)
    (a6 a7 : FVec Ideal S128 .f32) (a8 : FVec Ideal S32x128 .f32) (a9 : FVec Ideal S128 .f32) (a10 : FVec Ideal S128x128 .f32)
    (a11 : FVec Ideal S128 .f32) (a12 : FVec Ideal S128x128 .f32) (a13 : FVec Ideal S128 .f32) (a14 : FVec Ideal S32x128 .f32)
    (a15 : FVec Ideal S128 .f32) (a16 : FVec Ideal S128x1 .f32) (a17 : FVec Ideal S1 .f32) (a18 : FVec Ideal S128x128 .f32)
    (a19 : FVec Ideal S128 .f32) (a20 : FVec Ideal S128x128 .f32) (a21 : FVec Ideal S128 .f32) (a22 : FVec Ideal S128x128 .f32)
    (a23 : FVec Ideal S128 .f32) (a24 : FVec Ideal S128x128 .f32) (a25 : FVec Ideal S128 .f32) (a26 : FVec Ideal S_ .f32) :
    FVec Ideal S20000x128 .f32 :=
  let xn : FVec Ideal S20000x128 .f32 := Cert.Spec.lnArr a0 (v1 a6) (v1 a7)
  let cut : Fin 640000 → EReal := v1 (cutK (F := Ideal) a5)
  let ew : FVec Ideal S640000x1 .f32 := Cert.Spec.ewArr a4 cut a14 (v1 a15) (Cert.Spec.col0 a16) (a17 (ix1 0))
  let msg : FVec Ideal S640000x128 .f32 := Cert.Spec.msgArr a4 cut (takeK (F := Ideal) xn a1)
    a14 (v1 a15) (Cert.Spec.col0 a16) (a17 (ix1 0)) a8 (v1 a9) a10 (v1 a11) a12 (v1 a13)
  Cert.Spec.nodeArr a0 xn (aggK (F := Ideal) msg ew a2) a18 (v1 a19) a20 (v1 a21) a22 (v1 a23) a24 (v1 a25) (a26 ix0)

end Cert.KernelIdeal.Stages

end
-- ==== Proof.KHost.lean ====
import proofs.«408722_j80805514707436_1_alg».proof.Proof.Gen.KernelIdeal.Frame
import proofs.«408722_j80805514707436_1_alg».proof.Proof.Spec
import proofs.«408722_j80805514707436_1_alg».proof.Proof.KStages
import Idealize.ShloMosaic.Lib.Pipeline.Value
import Idealize.ShloMosaic.Lib.StableHlo.Run
import Idealize.ShloMosaic.Lib.ValueLayout

set_option maxRecDepth 16384

noncomputable section

namespace Cert.KernelIdeal.HostRead

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Facts₀ Cert.KernelIdeal.Facts Cert.KernelIdeal.Stages

/-- The buffer contents a region is entered at. -/
abbrev VTy : Type := (c : Dev nD) → (b : Ref sig .tc) → Buf (Elt Ideal) ((c : Thread nD τ).loc b)

/-! ## Reading a reshape: a vector as one row, as one column, a single entry as a 1 × 1 array -/

section Casts

/-- A vector of 128 reshaped to one row reads, along that row, as the vector. -/
theorem row_cast (x : FVec Ideal S128 .f32) :
    Cert.Spec.row (shapeCast S1x128 x Gen.shapeCasts_S128_S1x128) 0 = v1 x := by
  funext k
  exact shapeCast_a_1a_apply x Gen.shapeCasts_S128_S1x128 0 k

/-- A vector reshaped to one column reads, down that column, as the vector: the row-major position of
    `(e, 0)` in an `[n, 1]` array is `e`. -/
theorem col_cast (x : FVec Ideal S640000 .f32) :
    Cert.Spec.col0 (shapeCast S640000x1 x Gen.shapeCasts_S640000_S640000x1) = v1 x := by
  funext e
  refine shapeCast_apply x Gen.shapeCasts_S640000_S640000x1 (ix2 e 0) (ix1 e) ?_
  rw [Shape.rowMajor_val_two, Shape.rowMajor_val_one]
  show e.val = e.val * 1 + 0
  omega

/-- A one-entry vector reshaped to 1 × 1 holds that entry. -/
theorem at00_cast1 (x : FVec Ideal S1 .f32) :
    Cert.Spec.at00 (shapeCast S1x1 x Gen.shapeCasts_S1_S1x1) = x (ix1 0) :=
  shapeCast_a_1a_apply x Gen.shapeCasts_S1_S1x1 0 0

/-- A scalar reshaped to 1 × 1 holds the scalar: both arrays have one position. -/
theorem at00_cast0 (x : FVec Ideal S_ .f32) :
    Cert.Spec.at00 (shapeCast S1x1 x Gen.shapeCasts_S_S1x1) = x ix0 := by
  refine shapeCast_apply x Gen.shapeCasts_S_S1x1 (ix2 0 0) ix0 ?_
  rw [Shape.rowMajor_val_two]
  show (Shape.rowMajorPi _ _).val = 0 * 1 + 0
  rw [Shape.rowMajorPi_zero]

end Casts

/-! ## Equal arguments give equal arrays -/

section Congr

theorem lnArr_congr {x x' : Cert.Spec.A2 20000 128} {g g' b b' : Fin 128 → EReal}
    (hx : x = x') (hg : g = g') (hb : b = b') : Cert.Spec.lnArr x g b = Cert.Spec.lnArr x' g' b' := by
  subst hx hg hb; rfl

theorem takeK_congr {x x' : FVec Ideal S20000x128 .f32} {s s' : IVec S640000 32}
    (hx : x = x') (hs : s = s') : takeK (F := Ideal) x s = takeK (F := Ideal) x' s' := by
  subst hx hs; rfl

theorem aggK_congr {x x' : FVec Ideal S640000x128 .f32} {w w' : FVec Ideal S640000x1 .f32} {d d' : IVec S640000 32}
    (hx : x = x') (hw : w = w') (hd : d = d') : aggK (F := Ideal) x w d = aggK (F := Ideal) x' w' d' := by
  subst hx hw hd; rfl

theorem ewArr_congr {rbf rbf' : Cert.Spec.A2 640000 32} {cut cut' : Fin 640000 → EReal} {w1 w1' : Cert.Spec.A2 32 128}
    {b1 b1' w2 w2' : Fin 128 → EReal} {b2 b2' : EReal}
    (h0 : rbf = rbf') (h1 : cut = cut') (h2 : w1 = w1') (h3 : b1 = b1') (h4 : w2 = w2') (h5 : b2 = b2') :
    Cert.Spec.ewArr rbf cut w1 b1 w2 b2 = Cert.Spec.ewArr rbf' cut' w1' b1' w2' b2' := by
  subst h0 h1 h2 h3 h4 h5; rfl

theorem msgArr_congr {rbf rbf' : Cert.Spec.A2 640000 32} {cut cut' : Fin 640000 → EReal} {xg xg' : Cert.Spec.A2 640000 128}
    {gw1 gw1' : Cert.Spec.A2 32 128} {gb1 gb1' gw2 gw2' : Fin 128 → EReal} {gb2 gb2' : EReal}
    {w1 w1' : Cert.Spec.A2 32 128} {b1 b1' : Fin 128 → EReal} {w2 w2' : Cert.Spec.A2 128 128} {b2 b2' : Fin 128 → EReal}
    {w3 w3' : Cert.Spec.A2 128 128} {b3 b3' : Fin 128 → EReal}
    (h0 : rbf = rbf') (h1 : cut = cut') (h2 : xg = xg') (h3 : gw1 = gw1') (h4 : gb1 = gb1') (h5 : gw2 = gw2')
    (h6 : gb2 = gb2') (h7 : w1 = w1') (h8 : b1 = b1') (h9 : w2 = w2') (h10 : b2 = b2') (h11 : w3 = w3') (h12 : b3 = b3') :
    Cert.Spec.msgArr rbf cut xg gw1 gb1 gw2 gb2 w1 b1 w2 b2 w3 b3
      = Cert.Spec.msgArr rbf' cut' xg' gw1' gb1' gw2' gb2' w1' b1' w2' b2' w3' b3' := by
  subst h0 h1 h2 h3 h4 h5 h6 h7 h8 h9 h10 h11 h12; rfl

theorem nodeArr_congr {x x' xn xn' agg agg' : Cert.Spec.A2 20000 128}
    {mw1 mw1' : Cert.Spec.A2 128 128} {mb1 mb1' : Fin 128 → EReal} {mw2 mw2' : Cert.Spec.A2 128 128} {mb2 mb2' : Fin 128 → EReal}
    {slw slw' : Cert.Spec.A2 128 128} {slb slb' : Fin 128 → EReal} {ulw ulw' : Cert.Spec.A2 128 128} {ulb ulb' : Fin 128 → EReal}
    {rs rs' : EReal}
    (h0 : x = x') (h1 : xn = xn') (h2 : agg = agg') (h3 : mw1 = mw1') (h4 : mb1 = mb1') (h5 : mw2 = mw2') (h6 : mb2 = mb2')
    (h7 : slw = slw') (h8 : slb = slb') (h9 : ulw = ulw') (h10 : ulb = ulb') (h11 : rs = rs') :
    Cert.Spec.nodeArr x xn agg mw1 mb1 mw2 mb2 slw slb ulw ulb rs
      = Cert.Spec.nodeArr x' xn' agg' mw1' mb1' mw2' mb2' slw' slb' ulw' ulb' rs' := by
  subst h0 h1 h2 h3 h4 h5 h6 h7 h8 h9 h10 h11; rfl

end Congr

/-! ## Each host stretch, over any contents `Y` it is entered at -/

section Stretches
variable (Y : Valuation τ sig (Elt Ideal))

/-- A buffer outside the list of buffers this stretch writes keeps its contents across it. -/
theorem keep0 (b : Ref sig .tc) (hb : b ∉ [main_v0, main_v1]) :
    StableHlo.after (hostOps0 (F := Ideal)) Y (Proc.devRef .tc b) = Y (Proc.devRef .tc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by rw [e]; decide))))

/-- A buffer outside the list of buffers this stretch writes keeps its contents across it. -/
theorem keep1 (b : Ref sig .tc) (hb : b ∉ [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v3]) :
    StableHlo.after (hostOps1 (F := Ideal)) Y (Proc.devRef .tc b) = Y (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by rw [e]; decide))))

/-- A buffer outside the list of buffers this stretch writes keeps its contents across it. -/
theorem keep11 (b : Ref sig .tc) (hb : b ∉ [main_cst, main_v4, main_v5, main_cst_0, main_v6, main_v7, main_v8, main_cst_1, main_v9, main_v10, main_cst_2, main_v11, main_v12, main_cst_3, main_v13, main_v14, main_v15, main_v16, main_v17, main_v18, main_v19, main_v20, main_v21, main_v22]) :
    StableHlo.after (hostOps1_1 (F := Ideal)) Y (Proc.devRef .tc b) = Y (Proc.devRef .tc b) :=
  StableHlo.after_of_forall_not_mem (b := Proc.devRef .tc b) _ _ (List.forall_iff_forall_mem.mp (by
    simp only [hostOps1_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by rw [e]; decide))))

/-- A buffer outside the list of buffers this stretch writes keeps its contents across it. -/
theorem keep2 (b : Ref sig .tc) (hb : b ∉ [main_cst_4, main_v24, main_v25, main_v26, main_cst_5, main_v27, main_v28, main_v29, main_cst_6, main_v30, main_v31, main_v32, main_v33, main_v34, main_v35, main_v36, main_v37, main_v38]) :
    StableHlo.after (hostOps2 (F := Ideal)) Y (Proc.devRef .tc b) = Y (Proc.devRef .tc b) :=
  StableHlo.after_of_forall_not_mem (b := Proc.devRef .tc b) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by rw [e]; decide))))

/-! The two row reshapes before the first region. -/
theorem r0_v0 : StableHlo.after (hostOps0 (F := Ideal)) Y (Proc.devRef .tc main_v0)
    = shapeCast S1x128 (Y (Proc.devRef .tc main_arg6)) Gen.shapeCasts_S128_S1x128 := by
  open StableHlo in after_results_simp
  rfl

theorem r0_v1 : StableHlo.after (hostOps0 (F := Ideal)) Y (Proc.devRef .tc main_v1)
    = shapeCast S1x128 (Y (Proc.devRef .tc main_arg7)) Gen.shapeCasts_S128_S1x128 := by
  open StableHlo in after_results_simp
  rfl

set_option maxRecDepth 400000 in
/-- The row lookup's result is `takeK` of the normalised features and the source indices. -/
theorem r1_v3 : StableHlo.after (hostOps1 (F := Ideal)) Y (Proc.devRef .tc main_v3)
    = takeK (F := Ideal) (Y (Proc.devRef .tc main_v2)) (Y (Proc.devRef .tc main_arg1)) := by
  open StableHlo in after_results_simp
  simp only [StableHlo.TRef.ofBuf, StableHlo.TRef.toBuf, cast_eq]
  rfl

/-- The cutoff column is the reshape of `cutK` of the edge lengths. -/
theorem r11_v17 : StableHlo.after (hostOps1_1 (F := Ideal)) Y (Proc.devRef .tc main_v17)
    = shapeCast S640000x1 (cutK (F := Ideal) (Y (Proc.devRef .tc main_arg5))) Gen.shapeCasts_S640000_S640000x1 := by
  open StableHlo in after_results_simp
  rfl
theorem r11_v18 : StableHlo.after (hostOps1_1 (F := Ideal)) Y (Proc.devRef .tc main_v18)
    = shapeCast S1x128 (Y (Proc.devRef .tc main_arg15)) Gen.shapeCasts_S128_S1x128 := by
  open StableHlo in after_results_simp
  rfl

theorem r11_v19 : StableHlo.after (hostOps1_1 (F := Ideal)) Y (Proc.devRef .tc main_v19)
    = shapeCast S1x1 (Y (Proc.devRef .tc main_arg17)) Gen.shapeCasts_S1_S1x1 := by
  open StableHlo in after_results_simp
  rfl

theorem r11_v20 : StableHlo.after (hostOps1_1 (F := Ideal)) Y (Proc.devRef .tc main_v20)
    = shapeCast S1x128 (Y (Proc.devRef .tc main_arg9)) Gen.shapeCasts_S128_S1x128 := by
  open StableHlo in after_results_simp
  rfl

theorem r11_v21 : StableHlo.after (hostOps1_1 (F := Ideal)) Y (Proc.devRef .tc main_v21)
    = shapeCast S1x128 (Y (Proc.devRef .tc main_arg11)) Gen.shapeCasts_S128_S1x128 := by
  open StableHlo in after_results_simp
  rfl

theorem r11_v22 : StableHlo.after (hostOps1_1 (F := Ideal)) Y (Proc.devRef .tc main_v22)
    = shapeCast S1x128 (Y (Proc.devRef .tc main_arg13)) Gen.shapeCasts_S128_S1x128 := by
  open StableHlo in after_results_simp
  rfl

/-- The aggregate is `aggK` of the messages, the edge weights and the destination indices. -/
theorem r2_v33 : StableHlo.after (hostOps2 (F := Ideal)) Y (Proc.devRef .tc main_v33)
    = aggK (F := Ideal) (Y (Proc.devRef .tc main_v23_0)) (Y (Proc.devRef .tc main_v23_1)) (Y (Proc.devRef .tc main_arg2)) := by
  open StableHlo in after_results_simp
  rfl
theorem r2_v34 : StableHlo.after (hostOps2 (F := Ideal)) Y (Proc.devRef .tc main_v34)
    = shapeCast S1x1 (Y (Proc.devRef .tc main_arg26)) Gen.shapeCasts_S_S1x1 := by
  open StableHlo in after_results_simp
  rfl

theorem r2_v35 : StableHlo.after (hostOps2 (F := Ideal)) Y (Proc.devRef .tc main_v35)
    = shapeCast S1x128 (Y (Proc.devRef .tc main_arg19)) Gen.shapeCasts_S128_S1x128 := by
  open StableHlo in after_results_simp
  rfl

theorem r2_v36 : StableHlo.after (hostOps2 (F := Ideal)) Y (Proc.devRef .tc main_v36)
    = shapeCast S1x128 (Y (Proc.devRef .tc main_arg21)) Gen.shapeCasts_S128_S1x128 := by
  open StableHlo in after_results_simp
  rfl

theorem r2_v37 : StableHlo.after (hostOps2 (F := Ideal)) Y (Proc.devRef .tc main_v37)
    = shapeCast S1x128 (Y (Proc.devRef .tc main_arg23)) Gen.shapeCasts_S128_S1x128 := by
  open StableHlo in after_results_simp
  rfl

theorem r2_v38 : StableHlo.after (hostOps2 (F := Ideal)) Y (Proc.devRef .tc main_v38)
    = shapeCast S1x128 (Y (Proc.devRef .tc main_arg25)) Gen.shapeCasts_S128_S1x128 := by
  open StableHlo in after_results_simp
  rfl

/-! The same results read along their one row, down their one column, at their one entry. -/

theorem r0_row0 : Cert.Spec.row (StableHlo.after (hostOps0 (F := Ideal)) Y (Proc.devRef .tc main_v0)) 0
    = v1 (Y (Proc.devRef .tc main_arg6)) :=
  (congrArg (fun a : FVec Ideal S1x128 .f32 => Cert.Spec.row a 0) (r0_v0 Y)).trans (row_cast _)

theorem r0_row1 : Cert.Spec.row (StableHlo.after (hostOps0 (F := Ideal)) Y (Proc.devRef .tc main_v1)) 0
    = v1 (Y (Proc.devRef .tc main_arg7)) :=
  (congrArg (fun a : FVec Ideal S1x128 .f32 => Cert.Spec.row a 0) (r0_v1 Y)).trans (row_cast _)

theorem r11_col17 : Cert.Spec.col0 (StableHlo.after (hostOps1_1 (F := Ideal)) Y (Proc.devRef .tc main_v17))
    = v1 (cutK (F := Ideal) (Y (Proc.devRef .tc main_arg5))) :=
  (congrArg (fun a : FVec Ideal S640000x1 .f32 => Cert.Spec.col0 a) (r11_v17 Y)).trans (col_cast _)

theorem r11_row18 : Cert.Spec.row (StableHlo.after (hostOps1_1 (F := Ideal)) Y (Proc.devRef .tc main_v18)) 0
    = v1 (Y (Proc.devRef .tc main_arg15)) :=
  (congrArg (fun a : FVec Ideal S1x128 .f32 => Cert.Spec.row a 0) (r11_v18 Y)).trans (row_cast _)

theorem r11_at19 : Cert.Spec.at00 (StableHlo.after (hostOps1_1 (F := Ideal)) Y (Proc.devRef .tc main_v19))
    = (Y (Proc.devRef .tc main_arg17) : FVec Ideal S1 .f32) (ix1 0) :=
  (congrArg (fun a : FVec Ideal S1x1 .f32 => Cert.Spec.at00 a) (r11_v19 Y)).trans (at00_cast1 _)

theorem r11_row20 : Cert.Spec.row (StableHlo.after (hostOps1_1 (F := Ideal)) Y (Proc.devRef .tc main_v20)) 0
    = v1 (Y (Proc.devRef .tc main_arg9)) :=
  (congrArg (fun a : FVec Ideal S1x128 .f32 => Cert.Spec.row a 0) (r11_v20 Y)).trans (row_cast _)

theorem r11_row21 : Cert.Spec.row (StableHlo.after (hostOps1_1 (F := Ideal)) Y (Proc.devRef .tc main_v21)) 0
    = v1 (Y (Proc.devRef .tc main_arg11)) :=
  (congrArg (fun a : FVec Ideal S1x128 .f32 => Cert.Spec.row a 0) (r11_v21 Y)).trans (row_cast _)

theorem r11_row22 : Cert.Spec.row (StableHlo.after (hostOps1_1 (F := Ideal)) Y (Proc.devRef .tc main_v22)) 0
    = v1 (Y (Proc.devRef .tc main_arg13)) :=
  (congrArg (fun a : FVec Ideal S1x128 .f32 => Cert.Spec.row a 0) (r11_v22 Y)).trans (row_cast _)

theorem r2_at34 : Cert.Spec.at00 (StableHlo.after (hostOps2 (F := Ideal)) Y (Proc.devRef .tc main_v34))
    = (Y (Proc.devRef .tc main_arg26) : FVec Ideal S_ .f32) ix0 :=
  (congrArg (fun a : FVec Ideal S1x1 .f32 => Cert.Spec.at00 a) (r2_v34 Y)).trans (at00_cast0 _)

theorem r2_row35 : Cert.Spec.row (StableHlo.after (hostOps2 (F := Ideal)) Y (Proc.devRef .tc main_v35)) 0
    = v1 (Y (Proc.devRef .tc main_arg19)) :=
  (congrArg (fun a : FVec Ideal S1x128 .f32 => Cert.Spec.row a 0) (r2_v35 Y)).trans (row_cast _)

theorem r2_row36 : Cert.Spec.row (StableHlo.after (hostOps2 (F := Ideal)) Y (Proc.devRef .tc main_v36)) 0
    = v1 (Y (Proc.devRef .tc main_arg21)) :=
  (congrArg (fun a : FVec Ideal S1x128 .f32 => Cert.Spec.row a 0) (r2_v36 Y)).trans (row_cast _)

theorem r2_row37 : Cert.Spec.row (StableHlo.after (hostOps2 (F := Ideal)) Y (Proc.devRef .tc main_v37)) 0
    = v1 (Y (Proc.devRef .tc main_arg23)) :=
  (congrArg (fun a : FVec Ideal S1x128 .f32 => Cert.Spec.row a 0) (r2_v37 Y)).trans (row_cast _)

theorem r2_row38 : Cert.Spec.row (StableHlo.after (hostOps2 (F := Ideal)) Y (Proc.devRef .tc main_v38)) 0
    = v1 (Y (Proc.devRef .tc main_arg25)) :=
  (congrArg (fun a : FVec Ideal S1x128 .f32 => Cert.Spec.row a 0) (r2_v38 Y)).trans (row_cast _)

end Stretches

/-! ## The argument arrays read back at each boundary: no stretch and no region writes one -/

section Args
variable (m : (ℓ : Loc nD τ sig) → Buf (Elt Ideal) ℓ) (ρ : Dev nD → PrngReg) (c : Dev nD)

theorem W0_eq (b : Ref sig .tc) : W0 (F := Ideal) m ρ c (Proc.devRef .tc b) = m ((c : Thread nD τ).loc b) := rfl

theorem W1_arg0 : W1 (F := Ideal) m ρ c (Proc.devRef .tc main_arg0) = m ((c : Thread nD τ).loc main_arg0) :=
    (keep0 (W0 m ρ c) main_arg0 (by decide)).trans <|
    W0_eq m ρ c main_arg0

theorem W2_arg1 : W2 (F := Ideal) m ρ c (Proc.devRef .tc main_arg1) = m ((c : Thread nD τ).loc main_arg1) :=
    (W2_of_ne m ρ c main_arg1 (by decide)).trans <|
    (keep0 (W0 m ρ c) main_arg1 (by decide)).trans <|
    W0_eq m ρ c main_arg1

theorem W3_arg5 : W3 (F := Ideal) m ρ c (Proc.devRef .tc main_arg5) = m ((c : Thread nD τ).loc main_arg5) :=
    (keep1 (W2 m ρ c) main_arg5 (by decide)).trans <|
    (W2_of_ne m ρ c main_arg5 (by decide)).trans <|
    (keep0 (W0 m ρ c) main_arg5 (by decide)).trans <|
    W0_eq m ρ c main_arg5

theorem W3_arg15 : W3 (F := Ideal) m ρ c (Proc.devRef .tc main_arg15) = m ((c : Thread nD τ).loc main_arg15) :=
    (keep1 (W2 m ρ c) main_arg15 (by decide)).trans <|
    (W2_of_ne m ρ c main_arg15 (by decide)).trans <|
    (keep0 (W0 m ρ c) main_arg15 (by decide)).trans <|
    W0_eq m ρ c main_arg15

theorem W3_arg17 : W3 (F := Ideal) m ρ c (Proc.devRef .tc main_arg17) = m ((c : Thread nD τ).loc main_arg17) :=
    (keep1 (W2 m ρ c) main_arg17 (by decide)).trans <|
    (W2_of_ne m ρ c main_arg17 (by decide)).trans <|
    (keep0 (W0 m ρ c) main_arg17 (by decide)).trans <|
    W0_eq m ρ c main_arg17

theorem W3_arg9 : W3 (F := Ideal) m ρ c (Proc.devRef .tc main_arg9) = m ((c : Thread nD τ).loc main_arg9) :=
    (keep1 (W2 m ρ c) main_arg9 (by decide)).trans <|
    (W2_of_ne m ρ c main_arg9 (by decide)).trans <|
    (keep0 (W0 m ρ c) main_arg9 (by decide)).trans <|
    W0_eq m ρ c main_arg9

theorem W3_arg11 : W3 (F := Ideal) m ρ c (Proc.devRef .tc main_arg11) = m ((c : Thread nD τ).loc main_arg11) :=
    (keep1 (W2 m ρ c) main_arg11 (by decide)).trans <|
    (W2_of_ne m ρ c main_arg11 (by decide)).trans <|
    (keep0 (W0 m ρ c) main_arg11 (by decide)).trans <|
    W0_eq m ρ c main_arg11

theorem W3_arg13 : W3 (F := Ideal) m ρ c (Proc.devRef .tc main_arg13) = m ((c : Thread nD τ).loc main_arg13) :=
    (keep1 (W2 m ρ c) main_arg13 (by decide)).trans <|
    (W2_of_ne m ρ c main_arg13 (by decide)).trans <|
    (keep0 (W0 m ρ c) main_arg13 (by decide)).trans <|
    W0_eq m ρ c main_arg13

theorem W4_arg4 : W4 (F := Ideal) m ρ c (Proc.devRef .tc main_arg4) = m ((c : Thread nD τ).loc main_arg4) :=
    (keep11 (W3 m ρ c) main_arg4 (by decide)).trans <|
    (keep1 (W2 m ρ c) main_arg4 (by decide)).trans <|
    (W2_of_ne m ρ c main_arg4 (by decide)).trans <|
    (keep0 (W0 m ρ c) main_arg4 (by decide)).trans <|
    W0_eq m ρ c main_arg4

theorem W4_arg14 : W4 (F := Ideal) m ρ c (Proc.devRef .tc main_arg14) = m ((c : Thread nD τ).loc main_arg14) :=
    (keep11 (W3 m ρ c) main_arg14 (by decide)).trans <|
    (keep1 (W2 m ρ c) main_arg14 (by decide)).trans <|
    (W2_of_ne m ρ c main_arg14 (by decide)).trans <|
    (keep0 (W0 m ρ c) main_arg14 (by decide)).trans <|
    W0_eq m ρ c main_arg14

theorem W4_arg16 : W4 (F := Ideal) m ρ c (Proc.devRef .tc main_arg16) = m ((c : Thread nD τ).loc main_arg16) :=
    (keep11 (W3 m ρ c) main_arg16 (by decide)).trans <|
    (keep1 (W2 m ρ c) main_arg16 (by decide)).trans <|
    (W2_of_ne m ρ c main_arg16 (by decide)).trans <|
    (keep0 (W0 m ρ c) main_arg16 (by decide)).trans <|
    W0_eq m ρ c main_arg16

theorem W4_arg8 : W4 (F := Ideal) m ρ c (Proc.devRef .tc main_arg8) = m ((c : Thread nD τ).loc main_arg8) :=
    (keep11 (W3 m ρ c) main_arg8 (by decide)).trans <|
    (keep1 (W2 m ρ c) main_arg8 (by decide)).trans <|
    (W2_of_ne m ρ c main_arg8 (by decide)).trans <|
    (keep0 (W0 m ρ c) main_arg8 (by decide)).trans <|
    W0_eq m ρ c main_arg8

theorem W4_arg10 : W4 (F := Ideal) m ρ c (Proc.devRef .tc main_arg10) = m ((c : Thread nD τ).loc main_arg10) :=
    (keep11 (W3 m ρ c) main_arg10 (by decide)).trans <|
    (keep1 (W2 m ρ c) main_arg10 (by decide)).trans <|
    (W2_of_ne m ρ c main_arg10 (by decide)).trans <|
    (keep0 (W0 m ρ c) main_arg10 (by decide)).trans <|
    W0_eq m ρ c main_arg10

theorem W4_arg12 : W4 (F := Ideal) m ρ c (Proc.devRef .tc main_arg12) = m ((c : Thread nD τ).loc main_arg12) :=
    (keep11 (W3 m ρ c) main_arg12 (by decide)).trans <|
    (keep1 (W2 m ρ c) main_arg12 (by decide)).trans <|
    (W2_of_ne m ρ c main_arg12 (by decide)).trans <|
    (keep0 (W0 m ρ c) main_arg12 (by decide)).trans <|
    W0_eq m ρ c main_arg12

theorem W5_arg2 : W5 (F := Ideal) m ρ c (Proc.devRef .tc main_arg2) = m ((c : Thread nD τ).loc main_arg2) :=
    (W5_of_ne m ρ c main_arg2 (by decide)).trans <|
    (keep11 (W3 m ρ c) main_arg2 (by decide)).trans <|
    (keep1 (W2 m ρ c) main_arg2 (by decide)).trans <|
    (W2_of_ne m ρ c main_arg2 (by decide)).trans <|
    (keep0 (W0 m ρ c) main_arg2 (by decide)).trans <|
    W0_eq m ρ c main_arg2

theorem W5_arg26 : W5 (F := Ideal) m ρ c (Proc.devRef .tc main_arg26) = m ((c : Thread nD τ).loc main_arg26) :=
    (W5_of_ne m ρ c main_arg26 (by decide)).trans <|
    (keep11 (W3 m ρ c) main_arg26 (by decide)).trans <|
    (keep1 (W2 m ρ c) main_arg26 (by decide)).trans <|
    (W2_of_ne m ρ c main_arg26 (by decide)).trans <|
    (keep0 (W0 m ρ c) main_arg26 (by decide)).trans <|
    W0_eq m ρ c main_arg26

theorem W5_arg19 : W5 (F := Ideal) m ρ c (Proc.devRef .tc main_arg19) = m ((c : Thread nD τ).loc main_arg19) :=
    (W5_of_ne m ρ c main_arg19 (by decide)).trans <|
    (keep11 (W3 m ρ c) main_arg19 (by decide)).trans <|
    (keep1 (W2 m ρ c) main_arg19 (by decide)).trans <|
    (W2_of_ne m ρ c main_arg19 (by decide)).trans <|
    (keep0 (W0 m ρ c) main_arg19 (by decide)).trans <|
    W0_eq m ρ c main_arg19

theorem W5_arg21 : W5 (F := Ideal) m ρ c (Proc.devRef .tc main_arg21) = m ((c : Thread nD τ).loc main_arg21) :=
    (W5_of_ne m ρ c main_arg21 (by decide)).trans <|
    (keep11 (W3 m ρ c) main_arg21 (by decide)).trans <|
    (keep1 (W2 m ρ c) main_arg21 (by decide)).trans <|
    (W2_of_ne m ρ c main_arg21 (by decide)).trans <|
    (keep0 (W0 m ρ c) main_arg21 (by decide)).trans <|
    W0_eq m ρ c main_arg21

theorem W5_arg23 : W5 (F := Ideal) m ρ c (Proc.devRef .tc main_arg23) = m ((c : Thread nD τ).loc main_arg23) :=
    (W5_of_ne m ρ c main_arg23 (by decide)).trans <|
    (keep11 (W3 m ρ c) main_arg23 (by decide)).trans <|
    (keep1 (W2 m ρ c) main_arg23 (by decide)).trans <|
    (W2_of_ne m ρ c main_arg23 (by decide)).trans <|
    (keep0 (W0 m ρ c) main_arg23 (by decide)).trans <|
    W0_eq m ρ c main_arg23

theorem W5_arg25 : W5 (F := Ideal) m ρ c (Proc.devRef .tc main_arg25) = m ((c : Thread nD τ).loc main_arg25) :=
    (W5_of_ne m ρ c main_arg25 (by decide)).trans <|
    (keep11 (W3 m ρ c) main_arg25 (by decide)).trans <|
    (keep1 (W2 m ρ c) main_arg25 (by decide)).trans <|
    (W2_of_ne m ρ c main_arg25 (by decide)).trans <|
    (keep0 (W0 m ρ c) main_arg25 (by decide)).trans <|
    W0_eq m ρ c main_arg25

theorem W6_arg0 : W6 (F := Ideal) m ρ c (Proc.devRef .tc main_arg0) = m ((c : Thread nD τ).loc main_arg0) :=
    (keep2 (W5 m ρ c) main_arg0 (by decide)).trans <|
    (W5_of_ne m ρ c main_arg0 (by decide)).trans <|
    (keep11 (W3 m ρ c) main_arg0 (by decide)).trans <|
    (keep1 (W2 m ρ c) main_arg0 (by decide)).trans <|
    ((W2_arr m ρ c 0).trans (((dat0 (V1 m ρ) c).arrAt_in 0 rfl _).trans (A_eq0 (V1 m ρ) c 0))).trans <|
    (keep0 (W0 m ρ c) main_arg0 (by decide)).trans <|
    W0_eq m ρ c main_arg0

theorem W6_arg18 : W6 (F := Ideal) m ρ c (Proc.devRef .tc main_arg18) = m ((c : Thread nD τ).loc main_arg18) :=
    (keep2 (W5 m ρ c) main_arg18 (by decide)).trans <|
    (W5_of_ne m ρ c main_arg18 (by decide)).trans <|
    (keep11 (W3 m ρ c) main_arg18 (by decide)).trans <|
    (keep1 (W2 m ρ c) main_arg18 (by decide)).trans <|
    (W2_of_ne m ρ c main_arg18 (by decide)).trans <|
    (keep0 (W0 m ρ c) main_arg18 (by decide)).trans <|
    W0_eq m ρ c main_arg18

theorem W6_arg20 : W6 (F := Ideal) m ρ c (Proc.devRef .tc main_arg20) = m ((c : Thread nD τ).loc main_arg20) :=
    (keep2 (W5 m ρ c) main_arg20 (by decide)).trans <|
    (W5_of_ne m ρ c main_arg20 (by decide)).trans <|
    (keep11 (W3 m ρ c) main_arg20 (by decide)).trans <|
    (keep1 (W2 m ρ c) main_arg20 (by decide)).trans <|
    (W2_of_ne m ρ c main_arg20 (by decide)).trans <|
    (keep0 (W0 m ρ c) main_arg20 (by decide)).trans <|
    W0_eq m ρ c main_arg20

theorem W6_arg22 : W6 (F := Ideal) m ρ c (Proc.devRef .tc main_arg22) = m ((c : Thread nD τ).loc main_arg22) :=
    (keep2 (W5 m ρ c) main_arg22 (by decide)).trans <|
    (W5_of_ne m ρ c main_arg22 (by decide)).trans <|
    (keep11 (W3 m ρ c) main_arg22 (by decide)).trans <|
    (keep1 (W2 m ρ c) main_arg22 (by decide)).trans <|
    (W2_of_ne m ρ c main_arg22 (by decide)).trans <|
    (keep0 (W0 m ρ c) main_arg22 (by decide)).trans <|
    W0_eq m ρ c main_arg22

theorem W6_arg24 : W6 (F := Ideal) m ρ c (Proc.devRef .tc main_arg24) = m ((c : Thread nD τ).loc main_arg24) :=
    (keep2 (W5 m ρ c) main_arg24 (by decide)).trans <|
    (W5_of_ne m ρ c main_arg24 (by decide)).trans <|
    (keep11 (W3 m ρ c) main_arg24 (by decide)).trans <|
    (keep1 (W2 m ρ c) main_arg24 (by decide)).trans <|
    (W2_of_ne m ρ c main_arg24 (by decide)).trans <|
    (keep0 (W0 m ρ c) main_arg24 (by decide)).trans <|
    W0_eq m ρ c main_arg24

end Args

/-! ## The run read back: every buffer a region reads, as a function of the launch memory -/

section Reads
variable (m : (ℓ : Loc nD τ sig) → Buf (Elt Ideal) ℓ) (ρ : Dev nD → PrngReg) (c : Dev nD)

/-- The three regions' whole-array forms, as propositions. -/
abbrev H3 : Prop := ∀ (V : VTy) (c : Dev nD),
      (dat0 (F := Ideal) V c).arrAt 3 cfg0.N
        = Cert.Spec.lnArr (V c main_arg0) (Cert.Spec.row (V c main_v0) 0) (Cert.Spec.row (V c main_v1) 0)
abbrev H13 : Prop := ∀ (V : VTy) (c : Dev nD),
      (dat1 (F := Ideal) V c).arrAt 13 cfg1.N
        = Cert.Spec.msgArr (V c main_arg4) (Cert.Spec.col0 (V c main_v17)) (V c main_v3)
            (V c main_arg14) (Cert.Spec.row (V c main_v18) 0) (Cert.Spec.col0 (V c main_arg16)) (Cert.Spec.at00 (V c main_v19))
            (V c main_arg8) (Cert.Spec.row (V c main_v20) 0) (V c main_arg10) (Cert.Spec.row (V c main_v21) 0)
            (V c main_arg12) (Cert.Spec.row (V c main_v22) 0)
abbrev H14 : Prop := ∀ (V : VTy) (c : Dev nD),
      (dat1 (F := Ideal) V c).arrAt 14 cfg1.N
        = Cert.Spec.ewArr (V c main_arg4) (Cert.Spec.col0 (V c main_v17))
            (V c main_arg14) (Cert.Spec.row (V c main_v18) 0) (Cert.Spec.col0 (V c main_arg16)) (Cert.Spec.at00 (V c main_v19))
abbrev H12 : Prop := ∀ (V : VTy) (c : Dev nD),
      (dat2 (F := Ideal) V c).arrAt 12 cfg2.N
        = Cert.Spec.nodeArr (V c main_arg0) (V c main_v2) (V c main_v33)
            (V c main_arg18) (Cert.Spec.row (V c main_v35) 0) (V c main_arg20) (Cert.Spec.row (V c main_v36) 0)
            (V c main_arg22) (Cert.Spec.row (V c main_v37) 0) (V c main_arg24) (Cert.Spec.row (V c main_v38) 0)
            (Cert.Spec.at00 (V c main_v34))

/-- The normalised node features. -/
abbrev XN : FVec Ideal S20000x128 .f32 := Cert.Spec.lnArr (m ((c : Thread nD τ).loc main_arg0)) (v1 (m ((c : Thread nD τ).loc main_arg6))) (v1 (m ((c : Thread nD τ).loc main_arg7)))
/-- The cutoff of every edge length. -/
abbrev CUT : Fin 640000 → EReal := v1 (cutK (F := Ideal) (m ((c : Thread nD τ).loc main_arg5)))
/-- The edge weights. -/
abbrev EW : FVec Ideal S640000x1 .f32 :=
  Cert.Spec.ewArr (m ((c : Thread nD τ).loc main_arg4)) (CUT m c) (m ((c : Thread nD τ).loc main_arg14)) (v1 (m ((c : Thread nD τ).loc main_arg15))) (Cert.Spec.col0 (m ((c : Thread nD τ).loc main_arg16))) ((m ((c : Thread nD τ).loc main_arg17)) (ix1 0))
/-- The messages. -/
abbrev MSG : FVec Ideal S640000x128 .f32 :=
  Cert.Spec.msgArr (m ((c : Thread nD τ).loc main_arg4)) (CUT m c) (takeK (F := Ideal) (XN m c) (m ((c : Thread nD τ).loc main_arg1)))
    (m ((c : Thread nD τ).loc main_arg14)) (v1 (m ((c : Thread nD τ).loc main_arg15))) (Cert.Spec.col0 (m ((c : Thread nD τ).loc main_arg16))) ((m ((c : Thread nD τ).loc main_arg17)) (ix1 0)) (m ((c : Thread nD τ).loc main_arg8)) (v1 (m ((c : Thread nD τ).loc main_arg9))) (m ((c : Thread nD τ).loc main_arg10)) (v1 (m ((c : Thread nD τ).loc main_arg11))) (m ((c : Thread nD τ).loc main_arg12)) (v1 (m ((c : Thread nD τ).loc main_arg13)))

/-! ### Region 0: the layer norm -/

theorem W2_v2 (hf3 : H3) : W2 (F := Ideal) m ρ c (Proc.devRef .tc main_v2) = XN m c :=
  (W2_arr m ρ c 3).trans <| (hf3 (V1 m ρ) c).trans <|
    lnArr_congr (W1_arg0 m ρ c) (r0_row0 (W0 m ρ c)) (r0_row1 (W0 m ρ c))

/-! ### Region 1's inputs: the gathered rows, the cutoff column, the reshaped biases -/

theorem W4_v3 (hf3 : H3) : W4 (F := Ideal) m ρ c (Proc.devRef .tc main_v3) = takeK (F := Ideal) (XN m c) (m ((c : Thread nD τ).loc main_arg1)) :=
  (keep11 (W3 m ρ c) main_v3 (by decide)).trans <| (r1_v3 (W2 m ρ c)).trans <|
    takeK_congr (W2_v2 m ρ c hf3) (W2_arg1 m ρ c)

theorem W4_col17 : Cert.Spec.col0 (W4 (F := Ideal) m ρ c (Proc.devRef .tc main_v17)) = CUT m c :=
  (r11_col17 (W3 m ρ c)).trans (congrArg (fun a : FVec Ideal S640000 .f32 => v1 (cutK (F := Ideal) a)) (W3_arg5 m ρ c))

theorem W4_row18 : Cert.Spec.row (W4 (F := Ideal) m ρ c (Proc.devRef .tc main_v18)) 0 = v1 (m ((c : Thread nD τ).loc main_arg15)) :=
  (r11_row18 (W3 m ρ c)).trans (congrArg (fun a : FVec Ideal S128 .f32 => v1 a) (W3_arg15 m ρ c))

theorem W4_at19 : Cert.Spec.at00 (W4 (F := Ideal) m ρ c (Proc.devRef .tc main_v19)) = (m ((c : Thread nD τ).loc main_arg17)) (ix1 0) :=
  (r11_at19 (W3 m ρ c)).trans (congrArg (fun a : FVec Ideal S1 .f32 => a (ix1 0)) (W3_arg17 m ρ c))

theorem W4_row20 : Cert.Spec.row (W4 (F := Ideal) m ρ c (Proc.devRef .tc main_v20)) 0 = v1 (m ((c : Thread nD τ).loc main_arg9)) :=
  (r11_row20 (W3 m ρ c)).trans (congrArg (fun a : FVec Ideal S128 .f32 => v1 a) (W3_arg9 m ρ c))

theorem W4_row21 : Cert.Spec.row (W4 (F := Ideal) m ρ c (Proc.devRef .tc main_v21)) 0 = v1 (m ((c : Thread nD τ).loc main_arg11)) :=
  (r11_row21 (W3 m ρ c)).trans (congrArg (fun a : FVec Ideal S128 .f32 => v1 a) (W3_arg11 m ρ c))

theorem W4_row22 : Cert.Spec.row (W4 (F := Ideal) m ρ c (Proc.devRef .tc main_v22)) 0 = v1 (m ((c : Thread nD τ).loc main_arg13)) :=
  (r11_row22 (W3 m ρ c)).trans (congrArg (fun a : FVec Ideal S128 .f32 => v1 a) (W3_arg13 m ρ c))

/-! ### Region 1: the edge weights and the messages -/

theorem W5_v23_1 (hf14 : H14) : W5 (F := Ideal) m ρ c (Proc.devRef .tc main_v23_1) = EW m c :=
  (W5_arr m ρ c 14).trans <| (hf14 (V4 m ρ) c).trans <|
    ewArr_congr (W4_arg4 m ρ c) (W4_col17 m ρ c) (W4_arg14 m ρ c) (W4_row18 m ρ c)
      (congrArg (fun a : FVec Ideal S128x1 .f32 => Cert.Spec.col0 a) (W4_arg16 m ρ c)) (W4_at19 m ρ c)

theorem W5_v23_0 (hf3 : H3) (hf13 : H13) : W5 (F := Ideal) m ρ c (Proc.devRef .tc main_v23_0) = MSG m c :=
  (W5_arr m ρ c 13).trans <| (hf13 (V4 m ρ) c).trans <|
    msgArr_congr (W4_arg4 m ρ c) (W4_col17 m ρ c) (W4_v3 m ρ c hf3) (W4_arg14 m ρ c) (W4_row18 m ρ c)
      (congrArg (fun a : FVec Ideal S128x1 .f32 => Cert.Spec.col0 a) (W4_arg16 m ρ c)) (W4_at19 m ρ c)
      (W4_arg8 m ρ c) (W4_row20 m ρ c) (W4_arg10 m ρ c) (W4_row21 m ρ c) (W4_arg12 m ρ c) (W4_row22 m ρ c)

/-! ### Region 2's inputs: the aggregate, the normalised features again, the reshaped biases and scale -/

theorem W6_v33 (hf3 : H3) (hf13 : H13) (hf14 : H14) :
    W6 (F := Ideal) m ρ c (Proc.devRef .tc main_v33) = aggK (F := Ideal) (MSG m c) (EW m c) (m ((c : Thread nD τ).loc main_arg2)) :=
  (r2_v33 (W5 m ρ c)).trans <|
    aggK_congr (W5_v23_0 m ρ c hf3 hf13) (W5_v23_1 m ρ c hf14) (W5_arg2 m ρ c)

theorem W6_v2 (hf3 : H3) : W6 (F := Ideal) m ρ c (Proc.devRef .tc main_v2) = XN m c :=
  (keep2 (W5 m ρ c) main_v2 (by decide)).trans <| (W5_of_ne m ρ c main_v2 (by decide)).trans <|
    (keep11 (W3 m ρ c) main_v2 (by decide)).trans <| (keep1 (W2 m ρ c) main_v2 (by decide)).trans <|
    W2_v2 m ρ c hf3

theorem W6_at34 : Cert.Spec.at00 (W6 (F := Ideal) m ρ c (Proc.devRef .tc main_v34)) = (m ((c : Thread nD τ).loc main_arg26)) ix0 :=
  (r2_at34 (W5 m ρ c)).trans (congrArg (fun a : FVec Ideal S_ .f32 => a ix0) (W5_arg26 m ρ c))

theorem W6_row35 : Cert.Spec.row (W6 (F := Ideal) m ρ c (Proc.devRef .tc main_v35)) 0 = v1 (m ((c : Thread nD τ).loc main_arg19)) :=
  (r2_row35 (W5 m ρ c)).trans (congrArg (fun a : FVec Ideal S128 .f32 => v1 a) (W5_arg19 m ρ c))

theorem W6_row36 : Cert.Spec.row (W6 (F := Ideal) m ρ c (Proc.devRef .tc main_v36)) 0 = v1 (m ((c : Thread nD τ).loc main_arg21)) :=
  (r2_row36 (W5 m ρ c)).trans (congrArg (fun a : FVec Ideal S128 .f32 => v1 a) (W5_arg21 m ρ c))

theorem W6_row37 : Cert.Spec.row (W6 (F := Ideal) m ρ c (Proc.devRef .tc main_v37)) 0 = v1 (m ((c : Thread nD τ).loc main_arg23)) :=
  (r2_row37 (W5 m ρ c)).trans (congrArg (fun a : FVec Ideal S128 .f32 => v1 a) (W5_arg23 m ρ c))

theorem W6_row38 : Cert.Spec.row (W6 (F := Ideal) m ρ c (Proc.devRef .tc main_v38)) 0 = v1 (m ((c : Thread nD τ).loc main_arg25)) :=
  (r2_row38 (W5 m ρ c)).trans (congrArg (fun a : FVec Ideal S128 .f32 => v1 a) (W5_arg25 m ρ c))

/-! ### Region 2: the node update -/

theorem W7_v39 (hf3 : H3) (hf13 : H13) (hf14 : H14) (hf12 : H12) :
    W7 (F := Ideal) m ρ c (Proc.devRef .tc main_v39)
      = Cert.Spec.nodeArr (m ((c : Thread nD τ).loc main_arg0)) (XN m c) (aggK (F := Ideal) (MSG m c) (EW m c) (m ((c : Thread nD τ).loc main_arg2)))
          (m ((c : Thread nD τ).loc main_arg18)) (v1 (m ((c : Thread nD τ).loc main_arg19))) (m ((c : Thread nD τ).loc main_arg20)) (v1 (m ((c : Thread nD τ).loc main_arg21))) (m ((c : Thread nD τ).loc main_arg22)) (v1 (m ((c : Thread nD τ).loc main_arg23))) (m ((c : Thread nD τ).loc main_arg24)) (v1 (m ((c : Thread nD τ).loc main_arg25))) ((m ((c : Thread nD τ).loc main_arg26)) ix0) :=
  (W7_arr m ρ c 12).trans <| (hf12 (V6 m ρ) c).trans <|
    nodeArr_congr (W6_arg0 m ρ c) (W6_v2 m ρ c hf3) (W6_v33 m ρ c hf3 hf13 hf14)
      (W6_arg18 m ρ c) (W6_row35 m ρ c) (W6_arg20 m ρ c) (W6_row36 m ρ c) (W6_arg22 m ρ c) (W6_row37 m ρ c)
      (W6_arg24 m ρ c) (W6_row38 m ρ c) (W6_at34 m ρ c)

end Reads

/-- The result buffer at the last boundary of the run is `KVal` of the launch memory's argument arrays: the
    three regions' arrays by their whole-array forms (the hypotheses), each host stretch by the pure
    functions of its operations, every buffer no operation or region writes read back unchanged. -/
theorem kernel_value
    (hf3 : ∀ (V : VTy) (c : Dev nD),
      (dat0 (F := Ideal) V c).arrAt 3 cfg0.N
        = Cert.Spec.lnArr (V c main_arg0) (Cert.Spec.row (V c main_v0) 0) (Cert.Spec.row (V c main_v1) 0))
    (hf13 : ∀ (V : VTy) (c : Dev nD),
      (dat1 (F := Ideal) V c).arrAt 13 cfg1.N
        = Cert.Spec.msgArr (V c main_arg4) (Cert.Spec.col0 (V c main_v17)) (V c main_v3)
            (V c main_arg14) (Cert.Spec.row (V c main_v18) 0) (Cert.Spec.col0 (V c main_arg16)) (Cert.Spec.at00 (V c main_v19))
            (V c main_arg8) (Cert.Spec.row (V c main_v20) 0) (V c main_arg10) (Cert.Spec.row (V c main_v21) 0)
            (V c main_arg12) (Cert.Spec.row (V c main_v22) 0))
    (hf14 : ∀ (V : VTy) (c : Dev nD),
      (dat1 (F := Ideal) V c).arrAt 14 cfg1.N
        = Cert.Spec.ewArr (V c main_arg4) (Cert.Spec.col0 (V c main_v17))
            (V c main_arg14) (Cert.Spec.row (V c main_v18) 0) (Cert.Spec.col0 (V c main_arg16)) (Cert.Spec.at00 (V c main_v19)))
    (hf12 : ∀ (V : VTy) (c : Dev nD),
      (dat2 (F := Ideal) V c).arrAt 12 cfg2.N
        = Cert.Spec.nodeArr (V c main_arg0) (V c main_v2) (V c main_v33)
            (V c main_arg18) (Cert.Spec.row (V c main_v35) 0) (V c main_arg20) (Cert.Spec.row (V c main_v36) 0)
            (V c main_arg22) (Cert.Spec.row (V c main_v37) 0) (V c main_arg24) (Cert.Spec.row (V c main_v38) 0)
            (Cert.Spec.at00 (V c main_v34)))
    (m : (ℓ : Loc nD τ sig) → Buf (Elt Ideal) ℓ) (ρ : Dev nD → PrngReg) (c : Dev nD) :
    W7 (F := Ideal) m ρ c (Proc.devRef .tc main_v39)
      = KVal (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  exact (W7_v39 m ρ c hf3 hf13 hf14 hf12).trans rfl

end Cert.KernelIdeal.HostRead

end
-- ==== Proof.RStages.lean ====
/-
  The reference program's dataflow as pure functions of whole arrays, one function per stage, each
  the composition of the program's elementwise, broadcast, contraction, gather and scatter-add
  operations in the order the program applies them, with the program's own shape relations and
  constant words. Nothing is simplified: where the program computes a quantity twice (the row mean,
  once for the centring and once inside the variance), so does the stage.

  Stages: the layer norm of the node features (`xnR`, its variance `varR`), the cosine cutoff of the
  edge lengths (`cutR`), the edge weight (`ewR`), the radial factor (`wradR`), the wrapped source
  indices as a column (`idxR`), the message (`msgR`), the normalised aggregate (`aggR`), the node
  update (`outR`), and their composition `resR` over the 27 argument arrays. `siluE` and `siluN` are
  `z ↦ z · (1 / (1 + exp (-z)))` over the edge-shaped and node-shaped arrays.
-/
import proofs.«408722_j80805514707436_1_alg».proof.ReferenceIdeal

noncomputable section

namespace Cert.ReferenceIdeal.Stages

open Idealize.ShloMosaic Cert.ReferenceIdeal Cert.ReferenceIdeal.Facts₀ Cert.ReferenceIdeal.Facts

variable {F : FTy → Type} [FloatOps F] [Facts]

/-- `z · (1 / (1 + exp (-z)))`, elementwise over an edge-shaped array. -/
def siluE (z : FVec F S640000x128 .f32) : FVec F S640000x128 .f32 :=
  let v0 : FVec F S640000x128 .f32 := Host.negf z
  let v1 : FVec F S640000x128 .f32 := Host.exp v0
  let cst : FVec F S_ .f32 := constant S_ .f32 0x3F800000#32
  let v2 : FVec F S640000x128 .f32 := broadcastInDim S640000x128 ![] bcast_S_S640000x128 cst
  let v3 : FVec F S640000x128 .f32 := addf v2 v1
  let cst_0 : FVec F S_ .f32 := constant S_ .f32 0x3F800000#32
  let v4 : FVec F S640000x128 .f32 := broadcastInDim S640000x128 ![] bcast_S_S640000x128 cst_0
  let v5 : FVec F S640000x128 .f32 := Host.divf v4 v3
  mulf z v5

/-- `z · (1 / (1 + exp (-z)))`, elementwise over a node-shaped array. -/
def siluN (z : FVec F S20000x128 .f32) : FVec F S20000x128 .f32 :=
  let v0 : FVec F S20000x128 .f32 := Host.negf z
  let v1 : FVec F S20000x128 .f32 := Host.exp v0
  let cst : FVec F S_ .f32 := constant S_ .f32 0x3F800000#32
  let v2 : FVec F S20000x128 .f32 := broadcastInDim S20000x128 ![] bcast_S_S20000x128 cst
  let v3 : FVec F S20000x128 .f32 := addf v2 v1
  let cst_0 : FVec F S_ .f32 := constant S_ .f32 0x3F800000#32
  let v4 : FVec F S20000x128 .f32 := broadcastInDim S20000x128 ![] bcast_S_S20000x128 cst_0
  let v5 : FVec F S20000x128 .f32 := Host.divf v4 v3
  mulf z v5

/-- The variance of each row with `c` degrees of freedom removed: the row sum of the squared
    deviations from the row mean divided by `128 - c`, where that divisor is positive, the quiet-NaN
    word elsewhere; as a column. -/
def varR (x : FVec F S20000x128 .f32) (c : IVec S_ 32) : FVec F S20000x1 .f32 :=
  let cst : FVec F S_ .f32 := constant S_ .f32 0x00000000#32
  let v0 : FVec F S20000 .f32 := Host.reduceAdd x cst reducesTo_S20000x128_S20000_d1 h_S_
  let v1 : FVec F S20000x1 .f32 := broadcastInDim S20000x1 ![0] bcast_S20000_S20000x1_0 v0
  let cst_0 : FVec F S_ .f32 := constant S_ .f32 0x43000000#32
  let v2 : FVec F S20000x1 .f32 := broadcastInDim S20000x1 ![] bcast_S_S20000x1 cst_0
  let v3 : FVec F S20000x1 .f32 := Host.divf v1 v2
  let v4 : FVec F S20000x128 .f32 := broadcastInDim S20000x128 ![0, 1] bcast_S20000x1_S20000x128_0_1 v3
  let v5 : FVec F S20000x128 .f32 := subf x v4
  let v6 : FVec F S20000x128 .f32 := mulf v5 v5
  let v7 : FVec F S_ .f32 := sitofp .f32 c
  let cst_1 : FVec F S_ .f32 := constant S_ .f32 0x43000000#32
  let v8 : FVec F S_ .f32 := subf cst_1 v7
  let cst_2 : FVec F S_ .f32 := constant S_ .f32 0x00000000#32
  let v9 : FVec F S20000 .f32 := Host.reduceAdd v6 cst_2 reducesTo_S20000x128_S20000_d1 h_S_
  let v10 : FVec F S20000x1 .f32 := broadcastInDim S20000x1 ![0] bcast_S20000_S20000x1_0 v9
  let v11 : FVec F S20000x1 .f32 := broadcastInDim S20000x1 ![] bcast_S_S20000x1 v8
  let v12 : FVec F S20000x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let w0 : FVec F S_ .f32 := id cst_4
  let w1 : FVec F S20000x1 .f32 := broadcastInDim S20000x1 ![] bcast_S_S20000x1 w0
  select (broadcastInDim S20000x1 ![] bcast_S_S20000x1 v13) v12 w1

/-- The layer norm of the node features: `(x - mean) · rsqrt (var + ε) · g + b`, row by row. -/
def xnR (x : FVec F S20000x128 .f32) (g b : FVec F S128 .f32) : FVec F S20000x128 .f32 :=
  let cst : FVec F S_ .f32 := constant S_ .f32 0x00000000#32
  let v0 : FVec F S20000 .f32 := Host.reduceAdd x cst reducesTo_S20000x128_S20000_d1 h_S_
  let v1 : FVec F S20000x1 .f32 := broadcastInDim S20000x1 ![0] bcast_S20000_S20000x1_0 v0
  let cst_0 : FVec F S_ .f32 := constant S_ .f32 0x43000000#32
  let v2 : FVec F S20000x1 .f32 := broadcastInDim S20000x1 ![] bcast_S_S20000x1 cst_0
  let v3 : FVec F S20000x1 .f32 := Host.divf v1 v2
  let c : IVec S_ 32 := constantI S_ 32 0#32
  let v4 : FVec F S20000x1 .f32 := varR x c
  let v5 : FVec F S20000x128 .f32 := broadcastInDim S20000x128 ![0, 1] bcast_S20000x1_S20000x128_0_1 v3
  let v6 : FVec F S20000x128 .f32 := subf x v5
  let cst_1 : FVec F S_ .f32 := constant S_ .f32 0x3727C5AC#32
  let v7 : FVec F S20000x1 .f32 := broadcastInDim S20000x1 ![] bcast_S_S20000x1 cst_1
  let v8 : FVec F S20000x1 .f32 := addf v4 v7
  let v9 : FVec F S20000x1 .f32 := Host.rsqrt v8
  let v10 : FVec F S20000x128 .f32 := broadcastInDim S20000x128 ![0, 1] bcast_S20000x1_S20000x128_0_1 v9
  let v11 : FVec F S20000x128 .f32 := mulf v6 v10
  let v12 : FVec F S1x128 .f32 := broadcastInDim S1x128 ![1] bcast_S128_S1x128_1 g
  let v13 : FVec F S20000x128 .f32 := broadcastInDim S20000x128 ![0, 1] bcast_S1x128_S20000x128_0_1 v12
  let v14 : FVec F S20000x128 .f32 := mulf v11 v13
  let v15 : FVec F S1x128 .f32 := broadcastInDim S1x128 ![1] bcast_S128_S1x128_1 b
  let v16 : FVec F S20000x128 .f32 := broadcastInDim S20000x128 ![0, 1] bcast_S1x128_S20000x128_0_1 v15
  addf v14 v16

/-- The cosine cutoff of the edge lengths: `0.5 · (cos (π · len / 5) + 1)` times the indicator of `len ≤ 5`. -/
def cutR (len : FVec F S640000 .f32) : FVec F S640000 .f32 :=
  let cst_2 : FVec F S_ .f32 := constant S_ .f32 0x40A00000#32
  let v18 : FVec F S640000 .f32 := broadcastInDim S640000 ![] bcast_S_S640000 cst_2
  let v19 : FVec F S640000 .f32 := Host.divf len v18
  let cst_3 : FVec F S_ .f32 := constant S_ .f32 0x40490FDB#32
  let v20 : FVec F S640000 .f32 := broadcastInDim S640000 ![] bcast_S_S640000 cst_3
  let v21 : FVec F S640000 .f32 := mulf v20 v19
  let v22 : FVec F S640000 .f32 := Host.cos v21
  let cst_4 : FVec F S_ .f32 := constant S_ .f32 0x3F800000#32
  let v23 : FVec F S640000 .f32 := broadcastInDim S640000 ![] bcast_S_S640000 cst_4
  let v24 : FVec F S640000 .f32 := addf v22 v23
  let cst_5 : FVec F S_ .f32 := constant S_ .f32 0x3F000000#32
  let v25 : FVec F S640000 .f32 := broadcastInDim S640000 ![] bcast_S_S640000 cst_5
  let v26 : FVec F S640000 .f32 := mulf v25 v24
  let cst_6 : FVec F S_ .f32 := constant S_ .f32 0x40A00000#32
  let v27 : FVec F S640000 .f32 := broadcastInDim S640000 ![] bcast_S_S640000 cst_6
  let v28 : IVec S640000 1 := cmpf .ole len v27
  let v29 : FVec F S640000 .f32 := uitofp .f32 v28
  mulf v26 v29

/-- The edge weight: the cutoff times `1 / (1 + exp (-(silu (rbf · W₁ + b₁) · w₂ + b₂)))`, as a column. -/
def ewR (rbf : FVec F S640000x32 .f32) (cut : FVec F S640000 .f32) (w1 : FVec F S32x128 .f32) (b1 : FVec F S128 .f32)
    (w2 : FVec F S128x1 .f32) (b2 : FVec F S1 .f32) : FVec F S640000x1 .f32 :=
  let v31 : FVec F S640000x128 .f32 := Host.dotGeneral dot_S640000x32_S32x128_S640000x128_1_0_0_1_n_n none rbf w1
  let v32 : FVec F S1x128 .f32 := broadcastInDim S1x128 ![1] bcast_S128_S1x128_1 b1
  let v33 : FVec F S640000x128 .f32 := broadcastInDim S640000x128 ![0, 1] bcast_S1x128_S640000x128_0_1 v32
  let v34 : FVec F S640000x128 .f32 := addf v31 v33
  let v35 : FVec F S640000x128 .f32 := siluE v34
  let v36 : FVec F S640000x1 .f32 := Host.dotGeneral dot_S640000x128_S128x1_S640000x1_1_0_0_1_n_n none v35 w2
  let v37 : FVec F S1x1 .f32 := broadcastInDim S1x1 ![1] bcast_S1_S1x1_1 b2
  let v38 : FVec F S640000x1 .f32 := broadcastInDim S640000x1 ![0, 1] bcast_S1x1_S640000x1_0_1 v37
  let v39 : FVec F S640000x1 .f32 := addf v36 v38
  let v40 : FVec F S640000x1 .f32 := Host.negf v39
  let v41 : FVec F S640000x1 .f32 := Host.exp v40
  let cst_7 : FVec F S_ .f32 := constant S_ .f32 0x3F800000#32
  let v42 : FVec F S640000x1 .f32 := broadcastInDim S640000x1 ![] bcast_S_S640000x1 cst_7
  let v43 : FVec F S640000x1 .f32 := addf v42 v41
  let cst_8 : FVec F S_ .f32 := constant S_ .f32 0x3F800000#32
  let v44 : FVec F S640000x1 .f32 := broadcastInDim S640000x1 ![] bcast_S_S640000x1 cst_8
  let v45 : FVec F S640000x1 .f32 := Host.divf v44 v43
  let v46 : FVec F S640000x1 .f32 := broadcastInDim S640000x1 ![0] bcast_S640000_S640000x1_0 cut
  mulf v46 v45

/-- The radial factor: three dense layers of the radial basis row, `silu` after the first two. -/
def wradR (rbf : FVec F S640000x32 .f32) (w1 : FVec F S32x128 .f32) (b1 : FVec F S128 .f32) (w2 : FVec F S128x128 .f32)
    (b2 : FVec F S128 .f32) (w3 : FVec F S128x128 .f32) (b3 : FVec F S128 .f32) : FVec F S640000x128 .f32 :=
  let v48 : FVec F S640000x128 .f32 := Host.dotGeneral dot_S640000x32_S32x128_S640000x128_1_0_0_1_n_n none rbf w1
  let v49 : FVec F S1x128 .f32 := broadcastInDim S1x128 ![1] bcast_S128_S1x128_1 b1
  let v50 : FVec F S640000x128 .f32 := broadcastInDim S640000x128 ![0, 1] bcast_S1x128_S640000x128_0_1 v49
  let v51 : FVec F S640000x128 .f32 := addf v48 v50
  let v52 : FVec F S640000x128 .f32 := siluE v51
  let v53 : FVec F S640000x128 .f32 := Host.dotGeneral dot_S640000x128_S128x128_S640000x128_1_0_0_1_n_n none v52 w2
  let v54 : FVec F S1x128 .f32 := broadcastInDim S1x128 ![1] bcast_S128_S1x128_1 b2
  let v55 : FVec F S640000x128 .f32 := broadcastInDim S640000x128 ![0, 1] bcast_S1x128_S640000x128_0_1 v54
  let v56 : FVec F S640000x128 .f32 := addf v53 v55
  let v57 : FVec F S640000x128 .f32 := siluE v56
  let v58 : FVec F S640000x128 .f32 := Host.dotGeneral dot_S640000x128_S128x128_S640000x128_1_0_0_1_n_n none v57 w3
  let v59 : FVec F S1x128 .f32 := broadcastInDim S1x128 ![1] bcast_S128_S1x128_1 b3
  let v60 : FVec F S640000x128 .f32 := broadcastInDim S640000x128 ![0, 1] bcast_S1x128_S640000x128_0_1 v59
  addf v58 v60

/-- The source indices with the negative ones moved up by 20000, as a column. -/
def idxR (src : IVec S640000 32) : IVec S640000x1 32 :=
  let c_9 : IVec S_ 32 := constantI S_ 32 0#32
  let v62 : IVec S640000 32 := broadcastInDim S640000 ![] bcast_S_S640000 c_9
  let v63 : IVec S640000 1 := cmpi .slt src v62
  let c_10 : IVec S_ 32 := constantI S_ 32 20000#32
  let v64 : IVec S640000 32 := broadcastInDim S640000 ![] bcast_S_S640000 c_10
  let v65 : IVec S640000 32 := addi src v64
  let v66 : IVec S640000 32 := select v63 v65 src
  broadcastInDim S640000x1 ![0] bcast_S640000_S640000x1_0 v66

/-- The message of each edge: gathered source row × radial factor × edge weight. -/
def msgR (xg wrad : FVec F S640000x128 .f32) (ew : FVec F S640000x1 .f32) : FVec F S640000x128 .f32 :=
  let v69 : FVec F S640000x128 .f32 := mulf xg wrad
  let v70 : FVec F S640000x128 .f32 := broadcastInDim S640000x128 ![0, 1] bcast_S640000x1_S640000x128_0_1 ew
  mulf v69 v70

/-- The normalised aggregate: the messages summed into their destination rows, divided by the larger of
    the summed edge weights and the word of 1e-8. -/
def aggR (msg : FVec F S640000x128 .f32) (ew : FVec F S640000x1 .f32) (dst : IVec S640000 32) : FVec F S20000x128 .f32 :=
  let cst_11 : FVec F S_ .f32 := constant S_ .f32 0x00000000#32
  let v72 : FVec F S20000x128 .f32 := broadcastInDim S20000x128 ![] bcast_S_S20000x128 cst_11
  let v73 : IVec S640000x1 32 := broadcastInDim S640000x1 ![0] bcast_S640000_S640000x1_0 dst
  let v74 : FVec F S20000x128 .f32 := Host.scatterAdd scatter_S20000x128_S640000x1_S640000x128_1_0_0_1 v72 v73 msg
  let cst_12 : FVec F S_ .f32 := constant S_ .f32 0x00000000#32
  let v75 : FVec F S20000x1 .f32 := broadcastInDim S20000x1 ![] bcast_S_S20000x1 cst_12
  let v76 : IVec S640000x1 32 := broadcastInDim S640000x1 ![0] bcast_S640000_S640000x1_0 dst
  let v77 : FVec F S20000x1 .f32 := Host.scatterAdd scatter_S20000x1_S640000x1_S640000x1_1_0_0_1 v75 v76 ew
  let cst_13 : FVec F S_ .f32 := constant S_ .f32 0x322BCC77#32
  let v78 : FVec F S20000x1 .f32 := broadcastInDim S20000x1 ![] bcast_S_S20000x1 cst_13
  let v79 : FVec F S20000x1 .f32 := maximumf v77 v78
  let v80 : FVec F S20000x128 .f32 := broadcastInDim S20000x128 ![0, 1] bcast_S20000x1_S20000x128_0_1 v79
  Host.divf v74 v80

/-- The node update: `x + s · ((xn · Wsl + bsl) + ((silu (agg · W₁ + b₁) · W₂ + b₂) · Wul + bul))`. -/
def outR (x xn agg : FVec F S20000x128 .f32) (mw1 : FVec F S128x128 .f32) (mb1 : FVec F S128 .f32) (mw2 : FVec F S128x128 .f32)
    (mb2 : FVec F S128 .f32) (slw : FVec F S128x128 .f32) (slb : FVec F S128 .f32) (ulw : FVec F S128x128 .f32)
    (ulb : FVec F S128 .f32) (rs : FVec F S_ .f32) : FVec F S20000x128 .f32 :=
  let v82 : FVec F S20000x128 .f32 := Host.dotGeneral dot_S20000x128_S128x128_S20000x128_1_0_0_1_n_n none agg mw1
  let v83 : FVec F S1x128 .f32 := broadcastInDim S1x128 ![1] bcast_S128_S1x128_1 mb1
  let v84 : FVec F S20000x128 .f32 := broadcastInDim S20000x128 ![0, 1] bcast_S1x128_S20000x128_0_1 v83
  let v85 : FVec F S20000x128 .f32 := addf v82 v84
  let v86 : FVec F S20000x128 .f32 := siluN v85
  let v87 : FVec F S20000x128 .f32 := Host.dotGeneral dot_S20000x128_S128x128_S20000x128_1_0_0_1_n_n none v86 mw2
  let v88 : FVec F S1x128 .f32 := broadcastInDim S1x128 ![1] bcast_S128_S1x128_1 mb2
  let v89 : FVec F S20000x128 .f32 := broadcastInDim S20000x128 ![0, 1] bcast_S1x128_S20000x128_0_1 v88
  let v90 : FVec F S20000x128 .f32 := addf v87 v89
  let v91 : FVec F S20000x128 .f32 := Host.dotGeneral dot_S20000x128_S128x128_S20000x128_1_0_0_1_n_n none xn slw
  let v92 : FVec F S1x128 .f32 := broadcastInDim S1x128 ![1] bcast_S128_S1x128_1 slb
  let v93 : FVec F S20000x128 .f32 := broadcastInDim S20000x128 ![0, 1] bcast_S1x128_S20000x128_0_1 v92
  let v94 : FVec F S20000x128 .f32 := addf v91 v93
  let v95 : FVec F S20000x128 .f32 := Host.dotGeneral dot_S20000x128_S128x128_S20000x128_1_0_0_1_n_n none v90 ulw
  let v96 : FVec F S1x128 .f32 := broadcastInDim S1x128 ![1] bcast_S128_S1x128_1 ulb
  let v97 : FVec F S20000x128 .f32 := broadcastInDim S20000x128 ![0, 1] bcast_S1x128_S20000x128_0_1 v96
  let v98 : FVec F S20000x128 .f32 := addf v95 v97
  let v99 : FVec F S20000x128 .f32 := addf v94 v98
  let v100 : FVec F S20000x128 .f32 := broadcastInDim S20000x128 ![] bcast_S_S20000x128 rs
  let v101 : FVec F S20000x128 .f32 := mulf v100 v99
  addf x v101

/-- The program's result as one function of its 27 argument arrays. -/
def resR (a0 : FVec F S20000x128 .f32) (a1 : IVec S640000 32) (a2 : IVec S640000 32) (a3 : FVec F S640000x16 .f32)
    (a4 : FVec F S640000x32 .f32) (a5 : FVec F S640000 .f32) (a6 : FVec F S128 .f32) (a7 : FVec F S128 .f32)
    (a8 : FVec F S32x128 .f32) (a9 : FVec F S128 .f32) (a10 : FVec F S128x128 .f32) (a11 : FVec F S128 .f32)
    (a12 : FVec F S128x128 .f32) (a13 : FVec F S128 .f32) (a14 : FVec F S32x128 .f32) (a15 : FVec F S128 .f32)
    (a16 : FVec F S128x1 .f32) (a17 : FVec F S1 .f32) (a18 : FVec F S128x128 .f32) (a19 : FVec F S128 .f32)
    (a20 : FVec F S128x128 .f32) (a21 : FVec F S128 .f32) (a22 : FVec F S128x128 .f32) (a23 : FVec F S128 .f32)
    (a24 : FVec F S128x128 .f32) (a25 : FVec F S128 .f32) (a26 : FVec F S_ .f32) : FVec F S20000x128 .f32 :=
  let xn := xnR a0 a6 a7
  let ew := ewR a4 (cutR a5) a14 a15 a16 a17
  outR a0 xn
    (aggR (msgR (Host.gather gather_S20000x128_S640000x1_S640000x128_1_0_n_n_0_1_1128 xn (idxR a1))
        (wradR a4 a8 a9 a10 a11 a12 a13) ew) ew a2)
    a18 a19 a20 a21 a22 a23 a24 a25 a26

end Cert.ReferenceIdeal.Stages

end
-- ==== Proof.RRun.lean ====
/-
  The run of the reference program read back. The program is a straight line of 173 array operations
  (its five calls of module-local functions unfolded at their call sites, each over that call's own
  buffers), cut here into six consecutive stretches, one per stage of the dataflow: the layer norm,
  the cutoff, the edge weight (with the first contraction of the radial factor), the rest of the radial
  factor, the gather / message / normalised scatter-sum, and the node update. For each stretch: the
  buffers it writes, that every other buffer keeps its contents through it, and the stage's result
  buffer as the stage's function of what the stretch reads. Composed, the result buffer after the whole
  line is the stage functions' composition over the argument arrays, and the argument buffers are unchanged.
-/
import proofs.«408722_j80805514707436_1_alg».proof.Proof.RStages
import Idealize.ShloMosaic.Lib.StableHlo.Run

noncomputable section

namespace Cert.ReferenceIdeal.RunHand

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Facts]

/-- The contents after two lines run one after the other: the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The operations of the layer norm of the node features (through the variance function and its select), in order. -/
abbrev opsA : List (HloOp τ sig (Elt F)) :=
  [ StableHlo.nullary main_cst (constant S_ .f32 0x00000000#32),
    StableHlo.binary main_arg0 main_cst main_v0 ((fun x v => Host.reduceAdd x v reducesTo_S20000x128_S20000_d1 h_S_) : (⟨S20000x128, .f32⟩ : BufTy).Contents (Elt F) → (⟨S_, .f32⟩ : BufTy).Contents (Elt F) → (⟨S20000, .f32⟩ : BufTy).Contents (Elt F)),
    StableHlo.unary main_v0 main_v1 (broadcastInDim S20000x1 ![0] bcast_S20000_S20000x1_0 : (⟨S20000, .f32⟩ : BufTy).Contents (Elt F) → (⟨S20000x1, .f32⟩ : BufTy).Contents (Elt F)),
    StableHlo.nullary main_cst_0 (constant S_ .f32 0x43000000#32),
    StableHlo.unary main_cst_0 main_v2 (broadcastInDim S20000x1 ![] bcast_S_S20000x1 : (⟨S_, .f32⟩ : BufTy).Contents (Elt F) → (⟨S20000x1, .f32⟩ : BufTy).Contents (Elt F)),
    StableHlo.binary main_v1 main_v2 main_v3 (Host.divf : (⟨S20000x1, .f32⟩ : BufTy).Contents (Elt F) → (⟨S20000x1, .f32⟩ : BufTy).Contents (Elt F) → (⟨S20000x1, .f32⟩ : BufTy).Contents (Elt F)),
    StableHlo.nullary main_c (constantI S_ 32 0#32),
    StableHlo.TRef.nullary main_call0.cst (constant S_ .f32 0x00000000#32),
    StableHlo.TRef.binary (.of main_arg0 : TRef sig ⟨S20000x128, .f32⟩) main_call0.cst main_call0.v0 (fun x v => Host.reduceAdd x v reducesTo_S20000x128_S20000_d1 h_S_),
    StableHlo.TRef.unary main_call0.v0 main_call0.v1 (broadcastInDim S20000x1 ![0] bcast_S20000_S20000x1_0),
    StableHlo.TRef.nullary main_call0.cst_0 (constant S_ .f32 0x43000000#32),
    StableHlo.TRef.unary main_call0.cst_0 main_call0.v2 (broadcastInDim S20000x1 ![] bcast_S_S20000x1),
    StableHlo.TRef.binary main_call0.v1 main_call0.v2 main_call0.v3 Host.divf,
    StableHlo.TRef.unary main_call0.v3 main_call0.v4 (broadcastInDim S20000x128 ![0, 1] bcast_S20000x1_S20000x128_0_1),
    StableHlo.TRef.binary (.of main_arg0 : TRef sig ⟨S20000x128, .f32⟩) main_call0.v4 main_call0.v5 subf,
    StableHlo.TRef.binary main_call0.v5 main_call0.v5 main_call0.v6 mulf,
    StableHlo.TRef.unary (.of main_c : TRef sig ⟨S_, .i32⟩) main_call0.v7 (sitofp .f32),
    StableHlo.TRef.nullary main_call0.cst_1 (constant S_ .f32 0x43000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S20000x128_S20000_d1 h_S_),
    StableHlo.TRef.unary main_call0.v9 main_call0.v10 (broadcastInDim S20000x1 ![0] bcast_S20000_S20000x1_0),
    StableHlo.TRef.unary main_call0.v8 main_call0.v11 (broadcastInDim S20000x1 ![] bcast_S_S20000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S20000x1 ![] bcast_S_S20000x1),
    StableHlo.TRef.ternary main_call0.v13 main_call0.v12 main_call0.call0.v1 main_call0.call0.v2 (fun p a b => select (broadcastInDim S20000x1 ![] bcast_S_S20000x1 p) a b),
    StableHlo.unary main_v3 main_v5 (broadcastInDim S20000x128 ![0, 1] bcast_S20000x1_S20000x128_0_1 : (⟨S20000x1, .f32⟩ : BufTy).Contents (Elt F) → (⟨S20000x128, .f32⟩ : BufTy).Contents (Elt F)),
    StableHlo.binary main_arg0 main_v5 main_v6 (subf : (⟨S20000x128, .f32⟩ : BufTy).Contents (Elt F) → (⟨S20000x128, .f32⟩ : BufTy).Contents (Elt F) → (⟨S20000x128, .f32⟩ : BufTy).Contents (Elt F)),
    StableHlo.nullary main_cst_1 (constant S_ .f32 0x3727C5AC#32),
    StableHlo.unary main_cst_1 main_v7 (broadcastInDim S20000x1 ![] bcast_S_S20000x1 : (⟨S_, .f32⟩ : BufTy).Contents (Elt F) → (⟨S20000x1, .f32⟩ : BufTy).Contents (Elt F)),
    StableHlo.binary main_v4 main_v7 main_v8 (addf : (⟨S20000x1, .f32⟩ : BufTy).Contents (Elt F) → (⟨S20000x1, .f32⟩ : BufTy).Contents (Elt F) → (⟨S20000x1, .f32⟩ : BufTy).Contents (Elt F)),
    StableHlo.unary main_v8 main_v9 (Host.rsqrt : (⟨S20000x1, .f32⟩ : BufTy).Contents (Elt F) → (⟨S20000x1, .f32⟩ : BufTy).Contents (Elt F)),
    StableHlo.unary main_v9 main_v10 (broadcastInDim S20000x128 ![0, 1] bcast_S20000x1_S20000x128_0_1 : (⟨S20000x1, .f32⟩ : BufTy).Contents (Elt F) → (⟨S20000x128, .f32⟩ : BufTy).Contents (Elt F)),
    StableHlo.binary main_v6 main_v10 main_v11 (mulf : (⟨S20000x128, .f32⟩ : BufTy).Contents (Elt F) → (⟨S20000x128, .f32⟩ : BufTy).Contents (Elt F) → (⟨S20000x128, .f32⟩ : BufTy).Contents (Elt F)),
    StableHlo.unary main_arg6 main_v12 (broadcastInDim S1x128 ![1] bcast_S128_S1x128_1 : (⟨S128, .f32⟩ : BufTy).Contents (Elt F) → (⟨S1x128, .f32⟩ : BufTy).Contents (Elt F)),
    StableHlo.unary main_v12 main_v13 (broadcastInDim S20000x128 ![0, 1] bcast_S1x128_S20000x128_0_1 : (⟨S1x128, .f32⟩ : BufTy).Contents (Elt F) → (⟨S20000x128, .f32⟩ : BufTy).Contents (Elt F)),
    StableHlo.binary main_v11 main_v13 main_v14 (mulf : (⟨S20000x128, .f32⟩ : BufTy).Contents (Elt F) → (⟨S20000x128, .f32⟩ : BufTy).Contents (Elt F) → (⟨S20000x128, .f32⟩ : BufTy).Contents (Elt F)),
    StableHlo.unary main_arg7 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S20000x128 ![0, 1] bcast_S1x128_S20000x128_0_1 : (⟨S1x128, .f32⟩ : BufTy).Contents (Elt F) → (⟨S20000x128, .f32⟩ : BufTy).Contents (Elt F)),
    StableHlo.binary main_v14 main_v16 main_v17 (addf : (⟨S20000x128, .f32⟩ : BufTy).Contents (Elt F) → (⟨S20000x128, .f32⟩ : BufTy).Contents (Elt F) → (⟨S20000x128, .f32⟩ : BufTy).Contents (Elt F)) ]

/-- The buffers those operations write. -/
abbrev LA : List (Ref sig .tc) := [main_cst, main_v0, main_v1, main_cst_0, main_v2, main_v3, main_c, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.v12.ref, main_call0.cst_3.ref, main_call0.v13.ref, main_call0.cst_4.ref, main_call0.call0.v0.ref, main_call0.call0.v1.ref, main_call0.call0.v2.ref, main_v5, main_v6, main_cst_1, main_v7, main_v8, main_v9, main_v10, main_v11, main_v12, main_v13, main_v14, main_v15, main_v16, main_v17]

theorem opsA_sub : (opsA : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem opsA_fresh : ∀ op ∈ (opsA : List (HloOp τ sig (Elt F))), op.fresh = ∅ := by
  intro _ h; (repeat (cases h with | head => rfl | tail _ h => ?_)); exact nomatch h

theorem opsA_writes : (opsA : List (HloOp τ sig (Elt F))).Forall fun op => op.writes ⊆ (LA.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]; exact List.mem_map_of_mem (by decide))

/-- The operations of the cosine cutoff of the edge lengths, in order. -/
abbrev opsB : List (HloOp τ sig (Elt F)) :=
  [ StableHlo.nullary main_cst_2 (constant S_ .f32 0x40A00000#32),
    StableHlo.unary main_cst_2 main_v18 (broadcastInDim S640000 ![] bcast_S_S640000 : (⟨S_, .f32⟩ : BufTy).Contents (Elt F) → (⟨S640000, .f32⟩ : BufTy).Contents (Elt F)),
    StableHlo.binary main_arg5 main_v18 main_v19 (Host.divf : (⟨S640000, .f32⟩ : BufTy).Contents (Elt F) → (⟨S640000, .f32⟩ : BufTy).Contents (Elt F) → (⟨S640000, .f32⟩ : BufTy).Contents (Elt F)),
    StableHlo.nullary main_cst_3 (constant S_ .f32 0x40490FDB#32),
    StableHlo.unary main_cst_3 main_v20 (broadcastInDim S640000 ![] bcast_S_S640000 : (⟨S_, .f32⟩ : BufTy).Contents (Elt F) → (⟨S640000, .f32⟩ : BufTy).Contents (Elt F)),
    StableHlo.binary main_v20 main_v19 main_v21 (mulf : (⟨S640000, .f32⟩ : BufTy).Contents (Elt F) → (⟨S640000, .f32⟩ : BufTy).Contents (Elt F) → (⟨S640000, .f32⟩ : BufTy).Contents (Elt F)),
    StableHlo.unary main_v21 main_v22 (Host.cos : (⟨S640000, .f32⟩ : BufTy).Contents (Elt F) → (⟨S640000, .f32⟩ : BufTy).Contents (Elt F)),
    StableHlo.nullary main_cst_4 (constant S_ .f32 0x3F800000#32),
    StableHlo.unary main_cst_4 main_v23 (broadcastInDim S640000 ![] bcast_S_S640000 : (⟨S_, .f32⟩ : BufTy).Contents (Elt F) → (⟨S640000, .f32⟩ : BufTy).Contents (Elt F)),
    StableHlo.binary main_v22 main_v23 main_v24 (addf : (⟨S640000, .f32⟩ : BufTy).Contents (Elt F) → (⟨S640000, .f32⟩ : BufTy).Contents (Elt F) → (⟨S640000, .f32⟩ : BufTy).Contents (Elt F)),
    StableHlo.nullary main_cst_5 (constant S_ .f32 0x3F000000#32),
    StableHlo.unary main_cst_5 main_v25 (broadcastInDim S640000 ![] bcast_S_S640000 : (⟨S_, .f32⟩ : BufTy).Contents (Elt F) → (⟨S640000, .f32⟩ : BufTy).Contents (Elt F)),
    StableHlo.binary main_v25 main_v24 main_v26 (mulf : (⟨S640000, .f32⟩ : BufTy).Contents (Elt F) → (⟨S640000, .f32⟩ : BufTy).Contents (Elt F) → (⟨S640000, .f32⟩ : BufTy).Contents (Elt F)),
    StableHlo.nullary main_cst_6 (constant S_ .f32 0x40A00000#32),
    StableHlo.unary main_cst_6 main_v27 (broadcastInDim S640000 ![] bcast_S_S640000 : (⟨S_, .f32⟩ : BufTy).Contents (Elt F) → (⟨S640000, .f32⟩ : BufTy).Contents (Elt F)),
    StableHlo.binary main_arg5 main_v27 main_v28 (cmpf .ole : (⟨S640000, .f32⟩ : BufTy).Contents (Elt F) → (⟨S640000, .f32⟩ : BufTy).Contents (Elt F) → (⟨S640000, .i1⟩ : BufTy).Contents (Elt F)),
    StableHlo.unary main_v28 main_v29 (uitofp .f32 : (⟨S640000, .i1⟩ : BufTy).Contents (Elt F) → (⟨S640000, .f32⟩ : BufTy).Contents (Elt F)),
    StableHlo.binary main_v26 main_v29 main_v30 (mulf : (⟨S640000, .f32⟩ : BufTy).Contents (Elt F) → (⟨S640000, .f32⟩ : BufTy).Contents (Elt F) → (⟨S640000, .f32⟩ : BufTy).Contents (Elt F)) ]

/-- The buffers those operations write. -/
abbrev LB : List (Ref sig .tc) := [main_cst_2, main_v18, main_v19, main_cst_3, main_v20, main_v21, main_v22, main_cst_4, main_v23, main_v24, main_cst_5, main_v25, main_v26, main_cst_6, main_v27, main_v28, main_v29, main_v30]

theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub ..⟩

theorem opsB_fresh : ∀ op ∈ (opsB : List (HloOp τ sig (Elt F))), op.fresh = ∅ := by
  intro _ h; (repeat (cases h with | head => rfl | tail _ h => ?_)); exact nomatch h

theorem opsB_writes : (opsB : List (HloOp τ sig (Elt F))).Forall fun op => op.writes ⊆ (LB.map (Proc.devRef (τ := τ) .tc)).toFinset := by
  simp only [List.Forall]
  refine ⟨?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]; exact List.mem_map_of_mem (by decide))

/-- The operations of the edge weight, and the first contraction of the radial factor, in order. -/
abbrev opsC : List (HloOp τ sig (Elt F)) :=
  [ StableHlo.binary main_arg4 main_arg14 main_v31 ((fun l r => Host.dotGeneral dot_S640000x32_S32x128_S640000x128_1_0_0_1_n_n none l r) : (⟨S640000x32, .f32⟩ : BufTy).Contents (Elt F) → (⟨S32x128, .f32⟩ : BufTy).Contents (Elt F) → (⟨S640000x128, .f32⟩ : BufTy).Contents (Elt F)),
    StableHlo.unary main_arg15 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S640000x128 ![0, 1] bcast_S1x128_S640000x128_0_1 : (⟨S1x128, .f32⟩ : BufTy).Contents (Elt F) → (⟨S640000x128, .f32⟩ : BufTy).Contents (Elt F)),
    StableHlo.binary main_v31 main_v33 main_v34 (addf : (⟨S640000x128, .f32⟩ : BufTy).Contents (Elt F) → (⟨S640000x128, .f32⟩ : BufTy).Contents (Elt F) → (⟨S640000x128, .f32⟩ : BufTy).Contents (Elt F)),
    StableHlo.TRef.unary (.of main_v34 : TRef sig ⟨S640000x128, .f32⟩) main_call1.v0 Host.negf,
    StableHlo.TRef.unary main_call1.v0 main_call1.v1 Host.exp,
    StableHlo.TRef.nullary main_call1.cst (constant S_ .f32 0x3F800000#32),
    StableHlo.TRef.unary main_call1.cst main_call1.v2 (broadcastInDim S640000x128 ![] bcast_S_S640000x128),
    StableHlo.TRef.binary main_call1.v2 main_call1.v1 main_call1.v3 addf,
    StableHlo.TRef.nullary main_call1.cst_0 (constant S_ .f32 0x3F800000#32),
    StableHlo.TRef.unary main_call1.cst_0 main_call1.v4 (broadcastInDim S640000x128 ![] bcast_S_S640000x128),
    StableHlo.TRef.binary main_call1.v4 main_call1.v3 main_call1.v5 Host.divf,
    StableHlo.TRef.binary (.of main_v34 : TRef sig ⟨S640000x128, .f32⟩) main_call1.v5 main_call1.v6 mulf,
    StableHlo.binary main_v35 main_arg16 main_v36 ((fun l r => Host.dotGeneral dot_S640000x128_S128x1_S640000x1_1_0_0_1_n_n none l r) : (⟨S640000x128, .f32⟩ : BufTy).Contents (Elt F) → (⟨S128x1, .f32⟩ : BufTy).Contents (Elt F) → (⟨S640000x1, .f32⟩ : BufTy).Contents (Elt F)),
    StableHlo.unary main_arg17 main_v37 (broadcastInDim S1x1 ![1] bcast_S1_S1x1_1 : (⟨S1, .f32⟩ : BufTy).Contents (Elt F) → (⟨S1x1, .f32⟩ : BufTy).Contents (Elt F)),
    StableHlo.unary main_v37 main_v38 (broadcastInDim S640000x1 ![0, 1] bcast_S1x1_S640000x1_0_1 : (⟨S1x1, .f32⟩ : BufTy).Contents (Elt F) → (⟨S640000x1, .f32⟩ : BufTy).Contents (Elt F)),
    StableHlo.binary main_v36 main_v38 main_v39 (addf : (⟨S640000x1, .f32⟩ : BufTy).Contents (Elt F) → (⟨S640000x1, .f32⟩ : BufTy).Contents (Elt F) → (⟨S640000x1, .f32⟩ : BufTy).Contents (Elt F)),
    StableHlo.unary main_v39 main_v40 (Host.negf : (⟨S640000x1, .f32⟩ : BufTy).Contents (Elt F) → (⟨S640000x1, .f32⟩ : BufTy).Contents (Elt F)),
    StableHlo.unary main_v40 main_v41 (Host.exp : (⟨S640000x1, .f32⟩ : BufTy).Contents (Elt F) → (⟨S640000x1, .f32⟩ : BufTy).Contents (Elt F)),
    StableHlo.nullary main_cst_7 (constant S_ .f32 0x3F800000#32),
    StableHlo.unary main_cst_7 main_v42 (broadcastInDim S640000x1 ![] bcast_S_S640000x1 : (⟨S_, .f32⟩ : BufTy).Contents (Elt F) → (⟨S640000x1, .f32⟩ : BufTy).Contents (Elt F)),
    StableHlo.binary main_v42 main_v41 main_v43 (addf : (⟨S640000x1, .f32⟩ : BufTy).Contents (Elt F) → (⟨S640000x1, .f32⟩ : BufTy).Contents (Elt F) → (⟨S640000x1, .f32⟩ : BufTy).Contents (Elt F)),
    StableHlo.nullary main_cst_8 (constant S_ .f32 0x3F800000#32),
    StableHlo.unary main_cst_8 main_v44 (broadcastInDim S640000x1 ![] bcast_S_S640000x1 : (⟨S_, .f32⟩ : BufTy).Contents (Elt F) → (⟨S640000x1, .f32⟩ : BufTy).Contents (Elt F)),
    StableHlo.binary main_v44 main_v43 main_v45 (Host.divf : (⟨S640000x1, .f32⟩ : BufTy).Contents (Elt F) → (⟨S640000x1, .f32⟩ : BufTy).Contents (Elt F) → (⟨S640000x1, .f32⟩ : BufTy).Contents (Elt F)),
    StableHlo.unary main_v30 main_v46 (broadcastInDim S640000x1 ![0] bcast_S640000_S640000x1_0 : (⟨S640000, .f32⟩ : BufTy).Contents (Elt F) → (⟨S640000x1, .f32⟩ : BufTy).Contents (Elt F)),
    StableHlo.binary main_v46 main_v45 main_v47 (mulf : (⟨S640000x1, .f32⟩ : BufTy).Contents (Elt F) → (⟨S640000x1, .f32⟩ : BufTy).Contents (Elt F) → (⟨S640000x1, .f32⟩ : BufTy).Contents (Elt F)),
    StableHlo.binary main_arg4 main_arg8 main_v48 ((fun l r => Host.dotGeneral dot_S640000x32_S32x128_S640000x128_1_0_0_1_n_n none l r) : (⟨S640000x32, .f32⟩ : BufTy).Contents (Elt F) → (⟨S32x128, .f32⟩ : BufTy).Contents (Elt F) → (⟨S640000x128, .f32⟩ : BufTy).Contents (Elt F)) ]

/-- The buffers those operations write. -/
abbrev LC : List (Ref sig .tc) := [main_v31, main_v32, main_v33, main_v34, main_call1.v0.ref, main_call1.v1.ref, main_call1.cst.ref, main_call1.v2.ref, main_call1.v3.ref, main_call1.cst_0.ref, main_call1.v4.ref, main_call1.v5.ref, main_call1.v6.ref, main_v36, main_v37, main_v38, main_v39, main_v40, main_v41, main_cst_7, main_v42, main_v43, main_cst_8, main_v44, main_v45, main_v46, main_v47, main_v48]

theorem opsC_sub : (opsC : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub ..⟩

theorem opsC_fresh : ∀ op ∈ (opsC : List (HloOp τ sig (Elt F))), op.fresh = ∅ := by
  intro _ h; (repeat (cases h with | head => rfl | tail _ h => ?_)); exact nomatch h

theorem opsC_writes : (opsC : List (HloOp τ sig (Elt F))).Forall fun op => op.writes ⊆ (LC.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]; exact List.mem_map_of_mem (by decide))

/-- The operations of the radial factor's remaining layers, in order. -/
abbrev opsD : List (HloOp τ sig (Elt F)) :=
  [ StableHlo.unary main_arg9 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S640000x128 ![0, 1] bcast_S1x128_S640000x128_0_1 : (⟨S1x128, .f32⟩ : BufTy).Contents (Elt F) → (⟨S640000x128, .f32⟩ : BufTy).Contents (Elt F)),
    StableHlo.binary main_v48 main_v50 main_v51 (addf : (⟨S640000x128, .f32⟩ : BufTy).Contents (Elt F) → (⟨S640000x128, .f32⟩ : BufTy).Contents (Elt F) → (⟨S640000x128, .f32⟩ : BufTy).Contents (Elt F)),
    StableHlo.TRef.unary (.of main_v51 : TRef sig ⟨S640000x128, .f32⟩) main_call2.v0 Host.negf,
    StableHlo.TRef.unary main_call2.v0 main_call2.v1 Host.exp,
    StableHlo.TRef.nullary main_call2.cst (constant S_ .f32 0x3F800000#32),
    StableHlo.TRef.unary main_call2.cst main_call2.v2 (broadcastInDim S640000x128 ![] bcast_S_S640000x128),
    StableHlo.TRef.binary main_call2.v2 main_call2.v1 main_call2.v3 addf,
    StableHlo.TRef.nullary main_call2.cst_0 (constant S_ .f32 0x3F800000#32),
    StableHlo.TRef.unary main_call2.cst_0 main_call2.v4 (broadcastInDim S640000x128 ![] bcast_S_S640000x128),
    StableHlo.TRef.binary main_call2.v4 main_call2.v3 main_call2.v5 Host.divf,
    StableHlo.TRef.binary (.of main_v51 : TRef sig ⟨S640000x128, .f32⟩) main_call2.v5 main_call2.v6 mulf,
    StableHlo.binary main_v52 main_arg10 main_v53 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    StableHlo.unary main_arg11 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S640000x128 ![0, 1] bcast_S1x128_S640000x128_0_1 : (⟨S1x128, .f32⟩ : BufTy).Contents (Elt F) → (⟨S640000x128, .f32⟩ : BufTy).Contents (Elt F)),
    StableHlo.binary main_v53 main_v55 main_v56 (addf : (⟨S640000x128, .f32⟩ : BufTy).Contents (Elt F) → (⟨S640000x128, .f32⟩ : BufTy).Contents (Elt F) → (⟨S640000x128, .f32⟩ : BufTy).Contents (Elt F)),
    StableHlo.TRef.unary (.of main_v56 : TRef sig ⟨S640000x128, .f32⟩) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S640000x128 ![] bcast_S_S640000x128),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S640000x128 ![] bcast_S_S640000x128),
    StableHlo.TRef.binary main_call3.v4 main_call3.v3 main_call3.v5 Host.divf,
    StableHlo.TRef.binary (.of main_v56 : TRef sig ⟨S640000x128, .f32⟩) main_call3.v5 main_call3.v6 mulf,
    StableHlo.binary main_v57 main_arg12 main_v58 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    StableHlo.unary main_arg13 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S640000x128 ![0, 1] bcast_S1x128_S640000x128_0_1 : (⟨S1x128, .f32⟩ : BufTy).Contents (Elt F) → (⟨S640000x128, .f32⟩ : BufTy).Contents (Elt F)),
    StableHlo.binary main_v58 main_v60 main_v61 (addf : (⟨S640000x128, .f32⟩ : BufTy).Contents (Elt F) → (⟨S640000x128, .f32⟩ : BufTy).Contents (Elt F) → (⟨S640000x128, .f32⟩ : BufTy).Contents (Elt F)) ]

/-- The buffers those operations write. -/
abbrev LD : List (Ref sig .tc) := [main_v49, main_v50, main_v51, main_call2.v0.ref, main_call2.v1.ref, main_call2.cst.ref, main_call2.v2.ref, main_call2.v3.ref, main_call2.cst_0.ref, main_call2.v4.ref, main_call2.v5.ref, main_call2.v6.ref, main_v53, main_v54, main_v55, main_v56, main_call3.v0.ref, main_call3.v1.ref, main_call3.cst.ref, main_call3.v2.ref, main_call3.v3.ref, main_call3.cst_0.ref, main_call3.v4.ref, main_call3.v5.ref, main_call3.v6.ref, main_v58, main_v59, main_v60, main_v61]

theorem opsD_sub : (opsD : List (HloOp τ sig (Elt F))).Forall fun op => op.bufs ⊆ tcRefs τ sig :=
  ⟨unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub ..⟩

theorem opsD_fresh : ∀ op ∈ (opsD : List (HloOp τ sig (Elt F))), op.fresh = ∅ := by
  intro _ h; (repeat (cases h with | head => rfl | tail _ h => ?_)); exact nomatch h

theorem opsD_writes : (opsD : List (HloOp τ sig (Elt F))).Forall fun op => op.writes ⊆ (LD.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]; exact List.mem_map_of_mem (by decide))

/-- The operations of the wrapped source indices, the gather, the message and the normalised scatter-sum, in order. -/
abbrev opsE : List (HloOp τ sig (Elt F)) :=
  [ StableHlo.nullary main_c_9 (constantI S_ 32 0#32),
    StableHlo.unary main_c_9 main_v62 (broadcastInDim S640000 ![] bcast_S_S640000 : (⟨S_, .i32⟩ : BufTy).Contents (Elt F) → (⟨S640000, .i32⟩ : BufTy).Contents (Elt F)),
    StableHlo.binary main_arg1 main_v62 main_v63 (cmpi .slt : (⟨S640000, .i32⟩ : BufTy).Contents (Elt F) → (⟨S640000, .i32⟩ : BufTy).Contents (Elt F) → (⟨S640000, .i1⟩ : BufTy).Contents (Elt F)),
    StableHlo.nullary main_c_10 (constantI S_ 32 20000#32),
    StableHlo.unary main_c_10 main_v64 (broadcastInDim S640000 ![] bcast_S_S640000 : (⟨S_, .i32⟩ : BufTy).Contents (Elt F) → (⟨S640000, .i32⟩ : BufTy).Contents (Elt F)),
    StableHlo.binary main_arg1 main_v64 main_v65 (addi : (⟨S640000, .i32⟩ : BufTy).Contents (Elt F) → (⟨S640000, .i32⟩ : BufTy).Contents (Elt F) → (⟨S640000, .i32⟩ : BufTy).Contents (Elt F)),
    StableHlo.ternary main_v63 main_v65 main_arg1 main_v66 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v66 main_v67 (broadcastInDim S640000x1 ![0] bcast_S640000_S640000x1_0 : (⟨S640000, .i32⟩ : BufTy).Contents (Elt F) → (⟨S640000x1, .i32⟩ : BufTy).Contents (Elt F)),
    StableHlo.binary main_v17 main_v67 main_v68 ((fun x i => Host.gather gather_S20000x128_S640000x1_S640000x128_1_0_n_n_0_1_1128 x i) : (⟨S20000x128, .f32⟩ : BufTy).Contents (Elt F) → (⟨S640000x1, .i32⟩ : BufTy).Contents (Elt F) → (⟨S640000x128, .f32⟩ : BufTy).Contents (Elt F)),
    StableHlo.binary main_v68 main_v61 main_v69 (mulf : (⟨S640000x128, .f32⟩ : BufTy).Contents (Elt F) → (⟨S640000x128, .f32⟩ : BufTy).Contents (Elt F) → (⟨S640000x128, .f32⟩ : BufTy).Contents (Elt F)),
    StableHlo.unary main_v47 main_v70 (broadcastInDim S640000x128 ![0, 1] bcast_S640000x1_S640000x128_0_1 : (⟨S640000x1, .f32⟩ : BufTy).Contents (Elt F) → (⟨S640000x128, .f32⟩ : BufTy).Contents (Elt F)),
    StableHlo.binary main_v69 main_v70 main_v71 (mulf : (⟨S640000x128, .f32⟩ : BufTy).Contents (Elt F) → (⟨S640000x128, .f32⟩ : BufTy).Contents (Elt F) → (⟨S640000x128, .f32⟩ : BufTy).Contents (Elt F)),
    StableHlo.nullary main_cst_11 (constant S_ .f32 0x00000000#32),
    StableHlo.unary main_cst_11 main_v72 (broadcastInDim S20000x128 ![] bcast_S_S20000x128 : (⟨S_, .f32⟩ : BufTy).Contents (Elt F) → (⟨S20000x128, .f32⟩ : BufTy).Contents (Elt F)),
    StableHlo.unary main_arg2 main_v73 (broadcastInDim S640000x1 ![0] bcast_S640000_S640000x1_0 : (⟨S640000, .i32⟩ : BufTy).Contents (Elt F) → (⟨S640000x1, .i32⟩ : BufTy).Contents (Elt F)),
    StableHlo.ternary main_v72 main_v73 main_v71 main_v74 ((fun x i u => Host.scatterAdd scatter_S20000x128_S640000x1_S640000x128_1_0_0_1 x i u) : (⟨S20000x128, .f32⟩ : BufTy).Contents (Elt F) → (⟨S640000x1, .i32⟩ : BufTy).Contents (Elt F) → (⟨S640000x128, .f32⟩ : BufTy).Contents (Elt F) → (⟨S20000x128, .f32⟩ : BufTy).Contents (Elt F)),
    StableHlo.nullary main_cst_12 (constant S_ .f32 0x00000000#32),
    StableHlo.unary main_cst_12 main_v75 (broadcastInDim S20000x1 ![] bcast_S_S20000x1 : (⟨S_, .f32⟩ : BufTy).Contents (Elt F) → (⟨S20000x1, .f32⟩ : BufTy).Contents (Elt F)),
    StableHlo.unary main_arg2 main_v76 (broadcastInDim S640000x1 ![0] bcast_S640000_S640000x1_0 : (⟨S640000, .i32⟩ : BufTy).Contents (Elt F) → (⟨S640000x1, .i32⟩ : BufTy).Contents (Elt F)),
    StableHlo.ternary main_v75 main_v76 main_v47 main_v77 ((fun x i u => Host.scatterAdd scatter_S20000x1_S640000x1_S640000x1_1_0_0_1 x i u) : (⟨S20000x1, .f32⟩ : BufTy).Contents (Elt F) → (⟨S640000x1, .i32⟩ : BufTy).Contents (Elt F) → (⟨S640000x1, .f32⟩ : BufTy).Contents (Elt F) → (⟨S20000x1, .f32⟩ : BufTy).Contents (Elt F)),
    StableHlo.nullary main_cst_13 (constant S_ .f32 0x322BCC77#32),
    StableHlo.unary main_cst_13 main_v78 (broadcastInDim S20000x1 ![] bcast_S_S20000x1 : (⟨S_, .f32⟩ : BufTy).Contents (Elt F) → (⟨S20000x1, .f32⟩ : BufTy).Contents (Elt F)),
    StableHlo.binary main_v77 main_v78 main_v79 (maximumf : (⟨S20000x1, .f32⟩ : BufTy).Contents (Elt F) → (⟨S20000x1, .f32⟩ : BufTy).Contents (Elt F) → (⟨S20000x1, .f32⟩ : BufTy).Contents (Elt F)),
    StableHlo.unary main_v79 main_v80 (broadcastInDim S20000x128 ![0, 1] bcast_S20000x1_S20000x128_0_1 : (⟨S20000x1, .f32⟩ : BufTy).Contents (Elt F) → (⟨S20000x128, .f32⟩ : BufTy).Contents (Elt F)),
    StableHlo.binary main_v74 main_v80 main_v81 (Host.divf : (⟨S20000x128, .f32⟩ : BufTy).Contents (Elt F) → (⟨S20000x128, .f32⟩ : BufTy).Contents (Elt F) → (⟨S20000x128, .f32⟩ : BufTy).Contents (Elt F)) ]

/-- The buffers those operations write. -/
abbrev LE : List (Ref sig .tc) := [main_c_9, main_v62, main_v63, main_c_10, main_v64, main_v65, main_v66, main_v67, main_v68, main_v69, main_v70, main_v71, main_cst_11, main_v72, main_v73, main_v74, main_cst_12, main_v75, main_v76, main_v77, main_cst_13, main_v78, main_v79, main_v80, main_v81]

theorem opsE_sub : (opsE : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., binary_bufs_sub ..⟩

theorem opsE_fresh : ∀ op ∈ (opsE : List (HloOp τ sig (Elt F))), op.fresh = ∅ := by
  intro _ h; (repeat (cases h with | head => rfl | tail _ h => ?_)); exact nomatch h

theorem opsE_writes : (opsE : List (HloOp τ sig (Elt F))).Forall fun op => op.writes ⊆ (LE.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]; exact List.mem_map_of_mem (by decide))

/-- The operations of the node update, in order. -/
abbrev opsF : List (HloOp τ sig (Elt F)) :=
  [ StableHlo.binary main_v81 main_arg18 main_v82 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_arg19 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S20000x128 ![0, 1] bcast_S1x128_S20000x128_0_1 : (⟨S1x128, .f32⟩ : BufTy).Contents (Elt F) → (⟨S20000x128, .f32⟩ : BufTy).Contents (Elt F)),
    StableHlo.binary main_v82 main_v84 main_v85 (addf : (⟨S20000x128, .f32⟩ : BufTy).Contents (Elt F) → (⟨S20000x128, .f32⟩ : BufTy).Contents (Elt F) → (⟨S20000x128, .f32⟩ : BufTy).Contents (Elt F)),
    StableHlo.TRef.unary (.of main_v85 : TRef sig ⟨S20000x128, .f32⟩) main_call4.v0 Host.negf,
    StableHlo.TRef.unary main_call4.v0 main_call4.v1 Host.exp,
    StableHlo.TRef.nullary main_call4.cst (constant S_ .f32 0x3F800000#32),
    StableHlo.TRef.unary main_call4.cst main_call4.v2 (broadcastInDim S20000x128 ![] bcast_S_S20000x128),
    StableHlo.TRef.binary main_call4.v2 main_call4.v1 main_call4.v3 addf,
    StableHlo.TRef.nullary main_call4.cst_0 (constant S_ .f32 0x3F800000#32),
    StableHlo.TRef.unary main_call4.cst_0 main_call4.v4 (broadcastInDim S20000x128 ![] bcast_S_S20000x128),
    StableHlo.TRef.binary main_call4.v4 main_call4.v3 main_call4.v5 Host.divf,
    StableHlo.TRef.binary (.of main_v85 : TRef sig ⟨S20000x128, .f32⟩) main_call4.v5 main_call4.v6 mulf,
    StableHlo.binary main_v86 main_arg20 main_v87 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_arg21 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S20000x128 ![0, 1] bcast_S1x128_S20000x128_0_1 : (⟨S1x128, .f32⟩ : BufTy).Contents (Elt F) → (⟨S20000x128, .f32⟩ : BufTy).Contents (Elt F)),
    StableHlo.binary main_v87 main_v89 main_v90 (addf : (⟨S20000x128, .f32⟩ : BufTy).Contents (Elt F) → (⟨S20000x128, .f32⟩ : BufTy).Contents (Elt F) → (⟨S20000x128, .f32⟩ : BufTy).Contents (Elt F)),
    StableHlo.binary main_v17 main_arg22 main_v91 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_arg23 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S20000x128 ![0, 1] bcast_S1x128_S20000x128_0_1 : (⟨S1x128, .f32⟩ : BufTy).Contents (Elt F) → (⟨S20000x128, .f32⟩ : BufTy).Contents (Elt F)),
    StableHlo.binary main_v91 main_v93 main_v94 (addf : (⟨S20000x128, .f32⟩ : BufTy).Contents (Elt F) → (⟨S20000x128, .f32⟩ : BufTy).Contents (Elt F) → (⟨S20000x128, .f32⟩ : BufTy).Contents (Elt F)),
    StableHlo.binary main_v90 main_arg24 main_v95 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_arg25 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S20000x128 ![0, 1] bcast_S1x128_S20000x128_0_1 : (⟨S1x128, .f32⟩ : BufTy).Contents (Elt F) → (⟨S20000x128, .f32⟩ : BufTy).Contents (Elt F)),
    StableHlo.binary main_v95 main_v97 main_v98 (addf : (⟨S20000x128, .f32⟩ : BufTy).Contents (Elt F) → (⟨S20000x128, .f32⟩ : BufTy).Contents (Elt F) → (⟨S20000x128, .f32⟩ : BufTy).Contents (Elt F)),
    StableHlo.binary main_v94 main_v98 main_v99 (addf : (⟨S20000x128, .f32⟩ : BufTy).Contents (Elt F) → (⟨S20000x128, .f32⟩ : BufTy).Contents (Elt F) → (⟨S20000x128, .f32⟩ : BufTy).Contents (Elt F)),
    StableHlo.unary main_arg26 main_v100 (broadcastInDim S20000x128 ![] bcast_S_S20000x128 : (⟨S_, .f32⟩ : BufTy).Contents (Elt F) → (⟨S20000x128, .f32⟩ : BufTy).Contents (Elt F)),
    StableHlo.binary main_v100 main_v99 main_v101 (mulf : (⟨S20000x128, .f32⟩ : BufTy).Contents (Elt F) → (⟨S20000x128, .f32⟩ : BufTy).Contents (Elt F) → (⟨S20000x128, .f32⟩ : BufTy).Contents (Elt F)),
    StableHlo.binary main_arg0 main_v101 main_v102 (addf : (⟨S20000x128, .f32⟩ : BufTy).Contents (Elt F) → (⟨S20000x128, .f32⟩ : BufTy).Contents (Elt F) → (⟨S20000x128, .f32⟩ : BufTy).Contents (Elt F)) ]

/-- The buffers those operations write. -/
abbrev LF : List (Ref sig .tc) := [main_v82, main_v83, main_v84, main_v85, main_call4.v0.ref, main_call4.v1.ref, main_call4.cst.ref, main_call4.v2.ref, main_call4.v3.ref, main_call4.cst_0.ref, main_call4.v4.ref, main_call4.v5.ref, main_call4.v6.ref, main_v87, main_v88, main_v89, main_v90, main_v91, main_v92, main_v93, main_v94, main_v95, main_v96, main_v97, main_v98, main_v99, main_v100, main_v101, main_v102]

theorem opsF_sub : (opsF : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., binary_bufs_sub .., binary_bufs_sub ..⟩

theorem opsF_fresh : ∀ op ∈ (opsF : List (HloOp τ sig (Elt F))), op.fresh = ∅ := by
  intro _ h; (repeat (cases h with | head => rfl | tail _ h => ?_)); exact nomatch h

theorem opsF_writes : (opsF : List (HloOp τ sig (Elt F))).Forall fun op => op.writes ⊆ (LF.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]; exact List.mem_map_of_mem (by decide))

/-- The whole line: the first window's three stretches, then the second's. -/
abbrev ops : List (HloOp τ sig (Elt F)) := (opsA ++ opsB ++ opsC) ++ (opsD ++ opsE ++ opsF)

set_option maxRecDepth 16384 in
set_option maxHeartbeats 4000000 in
/-- The first window is its operations in order, the calls' bodies in place of the calls. -/
theorem main_part0_eq (c : Dev nD) : main_part0 (F := F) c = seq (opsA ++ opsB ++ opsC) := rfl

set_option maxRecDepth 16384 in
set_option maxHeartbeats 4000000 in
/-- The second window likewise. -/
theorem main_part1_eq (c : Dev nD) : main_part1 (F := F) c = seq (opsD ++ opsE ++ opsF) := rfl

theorem main_eq (c : Dev nD) : main (F := F) c = seq ops := by
  rw [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with ((h | h) | h) | ((h | h) | h)
    exacts [List.forall_iff_forall_mem.mp opsA_sub op h, List.forall_iff_forall_mem.mp opsB_sub op h,
      List.forall_iff_forall_mem.mp opsC_sub op h, List.forall_iff_forall_mem.mp opsD_sub op h,
      List.forall_iff_forall_mem.mp opsE_sub op h, List.forall_iff_forall_mem.mp opsF_sub op h]

theorem ops_fresh : ∀ op ∈ (ops : List (HloOp τ sig (Elt F))), op.fresh = ∅ := fun op h => by
  simp only [ops, List.mem_append] at h
  rcases h with ((h | h) | h) | ((h | h) | h)
  exacts [opsA_fresh op h, opsB_fresh op h, opsC_fresh op h, opsD_fresh op h, opsE_fresh op h, opsF_fresh op h]

/-- The buffer contents after the first 1 stretch. -/
def W1 (V : Valuation τ sig (Elt F)) : Valuation τ sig (Elt F) := after opsA V

/-- A buffer stretch 1 does not write keeps its contents through it. -/
theorem W1_keep (V : Valuation τ sig (Elt F)) (r : Ref sig .tc) (h : r ∉ LA) :
    W1 V (Proc.devRef .tc r) = V (Proc.devRef .tc r) :=
  after_of_writes_sub opsA _ opsA_writes h

theorem W1_main_arg0 (V : Valuation τ sig (Elt F)) : W1 V (no_index (Proc.devRef .tc main_arg0)) = (V (Proc.devRef .tc main_arg0)) := W1_keep V main_arg0 (by decide)
theorem W1_main_arg1 (V : Valuation τ sig (Elt F)) : W1 V (no_index (Proc.devRef .tc main_arg1)) = (V (Proc.devRef .tc main_arg1)) := W1_keep V main_arg1 (by decide)
theorem W1_main_arg2 (V : Valuation τ sig (Elt F)) : W1 V (no_index (Proc.devRef .tc main_arg2)) = (V (Proc.devRef .tc main_arg2)) := W1_keep V main_arg2 (by decide)
theorem W1_main_arg3 (V : Valuation τ sig (Elt F)) : W1 V (no_index (Proc.devRef .tc main_arg3)) = (V (Proc.devRef .tc main_arg3)) := W1_keep V main_arg3 (by decide)
theorem W1_main_arg4 (V : Valuation τ sig (Elt F)) : W1 V (no_index (Proc.devRef .tc main_arg4)) = (V (Proc.devRef .tc main_arg4)) := W1_keep V main_arg4 (by decide)
theorem W1_main_arg5 (V : Valuation τ sig (Elt F)) : W1 V (no_index (Proc.devRef .tc main_arg5)) = (V (Proc.devRef .tc main_arg5)) := W1_keep V main_arg5 (by decide)
theorem W1_main_arg6 (V : Valuation τ sig (Elt F)) : W1 V (no_index (Proc.devRef .tc main_arg6)) = (V (Proc.devRef .tc main_arg6)) := W1_keep V main_arg6 (by decide)
theorem W1_main_arg7 (V : Valuation τ sig (Elt F)) : W1 V (no_index (Proc.devRef .tc main_arg7)) = (V (Proc.devRef .tc main_arg7)) := W1_keep V main_arg7 (by decide)
theorem W1_main_arg8 (V : Valuation τ sig (Elt F)) : W1 V (no_index (Proc.devRef .tc main_arg8)) = (V (Proc.devRef .tc main_arg8)) := W1_keep V main_arg8 (by decide)
theorem W1_main_arg9 (V : Valuation τ sig (Elt F)) : W1 V (no_index (Proc.devRef .tc main_arg9)) = (V (Proc.devRef .tc main_arg9)) := W1_keep V main_arg9 (by decide)
theorem W1_main_arg10 (V : Valuation τ sig (Elt F)) : W1 V (no_index (Proc.devRef .tc main_arg10)) = (V (Proc.devRef .tc main_arg10)) := W1_keep V main_arg10 (by decide)
theorem W1_main_arg11 (V : Valuation τ sig (Elt F)) : W1 V (no_index (Proc.devRef .tc main_arg11)) = (V (Proc.devRef .tc main_arg11)) := W1_keep V main_arg11 (by decide)
theorem W1_main_arg12 (V : Valuation τ sig (Elt F)) : W1 V (no_index (Proc.devRef .tc main_arg12)) = (V (Proc.devRef .tc main_arg12)) := W1_keep V main_arg12 (by decide)
theorem W1_main_arg13 (V : Valuation τ sig (Elt F)) : W1 V (no_index (Proc.devRef .tc main_arg13)) = (V (Proc.devRef .tc main_arg13)) := W1_keep V main_arg13 (by decide)
theorem W1_main_arg14 (V : Valuation τ sig (Elt F)) : W1 V (no_index (Proc.devRef .tc main_arg14)) = (V (Proc.devRef .tc main_arg14)) := W1_keep V main_arg14 (by decide)
theorem W1_main_arg15 (V : Valuation τ sig (Elt F)) : W1 V (no_index (Proc.devRef .tc main_arg15)) = (V (Proc.devRef .tc main_arg15)) := W1_keep V main_arg15 (by decide)
theorem W1_main_arg16 (V : Valuation τ sig (Elt F)) : W1 V (no_index (Proc.devRef .tc main_arg16)) = (V (Proc.devRef .tc main_arg16)) := W1_keep V main_arg16 (by decide)
theorem W1_main_arg17 (V : Valuation τ sig (Elt F)) : W1 V (no_index (Proc.devRef .tc main_arg17)) = (V (Proc.devRef .tc main_arg17)) := W1_keep V main_arg17 (by decide)
theorem W1_main_arg18 (V : Valuation τ sig (Elt F)) : W1 V (no_index (Proc.devRef .tc main_arg18)) = (V (Proc.devRef .tc main_arg18)) := W1_keep V main_arg18 (by decide)
theorem W1_main_arg19 (V : Valuation τ sig (Elt F)) : W1 V (no_index (Proc.devRef .tc main_arg19)) = (V (Proc.devRef .tc main_arg19)) := W1_keep V main_arg19 (by decide)
theorem W1_main_arg20 (V : Valuation τ sig (Elt F)) : W1 V (no_index (Proc.devRef .tc main_arg20)) = (V (Proc.devRef .tc main_arg20)) := W1_keep V main_arg20 (by decide)
theorem W1_main_arg21 (V : Valuation τ sig (Elt F)) : W1 V (no_index (Proc.devRef .tc main_arg21)) = (V (Proc.devRef .tc main_arg21)) := W1_keep V main_arg21 (by decide)
theorem W1_main_arg22 (V : Valuation τ sig (Elt F)) : W1 V (no_index (Proc.devRef .tc main_arg22)) = (V (Proc.devRef .tc main_arg22)) := W1_keep V main_arg22 (by decide)
theorem W1_main_arg23 (V : Valuation τ sig (Elt F)) : W1 V (no_index (Proc.devRef .tc main_arg23)) = (V (Proc.devRef .tc main_arg23)) := W1_keep V main_arg23 (by decide)
theorem W1_main_arg24 (V : Valuation τ sig (Elt F)) : W1 V (no_index (Proc.devRef .tc main_arg24)) = (V (Proc.devRef .tc main_arg24)) := W1_keep V main_arg24 (by decide)
theorem W1_main_arg25 (V : Valuation τ sig (Elt F)) : W1 V (no_index (Proc.devRef .tc main_arg25)) = (V (Proc.devRef .tc main_arg25)) := W1_keep V main_arg25 (by decide)
theorem W1_main_arg26 (V : Valuation τ sig (Elt F)) : W1 V (no_index (Proc.devRef .tc main_arg26)) = (V (Proc.devRef .tc main_arg26)) := W1_keep V main_arg26 (by decide)

set_option maxRecDepth 8192 in
set_option maxHeartbeats 4000000 in
/-- Stretch 1's result buffer is the stage's function of what the stretch reads. -/
theorem W1_main_v17 (V : Valuation τ sig (Elt F)) : W1 V (no_index (Proc.devRef .tc main_v17)) = Stages.xnR (V (Proc.devRef .tc main_arg0)) (V (Proc.devRef .tc main_arg6)) (V (Proc.devRef .tc main_arg7)) := by
  unfold W1
  simp only [opsA]
  after_results_simp
  rfl

/-- The buffer contents after the first 2 stretches. -/
def W2 (V : Valuation τ sig (Elt F)) : Valuation τ sig (Elt F) := after opsB (W1 V)

/-- A buffer stretch 2 does not write keeps its contents through it. -/
theorem W2_keep (V : Valuation τ sig (Elt F)) (r : Ref sig .tc) (h : r ∉ LB) :
    W2 V (Proc.devRef .tc r) = W1 V (Proc.devRef .tc r) :=
  after_of_writes_sub opsB _ opsB_writes h

theorem W2_main_arg0 (V : Valuation τ sig (Elt F)) : W2 V (no_index (Proc.devRef .tc main_arg0)) = (V (Proc.devRef .tc main_arg0)) := (W2_keep V main_arg0 (by decide)).trans (W1_main_arg0 V)
theorem W2_main_arg1 (V : Valuation τ sig (Elt F)) : W2 V (no_index (Proc.devRef .tc main_arg1)) = (V (Proc.devRef .tc main_arg1)) := (W2_keep V main_arg1 (by decide)).trans (W1_main_arg1 V)
theorem W2_main_arg2 (V : Valuation τ sig (Elt F)) : W2 V (no_index (Proc.devRef .tc main_arg2)) = (V (Proc.devRef .tc main_arg2)) := (W2_keep V main_arg2 (by decide)).trans (W1_main_arg2 V)
theorem W2_main_arg3 (V : Valuation τ sig (Elt F)) : W2 V (no_index (Proc.devRef .tc main_arg3)) = (V (Proc.devRef .tc main_arg3)) := (W2_keep V main_arg3 (by decide)).trans (W1_main_arg3 V)
theorem W2_main_arg4 (V : Valuation τ sig (Elt F)) : W2 V (no_index (Proc.devRef .tc main_arg4)) = (V (Proc.devRef .tc main_arg4)) := (W2_keep V main_arg4 (by decide)).trans (W1_main_arg4 V)
theorem W2_main_arg5 (V : Valuation τ sig (Elt F)) : W2 V (no_index (Proc.devRef .tc main_arg5)) = (V (Proc.devRef .tc main_arg5)) := (W2_keep V main_arg5 (by decide)).trans (W1_main_arg5 V)
theorem W2_main_arg6 (V : Valuation τ sig (Elt F)) : W2 V (no_index (Proc.devRef .tc main_arg6)) = (V (Proc.devRef .tc main_arg6)) := (W2_keep V main_arg6 (by decide)).trans (W1_main_arg6 V)
theorem W2_main_arg7 (V : Valuation τ sig (Elt F)) : W2 V (no_index (Proc.devRef .tc main_arg7)) = (V (Proc.devRef .tc main_arg7)) := (W2_keep V main_arg7 (by decide)).trans (W1_main_arg7 V)
theorem W2_main_arg8 (V : Valuation τ sig (Elt F)) : W2 V (no_index (Proc.devRef .tc main_arg8)) = (V (Proc.devRef .tc main_arg8)) := (W2_keep V main_arg8 (by decide)).trans (W1_main_arg8 V)
theorem W2_main_arg9 (V : Valuation τ sig (Elt F)) : W2 V (no_index (Proc.devRef .tc main_arg9)) = (V (Proc.devRef .tc main_arg9)) := (W2_keep V main_arg9 (by decide)).trans (W1_main_arg9 V)
theorem W2_main_arg10 (V : Valuation τ sig (Elt F)) : W2 V (no_index (Proc.devRef .tc main_arg10)) = (V (Proc.devRef .tc main_arg10)) := (W2_keep V main_arg10 (by decide)).trans (W1_main_arg10 V)
theorem W2_main_arg11 (V : Valuation τ sig (Elt F)) : W2 V (no_index (Proc.devRef .tc main_arg11)) = (V (Proc.devRef .tc main_arg11)) := (W2_keep V main_arg11 (by decide)).trans (W1_main_arg11 V)
theorem W2_main_arg12 (V : Valuation τ sig (Elt F)) : W2 V (no_index (Proc.devRef .tc main_arg12)) = (V (Proc.devRef .tc main_arg12)) := (W2_keep V main_arg12 (by decide)).trans (W1_main_arg12 V)
theorem W2_main_arg13 (V : Valuation τ sig (Elt F)) : W2 V (no_index (Proc.devRef .tc main_arg13)) = (V (Proc.devRef .tc main_arg13)) := (W2_keep V main_arg13 (by decide)).trans (W1_main_arg13 V)
theorem W2_main_arg14 (V : Valuation τ sig (Elt F)) : W2 V (no_index (Proc.devRef .tc main_arg14)) = (V (Proc.devRef .tc main_arg14)) := (W2_keep V main_arg14 (by decide)).trans (W1_main_arg14 V)
theorem W2_main_arg15 (V : Valuation τ sig (Elt F)) : W2 V (no_index (Proc.devRef .tc main_arg15)) = (V (Proc.devRef .tc main_arg15)) := (W2_keep V main_arg15 (by decide)).trans (W1_main_arg15 V)
theorem W2_main_arg16 (V : Valuation τ sig (Elt F)) : W2 V (no_index (Proc.devRef .tc main_arg16)) = (V (Proc.devRef .tc main_arg16)) := (W2_keep V main_arg16 (by decide)).trans (W1_main_arg16 V)
theorem W2_main_arg17 (V : Valuation τ sig (Elt F)) : W2 V (no_index (Proc.devRef .tc main_arg17)) = (V (Proc.devRef .tc main_arg17)) := (W2_keep V main_arg17 (by decide)).trans (W1_main_arg17 V)
theorem W2_main_arg18 (V : Valuation τ sig (Elt F)) : W2 V (no_index (Proc.devRef .tc main_arg18)) = (V (Proc.devRef .tc main_arg18)) := (W2_keep V main_arg18 (by decide)).trans (W1_main_arg18 V)
theorem W2_main_arg19 (V : Valuation τ sig (Elt F)) : W2 V (no_index (Proc.devRef .tc main_arg19)) = (V (Proc.devRef .tc main_arg19)) := (W2_keep V main_arg19 (by decide)).trans (W1_main_arg19 V)
theorem W2_main_arg20 (V : Valuation τ sig (Elt F)) : W2 V (no_index (Proc.devRef .tc main_arg20)) = (V (Proc.devRef .tc main_arg20)) := (W2_keep V main_arg20 (by decide)).trans (W1_main_arg20 V)
theorem W2_main_arg21 (V : Valuation τ sig (Elt F)) : W2 V (no_index (Proc.devRef .tc main_arg21)) = (V (Proc.devRef .tc main_arg21)) := (W2_keep V main_arg21 (by decide)).trans (W1_main_arg21 V)
theorem W2_main_arg22 (V : Valuation τ sig (Elt F)) : W2 V (no_index (Proc.devRef .tc main_arg22)) = (V (Proc.devRef .tc main_arg22)) := (W2_keep V main_arg22 (by decide)).trans (W1_main_arg22 V)
theorem W2_main_arg23 (V : Valuation τ sig (Elt F)) : W2 V (no_index (Proc.devRef .tc main_arg23)) = (V (Proc.devRef .tc main_arg23)) := (W2_keep V main_arg23 (by decide)).trans (W1_main_arg23 V)
theorem W2_main_arg24 (V : Valuation τ sig (Elt F)) : W2 V (no_index (Proc.devRef .tc main_arg24)) = (V (Proc.devRef .tc main_arg24)) := (W2_keep V main_arg24 (by decide)).trans (W1_main_arg24 V)
theorem W2_main_arg25 (V : Valuation τ sig (Elt F)) : W2 V (no_index (Proc.devRef .tc main_arg25)) = (V (Proc.devRef .tc main_arg25)) := (W2_keep V main_arg25 (by decide)).trans (W1_main_arg25 V)
theorem W2_main_arg26 (V : Valuation τ sig (Elt F)) : W2 V (no_index (Proc.devRef .tc main_arg26)) = (V (Proc.devRef .tc main_arg26)) := (W2_keep V main_arg26 (by decide)).trans (W1_main_arg26 V)
theorem W2_main_v17 (V : Valuation τ sig (Elt F)) : W2 V (no_index (Proc.devRef .tc main_v17)) = Stages.xnR (V (Proc.devRef .tc main_arg0)) (V (Proc.devRef .tc main_arg6)) (V (Proc.devRef .tc main_arg7)) :=
  (W2_keep V main_v17 (by decide)).trans (W1_main_v17 V)

set_option maxRecDepth 8192 in
set_option maxHeartbeats 4000000 in
/-- Stretch 2's result buffer is the stage's function of what the stretch reads. -/
theorem W2_main_v30 (V : Valuation τ sig (Elt F)) : W2 V (no_index (Proc.devRef .tc main_v30)) = Stages.cutR (V (Proc.devRef .tc main_arg5)) := by
  unfold W2
  simp only [opsB]
  after_results_simp
  simp only [W1_main_arg5]
  rfl

/-- The buffer contents after the first 3 stretches. -/
def W3 (V : Valuation τ sig (Elt F)) : Valuation τ sig (Elt F) := after opsC (W2 V)

/-- A buffer stretch 3 does not write keeps its contents through it. -/
theorem W3_keep (V : Valuation τ sig (Elt F)) (r : Ref sig .tc) (h : r ∉ LC) :
    W3 V (Proc.devRef .tc r) = W2 V (Proc.devRef .tc r) :=
  after_of_writes_sub opsC _ opsC_writes h

theorem W3_main_arg0 (V : Valuation τ sig (Elt F)) : W3 V (no_index (Proc.devRef .tc main_arg0)) = (V (Proc.devRef .tc main_arg0)) := (W3_keep V main_arg0 (by decide)).trans (W2_main_arg0 V)
theorem W3_main_arg1 (V : Valuation τ sig (Elt F)) : W3 V (no_index (Proc.devRef .tc main_arg1)) = (V (Proc.devRef .tc main_arg1)) := (W3_keep V main_arg1 (by decide)).trans (W2_main_arg1 V)
theorem W3_main_arg2 (V : Valuation τ sig (Elt F)) : W3 V (no_index (Proc.devRef .tc main_arg2)) = (V (Proc.devRef .tc main_arg2)) := (W3_keep V main_arg2 (by decide)).trans (W2_main_arg2 V)
theorem W3_main_arg3 (V : Valuation τ sig (Elt F)) : W3 V (no_index (Proc.devRef .tc main_arg3)) = (V (Proc.devRef .tc main_arg3)) := (W3_keep V main_arg3 (by decide)).trans (W2_main_arg3 V)
theorem W3_main_arg4 (V : Valuation τ sig (Elt F)) : W3 V (no_index (Proc.devRef .tc main_arg4)) = (V (Proc.devRef .tc main_arg4)) := (W3_keep V main_arg4 (by decide)).trans (W2_main_arg4 V)
theorem W3_main_arg5 (V : Valuation τ sig (Elt F)) : W3 V (no_index (Proc.devRef .tc main_arg5)) = (V (Proc.devRef .tc main_arg5)) := (W3_keep V main_arg5 (by decide)).trans (W2_main_arg5 V)
theorem W3_main_arg6 (V : Valuation τ sig (Elt F)) : W3 V (no_index (Proc.devRef .tc main_arg6)) = (V (Proc.devRef .tc main_arg6)) := (W3_keep V main_arg6 (by decide)).trans (W2_main_arg6 V)
theorem W3_main_arg7 (V : Valuation τ sig (Elt F)) : W3 V (no_index (Proc.devRef .tc main_arg7)) = (V (Proc.devRef .tc main_arg7)) := (W3_keep V main_arg7 (by decide)).trans (W2_main_arg7 V)
theorem W3_main_arg8 (V : Valuation τ sig (Elt F)) : W3 V (no_index (Proc.devRef .tc main_arg8)) = (V (Proc.devRef .tc main_arg8)) := (W3_keep V main_arg8 (by decide)).trans (W2_main_arg8 V)
theorem W3_main_arg9 (V : Valuation τ sig (Elt F)) : W3 V (no_index (Proc.devRef .tc main_arg9)) = (V (Proc.devRef .tc main_arg9)) := (W3_keep V main_arg9 (by decide)).trans (W2_main_arg9 V)
theorem W3_main_arg10 (V : Valuation τ sig (Elt F)) : W3 V (no_index (Proc.devRef .tc main_arg10)) = (V (Proc.devRef .tc main_arg10)) := (W3_keep V main_arg10 (by decide)).trans (W2_main_arg10 V)
theorem W3_main_arg11 (V : Valuation τ sig (Elt F)) : W3 V (no_index (Proc.devRef .tc main_arg11)) = (V (Proc.devRef .tc main_arg11)) := (W3_keep V main_arg11 (by decide)).trans (W2_main_arg11 V)
theorem W3_main_arg12 (V : Valuation τ sig (Elt F)) : W3 V (no_index (Proc.devRef .tc main_arg12)) = (V (Proc.devRef .tc main_arg12)) := (W3_keep V main_arg12 (by decide)).trans (W2_main_arg12 V)
theorem W3_main_arg13 (V : Valuation τ sig (Elt F)) : W3 V (no_index (Proc.devRef .tc main_arg13)) = (V (Proc.devRef .tc main_arg13)) := (W3_keep V main_arg13 (by decide)).trans (W2_main_arg13 V)
theorem W3_main_arg14 (V : Valuation τ sig (Elt F)) : W3 V (no_index (Proc.devRef .tc main_arg14)) = (V (Proc.devRef .tc main_arg14)) := (W3_keep V main_arg14 (by decide)).trans (W2_main_arg14 V)
theorem W3_main_arg15 (V : Valuation τ sig (Elt F)) : W3 V (no_index (Proc.devRef .tc main_arg15)) = (V (Proc.devRef .tc main_arg15)) := (W3_keep V main_arg15 (by decide)).trans (W2_main_arg15 V)
theorem W3_main_arg16 (V : Valuation τ sig (Elt F)) : W3 V (no_index (Proc.devRef .tc main_arg16)) = (V (Proc.devRef .tc main_arg16)) := (W3_keep V main_arg16 (by decide)).trans (W2_main_arg16 V)
theorem W3_main_arg17 (V : Valuation τ sig (Elt F)) : W3 V (no_index (Proc.devRef .tc main_arg17)) = (V (Proc.devRef .tc main_arg17)) := (W3_keep V main_arg17 (by decide)).trans (W2_main_arg17 V)
theorem W3_main_arg18 (V : Valuation τ sig (Elt F)) : W3 V (no_index (Proc.devRef .tc main_arg18)) = (V (Proc.devRef .tc main_arg18)) := (W3_keep V main_arg18 (by decide)).trans (W2_main_arg18 V)
theorem W3_main_arg19 (V : Valuation τ sig (Elt F)) : W3 V (no_index (Proc.devRef .tc main_arg19)) = (V (Proc.devRef .tc main_arg19)) := (W3_keep V main_arg19 (by decide)).trans (W2_main_arg19 V)
theorem W3_main_arg20 (V : Valuation τ sig (Elt F)) : W3 V (no_index (Proc.devRef .tc main_arg20)) = (V (Proc.devRef .tc main_arg20)) := (W3_keep V main_arg20 (by decide)).trans (W2_main_arg20 V)
theorem W3_main_arg21 (V : Valuation τ sig (Elt F)) : W3 V (no_index (Proc.devRef .tc main_arg21)) = (V (Proc.devRef .tc main_arg21)) := (W3_keep V main_arg21 (by decide)).trans (W2_main_arg21 V)
theorem W3_main_arg22 (V : Valuation τ sig (Elt F)) : W3 V (no_index (Proc.devRef .tc main_arg22)) = (V (Proc.devRef .tc main_arg22)) := (W3_keep V main_arg22 (by decide)).trans (W2_main_arg22 V)
theorem W3_main_arg23 (V : Valuation τ sig (Elt F)) : W3 V (no_index (Proc.devRef .tc main_arg23)) = (V (Proc.devRef .tc main_arg23)) := (W3_keep V main_arg23 (by decide)).trans (W2_main_arg23 V)
theorem W3_main_arg24 (V : Valuation τ sig (Elt F)) : W3 V (no_index (Proc.devRef .tc main_arg24)) = (V (Proc.devRef .tc main_arg24)) := (W3_keep V main_arg24 (by decide)).trans (W2_main_arg24 V)
theorem W3_main_arg25 (V : Valuation τ sig (Elt F)) : W3 V (no_index (Proc.devRef .tc main_arg25)) = (V (Proc.devRef .tc main_arg25)) := (W3_keep V main_arg25 (by decide)).trans (W2_main_arg25 V)
theorem W3_main_arg26 (V : Valuation τ sig (Elt F)) : W3 V (no_index (Proc.devRef .tc main_arg26)) = (V (Proc.devRef .tc main_arg26)) := (W3_keep V main_arg26 (by decide)).trans (W2_main_arg26 V)
theorem W3_main_v17 (V : Valuation τ sig (Elt F)) : W3 V (no_index (Proc.devRef .tc main_v17)) = Stages.xnR (V (Proc.devRef .tc main_arg0)) (V (Proc.devRef .tc main_arg6)) (V (Proc.devRef .tc main_arg7)) :=
  (W3_keep V main_v17 (by decide)).trans (W2_main_v17 V)

set_option maxRecDepth 8192 in
set_option maxHeartbeats 4000000 in
/-- Stretch 3's result buffer is the stage's function of what the stretch reads. -/
theorem W3_main_v47 (V : Valuation τ sig (Elt F)) : W3 V (no_index (Proc.devRef .tc main_v47)) = Stages.ewR (V (Proc.devRef .tc main_arg4)) (Stages.cutR (V (Proc.devRef .tc main_arg5))) (V (Proc.devRef .tc main_arg14)) (V (Proc.devRef .tc main_arg15)) (V (Proc.devRef .tc main_arg16)) (V (Proc.devRef .tc main_arg17)) := by
  unfold W3
  simp only [opsC]
  after_results_simp
  simp only [W2_main_arg4, W2_main_v30, W2_main_arg14, W2_main_arg15, W2_main_arg16, W2_main_arg17]
  rfl

set_option maxRecDepth 8192 in
set_option maxHeartbeats 4000000 in
/-- Stretch 3's result buffer is the stage's function of what the stretch reads. -/
theorem W3_main_v48 (V : Valuation τ sig (Elt F)) : W3 V (no_index (Proc.devRef .tc main_v48)) = Host.dotGeneral dot_S640000x32_S32x128_S640000x128_1_0_0_1_n_n none (V (Proc.devRef .tc main_arg4)) (V (Proc.devRef .tc main_arg8)) := by
  unfold W3
  simp only [opsC]
  after_results_simp
  simp only [W2_main_arg4, W2_main_arg8]

/-- The buffer contents after the first 4 stretches. -/
def W4 (V : Valuation τ sig (Elt F)) : Valuation τ sig (Elt F) := after opsD (W3 V)

/-- A buffer stretch 4 does not write keeps its contents through it. -/
theorem W4_keep (V : Valuation τ sig (Elt F)) (r : Ref sig .tc) (h : r ∉ LD) :
    W4 V (Proc.devRef .tc r) = W3 V (Proc.devRef .tc r) :=
  after_of_writes_sub opsD _ opsD_writes h

theorem W4_main_arg0 (V : Valuation τ sig (Elt F)) : W4 V (no_index (Proc.devRef .tc main_arg0)) = (V (Proc.devRef .tc main_arg0)) := (W4_keep V main_arg0 (by decide)).trans (W3_main_arg0 V)
theorem W4_main_arg1 (V : Valuation τ sig (Elt F)) : W4 V (no_index (Proc.devRef .tc main_arg1)) = (V (Proc.devRef .tc main_arg1)) := (W4_keep V main_arg1 (by decide)).trans (W3_main_arg1 V)
theorem W4_main_arg2 (V : Valuation τ sig (Elt F)) : W4 V (no_index (Proc.devRef .tc main_arg2)) = (V (Proc.devRef .tc main_arg2)) := (W4_keep V main_arg2 (by decide)).trans (W3_main_arg2 V)
theorem W4_main_arg3 (V : Valuation τ sig (Elt F)) : W4 V (no_index (Proc.devRef .tc main_arg3)) = (V (Proc.devRef .tc main_arg3)) := (W4_keep V main_arg3 (by decide)).trans (W3_main_arg3 V)
theorem W4_main_arg4 (V : Valuation τ sig (Elt F)) : W4 V (no_index (Proc.devRef .tc main_arg4)) = (V (Proc.devRef .tc main_arg4)) := (W4_keep V main_arg4 (by decide)).trans (W3_main_arg4 V)
theorem W4_main_arg5 (V : Valuation τ sig (Elt F)) : W4 V (no_index (Proc.devRef .tc main_arg5)) = (V (Proc.devRef .tc main_arg5)) := (W4_keep V main_arg5 (by decide)).trans (W3_main_arg5 V)
theorem W4_main_arg6 (V : Valuation τ sig (Elt F)) : W4 V (no_index (Proc.devRef .tc main_arg6)) = (V (Proc.devRef .tc main_arg6)) := (W4_keep V main_arg6 (by decide)).trans (W3_main_arg6 V)
theorem W4_main_arg7 (V : Valuation τ sig (Elt F)) : W4 V (no_index (Proc.devRef .tc main_arg7)) = (V (Proc.devRef .tc main_arg7)) := (W4_keep V main_arg7 (by decide)).trans (W3_main_arg7 V)
theorem W4_main_arg8 (V : Valuation τ sig (Elt F)) : W4 V (no_index (Proc.devRef .tc main_arg8)) = (V (Proc.devRef .tc main_arg8)) := (W4_keep V main_arg8 (by decide)).trans (W3_main_arg8 V)
theorem W4_main_arg9 (V : Valuation τ sig (Elt F)) : W4 V (no_index (Proc.devRef .tc main_arg9)) = (V (Proc.devRef .tc main_arg9)) := (W4_keep V main_arg9 (by decide)).trans (W3_main_arg9 V)
theorem W4_main_arg10 (V : Valuation τ sig (Elt F)) : W4 V (no_index (Proc.devRef .tc main_arg10)) = (V (Proc.devRef .tc main_arg10)) := (W4_keep V main_arg10 (by decide)).trans (W3_main_arg10 V)
theorem W4_main_arg11 (V : Valuation τ sig (Elt F)) : W4 V (no_index (Proc.devRef .tc main_arg11)) = (V (Proc.devRef .tc main_arg11)) := (W4_keep V main_arg11 (by decide)).trans (W3_main_arg11 V)
theorem W4_main_arg12 (V : Valuation τ sig (Elt F)) : W4 V (no_index (Proc.devRef .tc main_arg12)) = (V (Proc.devRef .tc main_arg12)) := (W4_keep V main_arg12 (by decide)).trans (W3_main_arg12 V)
theorem W4_main_arg13 (V : Valuation τ sig (Elt F)) : W4 V (no_index (Proc.devRef .tc main_arg13)) = (V (Proc.devRef .tc main_arg13)) := (W4_keep V main_arg13 (by decide)).trans (W3_main_arg13 V)
theorem W4_main_arg14 (V : Valuation τ sig (Elt F)) : W4 V (no_index (Proc.devRef .tc main_arg14)) = (V (Proc.devRef .tc main_arg14)) := (W4_keep V main_arg14 (by decide)).trans (W3_main_arg14 V)
theorem W4_main_arg15 (V : Valuation τ sig (Elt F)) : W4 V (no_index (Proc.devRef .tc main_arg15)) = (V (Proc.devRef .tc main_arg15)) := (W4_keep V main_arg15 (by decide)).trans (W3_main_arg15 V)
theorem W4_main_arg16 (V : Valuation τ sig (Elt F)) : W4 V (no_index (Proc.devRef .tc main_arg16)) = (V (Proc.devRef .tc main_arg16)) := (W4_keep V main_arg16 (by decide)).trans (W3_main_arg16 V)
theorem W4_main_arg17 (V : Valuation τ sig (Elt F)) : W4 V (no_index (Proc.devRef .tc main_arg17)) = (V (Proc.devRef .tc main_arg17)) := (W4_keep V main_arg17 (by decide)).trans (W3_main_arg17 V)
theorem W4_main_arg18 (V : Valuation τ sig (Elt F)) : W4 V (no_index (Proc.devRef .tc main_arg18)) = (V (Proc.devRef .tc main_arg18)) := (W4_keep V main_arg18 (by decide)).trans (W3_main_arg18 V)
theorem W4_main_arg19 (V : Valuation τ sig (Elt F)) : W4 V (no_index (Proc.devRef .tc main_arg19)) = (V (Proc.devRef .tc main_arg19)) := (W4_keep V main_arg19 (by decide)).trans (W3_main_arg19 V)
theorem W4_main_arg20 (V : Valuation τ sig (Elt F)) : W4 V (no_index (Proc.devRef .tc main_arg20)) = (V (Proc.devRef .tc main_arg20)) := (W4_keep V main_arg20 (by decide)).trans (W3_main_arg20 V)
theorem W4_main_arg21 (V : Valuation τ sig (Elt F)) : W4 V (no_index (Proc.devRef .tc main_arg21)) = (V (Proc.devRef .tc main_arg21)) := (W4_keep V main_arg21 (by decide)).trans (W3_main_arg21 V)
theorem W4_main_arg22 (V : Valuation τ sig (Elt F)) : W4 V (no_index (Proc.devRef .tc main_arg22)) = (V (Proc.devRef .tc main_arg22)) := (W4_keep V main_arg22 (by decide)).trans (W3_main_arg22 V)
theorem W4_main_arg23 (V : Valuation τ sig (Elt F)) : W4 V (no_index (Proc.devRef .tc main_arg23)) = (V (Proc.devRef .tc main_arg23)) := (W4_keep V main_arg23 (by decide)).trans (W3_main_arg23 V)
theorem W4_main_arg24 (V : Valuation τ sig (Elt F)) : W4 V (no_index (Proc.devRef .tc main_arg24)) = (V (Proc.devRef .tc main_arg24)) := (W4_keep V main_arg24 (by decide)).trans (W3_main_arg24 V)
theorem W4_main_arg25 (V : Valuation τ sig (Elt F)) : W4 V (no_index (Proc.devRef .tc main_arg25)) = (V (Proc.devRef .tc main_arg25)) := (W4_keep V main_arg25 (by decide)).trans (W3_main_arg25 V)
theorem W4_main_arg26 (V : Valuation τ sig (Elt F)) : W4 V (no_index (Proc.devRef .tc main_arg26)) = (V (Proc.devRef .tc main_arg26)) := (W4_keep V main_arg26 (by decide)).trans (W3_main_arg26 V)
theorem W4_main_v17 (V : Valuation τ sig (Elt F)) : W4 V (no_index (Proc.devRef .tc main_v17)) = Stages.xnR (V (Proc.devRef .tc main_arg0)) (V (Proc.devRef .tc main_arg6)) (V (Proc.devRef .tc main_arg7)) :=
  (W4_keep V main_v17 (by decide)).trans (W3_main_v17 V)
theorem W4_main_v47 (V : Valuation τ sig (Elt F)) : W4 V (no_index (Proc.devRef .tc main_v47)) = Stages.ewR (V (Proc.devRef .tc main_arg4)) (Stages.cutR (V (Proc.devRef .tc main_arg5))) (V (Proc.devRef .tc main_arg14)) (V (Proc.devRef .tc main_arg15)) (V (Proc.devRef .tc main_arg16)) (V (Proc.devRef .tc main_arg17)) :=
  (W4_keep V main_v47 (by decide)).trans (W3_main_v47 V)

set_option maxRecDepth 8192 in
set_option maxHeartbeats 4000000 in
/-- Stretch 4's result buffer is the stage's function of what the stretch reads. -/
theorem W4_main_v61 (V : Valuation τ sig (Elt F)) : W4 V (no_index (Proc.devRef .tc main_v61)) = Stages.wradR (V (Proc.devRef .tc main_arg4)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  unfold W4
  simp only [opsD]
  after_results_simp
  simp only [W3_main_v48, W3_main_arg9, W3_main_arg10, W3_main_arg11, W3_main_arg12, W3_main_arg13]
  rfl

/-- The buffer contents after the first 5 stretches. -/
def W5 (V : Valuation τ sig (Elt F)) : Valuation τ sig (Elt F) := after opsE (W4 V)

/-- A buffer stretch 5 does not write keeps its contents through it. -/
theorem W5_keep (V : Valuation τ sig (Elt F)) (r : Ref sig .tc) (h : r ∉ LE) :
    W5 V (Proc.devRef .tc r) = W4 V (Proc.devRef .tc r) :=
  after_of_writes_sub opsE _ opsE_writes h

theorem W5_main_arg0 (V : Valuation τ sig (Elt F)) : W5 V (no_index (Proc.devRef .tc main_arg0)) = (V (Proc.devRef .tc main_arg0)) := (W5_keep V main_arg0 (by decide)).trans (W4_main_arg0 V)
theorem W5_main_arg1 (V : Valuation τ sig (Elt F)) : W5 V (no_index (Proc.devRef .tc main_arg1)) = (V (Proc.devRef .tc main_arg1)) := (W5_keep V main_arg1 (by decide)).trans (W4_main_arg1 V)
theorem W5_main_arg2 (V : Valuation τ sig (Elt F)) : W5 V (no_index (Proc.devRef .tc main_arg2)) = (V (Proc.devRef .tc main_arg2)) := (W5_keep V main_arg2 (by decide)).trans (W4_main_arg2 V)
theorem W5_main_arg3 (V : Valuation τ sig (Elt F)) : W5 V (no_index (Proc.devRef .tc main_arg3)) = (V (Proc.devRef .tc main_arg3)) := (W5_keep V main_arg3 (by decide)).trans (W4_main_arg3 V)
theorem W5_main_arg4 (V : Valuation τ sig (Elt F)) : W5 V (no_index (Proc.devRef .tc main_arg4)) = (V (Proc.devRef .tc main_arg4)) := (W5_keep V main_arg4 (by decide)).trans (W4_main_arg4 V)
theorem W5_main_arg5 (V : Valuation τ sig (Elt F)) : W5 V (no_index (Proc.devRef .tc main_arg5)) = (V (Proc.devRef .tc main_arg5)) := (W5_keep V main_arg5 (by decide)).trans (W4_main_arg5 V)
theorem W5_main_arg6 (V : Valuation τ sig (Elt F)) : W5 V (no_index (Proc.devRef .tc main_arg6)) = (V (Proc.devRef .tc main_arg6)) := (W5_keep V main_arg6 (by decide)).trans (W4_main_arg6 V)
theorem W5_main_arg7 (V : Valuation τ sig (Elt F)) : W5 V (no_index (Proc.devRef .tc main_arg7)) = (V (Proc.devRef .tc main_arg7)) := (W5_keep V main_arg7 (by decide)).trans (W4_main_arg7 V)
theorem W5_main_arg8 (V : Valuation τ sig (Elt F)) : W5 V (no_index (Proc.devRef .tc main_arg8)) = (V (Proc.devRef .tc main_arg8)) := (W5_keep V main_arg8 (by decide)).trans (W4_main_arg8 V)
theorem W5_main_arg9 (V : Valuation τ sig (Elt F)) : W5 V (no_index (Proc.devRef .tc main_arg9)) = (V (Proc.devRef .tc main_arg9)) := (W5_keep V main_arg9 (by decide)).trans (W4_main_arg9 V)
theorem W5_main_arg10 (V : Valuation τ sig (Elt F)) : W5 V (no_index (Proc.devRef .tc main_arg10)) = (V (Proc.devRef .tc main_arg10)) := (W5_keep V main_arg10 (by decide)).trans (W4_main_arg10 V)
theorem W5_main_arg11 (V : Valuation τ sig (Elt F)) : W5 V (no_index (Proc.devRef .tc main_arg11)) = (V (Proc.devRef .tc main_arg11)) := (W5_keep V main_arg11 (by decide)).trans (W4_main_arg11 V)
theorem W5_main_arg12 (V : Valuation τ sig (Elt F)) : W5 V (no_index (Proc.devRef .tc main_arg12)) = (V (Proc.devRef .tc main_arg12)) := (W5_keep V main_arg12 (by decide)).trans (W4_main_arg12 V)
theorem W5_main_arg13 (V : Valuation τ sig (Elt F)) : W5 V (no_index (Proc.devRef .tc main_arg13)) = (V (Proc.devRef .tc main_arg13)) := (W5_keep V main_arg13 (by decide)).trans (W4_main_arg13 V)
theorem W5_main_arg14 (V : Valuation τ sig (Elt F)) : W5 V (no_index (Proc.devRef .tc main_arg14)) = (V (Proc.devRef .tc main_arg14)) := (W5_keep V main_arg14 (by decide)).trans (W4_main_arg14 V)
theorem W5_main_arg15 (V : Valuation τ sig (Elt F)) : W5 V (no_index (Proc.devRef .tc main_arg15)) = (V (Proc.devRef .tc main_arg15)) := (W5_keep V main_arg15 (by decide)).trans (W4_main_arg15 V)
theorem W5_main_arg16 (V : Valuation τ sig (Elt F)) : W5 V (no_index (Proc.devRef .tc main_arg16)) = (V (Proc.devRef .tc main_arg16)) := (W5_keep V main_arg16 (by decide)).trans (W4_main_arg16 V)
theorem W5_main_arg17 (V : Valuation τ sig (Elt F)) : W5 V (no_index (Proc.devRef .tc main_arg17)) = (V (Proc.devRef .tc main_arg17)) := (W5_keep V main_arg17 (by decide)).trans (W4_main_arg17 V)
theorem W5_main_arg18 (V : Valuation τ sig (Elt F)) : W5 V (no_index (Proc.devRef .tc main_arg18)) = (V (Proc.devRef .tc main_arg18)) := (W5_keep V main_arg18 (by decide)).trans (W4_main_arg18 V)
theorem W5_main_arg19 (V : Valuation τ sig (Elt F)) : W5 V (no_index (Proc.devRef .tc main_arg19)) = (V (Proc.devRef .tc main_arg19)) := (W5_keep V main_arg19 (by decide)).trans (W4_main_arg19 V)
theorem W5_main_arg20 (V : Valuation τ sig (Elt F)) : W5 V (no_index (Proc.devRef .tc main_arg20)) = (V (Proc.devRef .tc main_arg20)) := (W5_keep V main_arg20 (by decide)).trans (W4_main_arg20 V)
theorem W5_main_arg21 (V : Valuation τ sig (Elt F)) : W5 V (no_index (Proc.devRef .tc main_arg21)) = (V (Proc.devRef .tc main_arg21)) := (W5_keep V main_arg21 (by decide)).trans (W4_main_arg21 V)
theorem W5_main_arg22 (V : Valuation τ sig (Elt F)) : W5 V (no_index (Proc.devRef .tc main_arg22)) = (V (Proc.devRef .tc main_arg22)) := (W5_keep V main_arg22 (by decide)).trans (W4_main_arg22 V)
theorem W5_main_arg23 (V : Valuation τ sig (Elt F)) : W5 V (no_index (Proc.devRef .tc main_arg23)) = (V (Proc.devRef .tc main_arg23)) := (W5_keep V main_arg23 (by decide)).trans (W4_main_arg23 V)
theorem W5_main_arg24 (V : Valuation τ sig (Elt F)) : W5 V (no_index (Proc.devRef .tc main_arg24)) = (V (Proc.devRef .tc main_arg24)) := (W5_keep V main_arg24 (by decide)).trans (W4_main_arg24 V)
theorem W5_main_arg25 (V : Valuation τ sig (Elt F)) : W5 V (no_index (Proc.devRef .tc main_arg25)) = (V (Proc.devRef .tc main_arg25)) := (W5_keep V main_arg25 (by decide)).trans (W4_main_arg25 V)
theorem W5_main_arg26 (V : Valuation τ sig (Elt F)) : W5 V (no_index (Proc.devRef .tc main_arg26)) = (V (Proc.devRef .tc main_arg26)) := (W5_keep V main_arg26 (by decide)).trans (W4_main_arg26 V)
theorem W5_main_v17 (V : Valuation τ sig (Elt F)) : W5 V (no_index (Proc.devRef .tc main_v17)) = Stages.xnR (V (Proc.devRef .tc main_arg0)) (V (Proc.devRef .tc main_arg6)) (V (Proc.devRef .tc main_arg7)) :=
  (W5_keep V main_v17 (by decide)).trans (W4_main_v17 V)

set_option maxRecDepth 8192 in
set_option maxHeartbeats 4000000 in
/-- Stretch 5's result buffer is the stage's function of what the stretch reads. -/
theorem W5_main_v81 (V : Valuation τ sig (Elt F)) : W5 V (no_index (Proc.devRef .tc main_v81)) = Stages.aggR (Stages.msgR (Host.gather gather_S20000x128_S640000x1_S640000x128_1_0_n_n_0_1_1128 (Stages.xnR (V (Proc.devRef .tc main_arg0)) (V (Proc.devRef .tc main_arg6)) (V (Proc.devRef .tc main_arg7))) (Stages.idxR (V (Proc.devRef .tc main_arg1)))) (Stages.wradR (V (Proc.devRef .tc main_arg4)) (V (Proc.devRef .tc main_arg8)) (V (Proc.devRef .tc main_arg9)) (V (Proc.devRef .tc main_arg10)) (V (Proc.devRef .tc main_arg11)) (V (Proc.devRef .tc main_arg12)) (V (Proc.devRef .tc main_arg13))) (Stages.ewR (V (Proc.devRef .tc main_arg4)) (Stages.cutR (V (Proc.devRef .tc main_arg5))) (V (Proc.devRef .tc main_arg14)) (V (Proc.devRef .tc main_arg15)) (V (Proc.devRef .tc main_arg16)) (V (Proc.devRef .tc main_arg17)))) (Stages.ewR (V (Proc.devRef .tc main_arg4)) (Stages.cutR (V (Proc.devRef .tc main_arg5))) (V (Proc.devRef .tc main_arg14)) (V (Proc.devRef .tc main_arg15)) (V (Proc.devRef .tc main_arg16)) (V (Proc.devRef .tc main_arg17))) (V (Proc.devRef .tc main_arg2)) := by
  unfold W5
  simp only [opsE]
  after_results_simp
  simp only [W4_main_arg1, W4_main_v17, W4_main_v61, W4_main_v47, W4_main_arg2]
  rfl

/-- The buffer contents after the first 6 stretches. -/
def W6 (V : Valuation τ sig (Elt F)) : Valuation τ sig (Elt F) := after opsF (W5 V)

/-- A buffer stretch 6 does not write keeps its contents through it. -/
theorem W6_keep (V : Valuation τ sig (Elt F)) (r : Ref sig .tc) (h : r ∉ LF) :
    W6 V (Proc.devRef .tc r) = W5 V (Proc.devRef .tc r) :=
  after_of_writes_sub opsF _ opsF_writes h

theorem W6_main_arg0 (V : Valuation τ sig (Elt F)) : W6 V (no_index (Proc.devRef .tc main_arg0)) = (V (Proc.devRef .tc main_arg0)) := (W6_keep V main_arg0 (by decide)).trans (W5_main_arg0 V)
theorem W6_main_arg1 (V : Valuation τ sig (Elt F)) : W6 V (no_index (Proc.devRef .tc main_arg1)) = (V (Proc.devRef .tc main_arg1)) := (W6_keep V main_arg1 (by decide)).trans (W5_main_arg1 V)
theorem W6_main_arg2 (V : Valuation τ sig (Elt F)) : W6 V (no_index (Proc.devRef .tc main_arg2)) = (V (Proc.devRef .tc main_arg2)) := (W6_keep V main_arg2 (by decide)).trans (W5_main_arg2 V)
theorem W6_main_arg3 (V : Valuation τ sig (Elt F)) : W6 V (no_index (Proc.devRef .tc main_arg3)) = (V (Proc.devRef .tc main_arg3)) := (W6_keep V main_arg3 (by decide)).trans (W5_main_arg3 V)
theorem W6_main_arg4 (V : Valuation τ sig (Elt F)) : W6 V (no_index (Proc.devRef .tc main_arg4)) = (V (Proc.devRef .tc main_arg4)) := (W6_keep V main_arg4 (by decide)).trans (W5_main_arg4 V)
theorem W6_main_arg5 (V : Valuation τ sig (Elt F)) : W6 V (no_index (Proc.devRef .tc main_arg5)) = (V (Proc.devRef .tc main_arg5)) := (W6_keep V main_arg5 (by decide)).trans (W5_main_arg5 V)
theorem W6_main_arg6 (V : Valuation τ sig (Elt F)) : W6 V (no_index (Proc.devRef .tc main_arg6)) = (V (Proc.devRef .tc main_arg6)) := (W6_keep V main_arg6 (by decide)).trans (W5_main_arg6 V)
theorem W6_main_arg7 (V : Valuation τ sig (Elt F)) : W6 V (no_index (Proc.devRef .tc main_arg7)) = (V (Proc.devRef .tc main_arg7)) := (W6_keep V main_arg7 (by decide)).trans (W5_main_arg7 V)
theorem W6_main_arg8 (V : Valuation τ sig (Elt F)) : W6 V (no_index (Proc.devRef .tc main_arg8)) = (V (Proc.devRef .tc main_arg8)) := (W6_keep V main_arg8 (by decide)).trans (W5_main_arg8 V)
theorem W6_main_arg9 (V : Valuation τ sig (Elt F)) : W6 V (no_index (Proc.devRef .tc main_arg9)) = (V (Proc.devRef .tc main_arg9)) := (W6_keep V main_arg9 (by decide)).trans (W5_main_arg9 V)
theorem W6_main_arg10 (V : Valuation τ sig (Elt F)) : W6 V (no_index (Proc.devRef .tc main_arg10)) = (V (Proc.devRef .tc main_arg10)) := (W6_keep V main_arg10 (by decide)).trans (W5_main_arg10 V)
theorem W6_main_arg11 (V : Valuation τ sig (Elt F)) : W6 V (no_index (Proc.devRef .tc main_arg11)) = (V (Proc.devRef .tc main_arg11)) := (W6_keep V main_arg11 (by decide)).trans (W5_main_arg11 V)
theorem W6_main_arg12 (V : Valuation τ sig (Elt F)) : W6 V (no_index (Proc.devRef .tc main_arg12)) = (V (Proc.devRef .tc main_arg12)) := (W6_keep V main_arg12 (by decide)).trans (W5_main_arg12 V)
theorem W6_main_arg13 (V : Valuation τ sig (Elt F)) : W6 V (no_index (Proc.devRef .tc main_arg13)) = (V (Proc.devRef .tc main_arg13)) := (W6_keep V main_arg13 (by decide)).trans (W5_main_arg13 V)
theorem W6_main_arg14 (V : Valuation τ sig (Elt F)) : W6 V (no_index (Proc.devRef .tc main_arg14)) = (V (Proc.devRef .tc main_arg14)) := (W6_keep V main_arg14 (by decide)).trans (W5_main_arg14 V)
theorem W6_main_arg15 (V : Valuation τ sig (Elt F)) : W6 V (no_index (Proc.devRef .tc main_arg15)) = (V (Proc.devRef .tc main_arg15)) := (W6_keep V main_arg15 (by decide)).trans (W5_main_arg15 V)
theorem W6_main_arg16 (V : Valuation τ sig (Elt F)) : W6 V (no_index (Proc.devRef .tc main_arg16)) = (V (Proc.devRef .tc main_arg16)) := (W6_keep V main_arg16 (by decide)).trans (W5_main_arg16 V)
theorem W6_main_arg17 (V : Valuation τ sig (Elt F)) : W6 V (no_index (Proc.devRef .tc main_arg17)) = (V (Proc.devRef .tc main_arg17)) := (W6_keep V main_arg17 (by decide)).trans (W5_main_arg17 V)
theorem W6_main_arg18 (V : Valuation τ sig (Elt F)) : W6 V (no_index (Proc.devRef .tc main_arg18)) = (V (Proc.devRef .tc main_arg18)) := (W6_keep V main_arg18 (by decide)).trans (W5_main_arg18 V)
theorem W6_main_arg19 (V : Valuation τ sig (Elt F)) : W6 V (no_index (Proc.devRef .tc main_arg19)) = (V (Proc.devRef .tc main_arg19)) := (W6_keep V main_arg19 (by decide)).trans (W5_main_arg19 V)
theorem W6_main_arg20 (V : Valuation τ sig (Elt F)) : W6 V (no_index (Proc.devRef .tc main_arg20)) = (V (Proc.devRef .tc main_arg20)) := (W6_keep V main_arg20 (by decide)).trans (W5_main_arg20 V)
theorem W6_main_arg21 (V : Valuation τ sig (Elt F)) : W6 V (no_index (Proc.devRef .tc main_arg21)) = (V (Proc.devRef .tc main_arg21)) := (W6_keep V main_arg21 (by decide)).trans (W5_main_arg21 V)
theorem W6_main_arg22 (V : Valuation τ sig (Elt F)) : W6 V (no_index (Proc.devRef .tc main_arg22)) = (V (Proc.devRef .tc main_arg22)) := (W6_keep V main_arg22 (by decide)).trans (W5_main_arg22 V)
theorem W6_main_arg23 (V : Valuation τ sig (Elt F)) : W6 V (no_index (Proc.devRef .tc main_arg23)) = (V (Proc.devRef .tc main_arg23)) := (W6_keep V main_arg23 (by decide)).trans (W5_main_arg23 V)
theorem W6_main_arg24 (V : Valuation τ sig (Elt F)) : W6 V (no_index (Proc.devRef .tc main_arg24)) = (V (Proc.devRef .tc main_arg24)) := (W6_keep V main_arg24 (by decide)).trans (W5_main_arg24 V)
theorem W6_main_arg25 (V : Valuation τ sig (Elt F)) : W6 V (no_index (Proc.devRef .tc main_arg25)) = (V (Proc.devRef .tc main_arg25)) := (W6_keep V main_arg25 (by decide)).trans (W5_main_arg25 V)
theorem W6_main_arg26 (V : Valuation τ sig (Elt F)) : W6 V (no_index (Proc.devRef .tc main_arg26)) = (V (Proc.devRef .tc main_arg26)) := (W6_keep V main_arg26 (by decide)).trans (W5_main_arg26 V)

set_option maxRecDepth 8192 in
set_option maxHeartbeats 4000000 in
/-- Stretch 6's result buffer is the stage's function of what the stretch reads. -/
theorem W6_main_v102 (V : Valuation τ sig (Elt F)) : W6 V (no_index (Proc.devRef .tc main_v102)) = Stages.resR (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) := by
  unfold W6
  simp only [opsF]
  after_results_simp
  simp only [W5_main_arg0, W5_main_v17, W5_main_v81, W5_main_arg18, W5_main_arg19, W5_main_arg20, W5_main_arg21, W5_main_arg22, W5_main_arg23, W5_main_arg24, W5_main_arg25, W5_main_arg26]
  rfl

/-- The whole line's fold is the six stretches' folds in order. -/
theorem after_ops (V : Valuation τ sig (Elt F)) : after ops V = W6 V := by
  simp only [ops, after_append]
  rfl

/-- On every device, for any float values, from any memory with zero counters: every weakly fair execution of
    the program terminates with the result buffer at the stages' composition over the argument arrays and the
    argument buffers unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v102) = Stages.resR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun _ h c => ⟨(h c main_v102).trans ((congrFun (after_ops _) _).trans (W6_main_v102 _)),
      (h c main_arg0).trans ((congrFun (after_ops _) _).trans (W6_main_arg0 _)),
      (h c main_arg1).trans ((congrFun (after_ops _) _).trans (W6_main_arg1 _)),
      (h c main_arg2).trans ((congrFun (after_ops _) _).trans (W6_main_arg2 _)),
      (h c main_arg3).trans ((congrFun (after_ops _) _).trans (W6_main_arg3 _)),
      (h c main_arg4).trans ((congrFun (after_ops _) _).trans (W6_main_arg4 _)),
      (h c main_arg5).trans ((congrFun (after_ops _) _).trans (W6_main_arg5 _)),
      (h c main_arg6).trans ((congrFun (after_ops _) _).trans (W6_main_arg6 _)),
      (h c main_arg7).trans ((congrFun (after_ops _) _).trans (W6_main_arg7 _)),
      (h c main_arg8).trans ((congrFun (after_ops _) _).trans (W6_main_arg8 _)),
      (h c main_arg9).trans ((congrFun (after_ops _) _).trans (W6_main_arg9 _)),
      (h c main_arg10).trans ((congrFun (after_ops _) _).trans (W6_main_arg10 _)),
      (h c main_arg11).trans ((congrFun (after_ops _) _).trans (W6_main_arg11 _)),
      (h c main_arg12).trans ((congrFun (after_ops _) _).trans (W6_main_arg12 _)),
      (h c main_arg13).trans ((congrFun (after_ops _) _).trans (W6_main_arg13 _)),
      (h c main_arg14).trans ((congrFun (after_ops _) _).trans (W6_main_arg14 _)),
      (h c main_arg15).trans ((congrFun (after_ops _) _).trans (W6_main_arg15 _)),
      (h c main_arg16).trans ((congrFun (after_ops _) _).trans (W6_main_arg16 _)),
      (h c main_arg17).trans ((congrFun (after_ops _) _).trans (W6_main_arg17 _)),
      (h c main_arg18).trans ((congrFun (after_ops _) _).trans (W6_main_arg18 _)),
      (h c main_arg19).trans ((congrFun (after_ops _) _).trans (W6_main_arg19 _)),
      (h c main_arg20).trans ((congrFun (after_ops _) _).trans (W6_main_arg20 _)),
      (h c main_arg21).trans ((congrFun (after_ops _) _).trans (W6_main_arg21 _)),
      (h c main_arg22).trans ((congrFun (after_ops _) _).trans (W6_main_arg22 _)),
      (h c main_arg23).trans ((congrFun (after_ops _) _).trans (W6_main_arg23 _)),
      (h c main_arg24).trans ((congrFun (after_ops _) _).trans (W6_main_arg24 _)),
      (h c main_arg25).trans ((congrFun (after_ops _) _).trans (W6_main_arg25 _)),
      (h c main_arg26).trans ((congrFun (after_ops _) _).trans (W6_main_arg26 _))⟩)
    (run_seq scopedRefs_eq scopedSems_eq defs main (fun _ => ops) main_eq (fun _ => ops_sub) m ρ (fun _ => ops_fresh))

end Cert.ReferenceIdeal.RunHand

end
-- ==== Proof.PreRange.lean ====
import proofs.«408722_j80805514707436_1_alg».proof.Proof.Gen.Pre_finite_inputs
import Idealize.ShloMosaic.Lib.ReduceAll
import Idealize.ShloMosaic.Lib.ValueIdx
import Idealize.ShloMosaic.Lib.StableHlo.Predicate

noncomputable section

namespace Cert.PreRange

open Idealize.ShloMosaic Idealize.ShloMosaic.ValueIdx Cert.Pre_finite_inputs Cert.Pre_finite_inputs.Facts

/-- The shape of scalars has exactly one index. -/
private instance : Subsingleton S_.Idx := ⟨fun a b => funext fun d => d.elim0⟩

/-- The last block of the precondition: its value is the conjunction of everything before it with the
    test "all source indices are ≥ -20000 and < 20000 (signed)". Where the whole is 1, that last test is 1;
    an all-reduction by "and" that is 1 met a 1 at every index; a conjunction that is 1 has both sides 1;
    and a signed comparison that is 1 orders the signed values of its operands. The compared array is a
    broadcast scalar constant, which reads as that constant everywhere. -/
private theorem part7_range (a1 : IVec S640000 32) (v118 : IVec S_ 1) (v119 : FVec Ideal S_ .f32)
    (h : fn_part7 (F := Ideal) a1 v118 v119 ix0 = 1#1) (i : S640000.Idx) :
    (-20000 : Int) ≤ (a1 i).toInt ∧ (a1 i).toInt < 20000 := by
  unfold fn_part7 at h
  dsimp only at h
  have h2 := (IntOp.andi_eq_one.1 h).2
  have h3 := Host.reduce_andi_all _ _ _ _ _ h2 i
  obtain ⟨hge, hlt⟩ := IntOp.andi_eq_one.1 h3
  have hge' : (4294947296#32 : BitVec 32).toInt ≤ (a1 i).toInt := IntOp.cmpi_sge.1 hge
  have hlt' : (a1 i).toInt < (20000#32 : BitVec 32).toInt := IntOp.cmpi_slt.1 hlt
  have c1 : (4294947296#32 : BitVec 32).toInt = -20000 := by decide
  have c2 : (20000#32 : BitVec 32).toInt = 20000 := by decide
  rw [c1] at hge'
  rw [c2] at hlt'
  exact ⟨hge', hlt'⟩

/-- Under the precondition every source index lies in [-20000, 20000): the range in which indexing a
    20000-row table is defined (negative indices counting from the end). -/
theorem src_range (a0 : FVec Ideal S20000x128 .f32) (a1 a2 : IVec S640000 32) (a3 : FVec Ideal S640000x16 .f32) (a4 : FVec Ideal S640000x32 .f32) (a5 : FVec Ideal S640000 .f32)
    (a6 a7 : FVec Ideal S128 .f32) (a8 : FVec Ideal S32x128 .f32) (a9 : FVec Ideal S128 .f32) (a10 : FVec Ideal S128x128 .f32)
    (a11 : FVec Ideal S128 .f32) (a12 : FVec Ideal S128x128 .f32) (a13 : FVec Ideal S128 .f32) (a14 : FVec Ideal S32x128 .f32)
    (a15 : FVec Ideal S128 .f32) (a16 : FVec Ideal S128x1 .f32) (a17 : FVec Ideal S1 .f32) (a18 : FVec Ideal S128x128 .f32)
    (a19 : FVec Ideal S128 .f32) (a20 : FVec Ideal S128x128 .f32) (a21 : FVec Ideal S128 .f32) (a22 : FVec Ideal S128x128 .f32)
    (a23 : FVec Ideal S128 .f32) (a24 : FVec Ideal S128x128 .f32) (a25 : FVec Ideal S128 .f32) (a26 : FVec Ideal S_ .f32)
    (h : Cert.Pre_finite_inputs.fn (F := Ideal) a0 a1 a2 a3 a4 a5 a6 a7 a8 a9 a10 a11 a12 a13 a14 a15 a16 a17 a18 a19 a20 a21 a22 a23 a24 a25 a26 = fun _ => 1#1) :
    ∀ i : S640000.Idx, (-20000 : Int) ≤ (a1 i).toInt ∧ (a1 i).toInt < 20000 := by
  intro i
  exact part7_range a1 _ _ (congrFun h ix0) i

end Cert.PreRange

end
-- ==== Proof.KTake.lean ====
import proofs.«408722_j80805514707436_1_alg».proof.Proof.KStages
import Idealize.ShloMosaic.Lib.ReduceAll
import Idealize.ShloMosaic.Lib.StableHlo.Predicate

noncomputable section

namespace Cert.KernelIdeal.Take

open Idealize.ShloMosaic Idealize.ShloMosaic.ValueIdx Cert.KernelIdeal Cert.KernelIdeal.Facts₀ Cert.KernelIdeal.Facts Cert.KernelIdeal.Stages

/-- One source index with a negative value wrapped by 20000. -/
private def wrap (w : BitVec 32) : BitVec 32 :=
  Scalar.select (IntOp.cmpi .slt w 0#32) (IntOp.addi w 20000#32) w

/-- Adding 20000 to a 32-bit word whose signed value lies in [-20000, 0) does not overflow. -/
private theorem toInt_add_wrap (w : BitVec 32) (h1 : (-20000 : Int) ≤ w.toInt) (hn : w.toInt < 0) :
    (w + 20000#32).toInt = w.toInt + 20000 := by
  simp only [BitVec.toInt_eq_toNat_cond, BitVec.toNat_add, BitVec.toNat_ofNat] at *
  omega

/-- A word whose signed value lies in [-20000, 20000) wraps into [0, 19999]: a negative one is moved up by
    20000 (no overflow), a nonnegative one is kept. Both range tests of the wrapped word are therefore 1. -/
private theorem wrap_range (w : BitVec 32) (h1 : (-20000 : Int) ≤ w.toInt) (h2 : w.toInt < 20000) :
    IntOp.andi (IntOp.cmpi .sge (wrap w) 0#32) (IntOp.cmpi .sle (wrap w) 19999#32) = 1#1 := by
  rw [IntOp.andi_eq_one, IntOp.cmpi_sge, IntOp.cmpi_sle]
  have z : (0#32 : BitVec 32).toInt = 0 := by decide
  have c : (19999#32 : BitVec 32).toInt = 19999 := by decide
  rw [z, c]
  by_cases hn : w.toInt < 0
  · have hc : IntOp.cmpi .slt w 0#32 = 1#1 := IntOp.cmpi_slt.2 (by rw [z]; exact hn)
    have hv : wrap w = w + 20000#32 := by unfold wrap; rw [hc]; exact select_one _ _
    rw [hv, toInt_add_wrap w h1 hn]; omega
  · have hc : IntOp.cmpi .slt w 0#32 = 0#1 :=
      eq_zero_of_ne_one (fun e => hn (by have := IntOp.cmpi_slt.1 e; rwa [z] at this))
    have hv : wrap w = w := by unfold wrap; rw [hc]; exact select_zero _ _
    rw [hv]; omega

/-- A left fold by "and" from 1 over words that are all 1 is 1. -/
private theorem foldl_andi_one {ι : Type} (f : ι → BitVec 1) (hf : ∀ n, f n = 1#1) (l : List ι) :
    l.foldl (fun r n => IntOp.andi r (f n)) 1#1 = 1#1 := by
  induction l with
  | nil => rfl
  | cons a l ih =>
    have e : IntOp.andi (1#1) (1#1) = 1#1 := by decide
    rw [List.foldl_cons, hf a, e]; exact ih

/-- A reduction by "and" from the initial word 1 of an array whose every entry is 1 is 1 at every index. -/
private theorem reduce_andi_one {s t u : Shape} {axes : List (Fin s.rank)} (x : s.Idx → BitVec 1)
    (init : u.Idx → BitVec 1) (h : s.ReducesTo axes t) (hu : 0 < u.numel) (j : t.Idx)
    (hi : init (Shape.Idx.first hu) = 1#1) (hx : ∀ i, x i = 1#1) :
    Host.reduce IntOp.andi x init h hu j = 1#1 := by
  rw [Host.reduce_eq_foldl, hi]
  exact foldl_andi_one x hx _

/-- Every entry of the column of wrapped indices is the wrap of one of the source indices
    (a select, a comparison and a sum read pointwise; a broadcast constant reads as the constant). -/
private theorem idxK_apply (src : IVec S640000 32) (k : S640000x1.Idx) :
    ∃ e : S640000.Idx, idxK src k = wrap (src e) := ⟨_, rfl⟩

/-- Under the range hypothesis the in-range mask of the wrapped indices is 1 at every edge. -/
private theorem mask_one (src : IVec S640000 32)
    (h : ∀ i : S640000.Idx, (-20000 : Int) ≤ (src i).toInt ∧ (src i).toInt < 20000) (e : S640000.Idx) :
    maskK (idxK src) e = 1#1 := by
  unfold maskK
  refine reduce_andi_one _ _ _ _ _ rfl ?_
  intro k
  obtain ⟨e', he⟩ := idxK_apply src k
  show IntOp.andi (IntOp.cmpi .sge (idxK src k) 0#32) (IntOp.cmpi .sle (idxK src k) 19999#32) = 1#1
  rw [he]
  exact wrap_range _ (h e').1 (h e').2

/-- A broadcast of an array of bits that are all 1 reads 1 everywhere: each of its entries is an entry of the array. -/
private theorem bcast_one {s t : Shape} (dims : Fin s.rank → Fin t.rank) (hb : s.BroadcastsInDim t dims)
    (m : s.Idx → BitVec 1) (hm : ∀ e, m e = 1#1) (j : t.Idx) : broadcastInDim t dims hb m j = 1#1 := hm _

/-- Where every source index lies in [-20000, 20000) its wrapped value lies in [0, 19999], so the
    fill-mode lookup never fills: it is the plain row lookup at the wrapped indices. -/
theorem takeK_eq_gather (xn : FVec Ideal S20000x128 .f32) (src : IVec S640000 32)
    (h : ∀ i : S640000.Idx, (-20000 : Int) ≤ (src i).toInt ∧ (src i).toInt < 20000) :
    takeK (F := Ideal) xn src = Host.gather gather_S20000x128_S640000x1_S640000x128_1_0_n_n_0_1_1128 xn (idxK src) := by
  funext j
  unfold takeK
  rw [select_apply, bcast_one _ _ (maskK (idxK src)) (mask_one src h) j]
  exact select_one _ _

end Cert.KernelIdeal.Take

end
-- ==== Proof.RReadLn.lean ====
import proofs.«408722_j80805514707436_1_alg».proof.Proof.Gen.ReferenceIdeal
import proofs.«408722_j80805514707436_1_alg».proof.Proof.RStages
import proofs.«408722_j80805514707436_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.ReadLn

open Idealize.ShloMosaic Idealize.ShloMosaic.ValueIdx Cert.ReferenceIdeal Cert.ReferenceIdeal.Facts₀ Cert.ReferenceIdeal.Facts Cert.ReferenceIdeal.Stages

open scoped BigOperators

/-- A sum along the second axis of a [20000, 128] array, read at row p: the initial value plus the sum of the row's
    128 entries. -/
private theorem rowSum_apply (x : FVec Ideal S20000x128 .f32) (init : S_.Idx → Ideal .f32)
    (h' : S20000x128.ReducesTo [1] S20000) (hu : 0 < S_.numel) (p : Fin 20000) :
    Host.reduceAdd x init h' hu (ix1 p) = init (Shape.Idx.first hu) + ∑ k : Fin 128, x (ix2 p k) := by
  have h : S20000x128.Reduces [1] S20000 := by decide
  show Ideal.hostReduceAdd h' x (init (Shape.Idx.first hu)) (ix1 p) = _
  rw [Ideal.hostReduceAdd_single h' h]
  refine congrArg (init (Shape.Idx.first hu) + ·) ?_
  refine Finset.sum_congr rfl fun k _ => congrArg x ?_
  funext c
  match c with
  | ⟨0, _⟩ => exact Fin.ext rfl
  | ⟨1, _⟩ => exact Fin.ext rfl

/-- A scalar broadcast to any shape reads the scalar. -/
private theorem bcastS_apply {T : Shape} {α : Type} (h : S_.BroadcastsInDim T ![]) (x : S_.Idx → α) (j : T.Idx) :
    broadcastInDim T ![] h x j = x ix0 := by
  unfold broadcastInDim; exact congrArg x (funext fun a => a.elim0)

/-- A vector of 20000 entries as a [20000, 1] column reads, at (p, r), its entry p. -/
private theorem bcastCol_apply {α : Type} (h : S20000.BroadcastsInDim S20000x1 ![0]) (v : S20000.Idx → α)
    (p : Fin 20000) (r : Fin 1) : broadcastInDim S20000x1 ![0] h v (ix2 p r) = v (ix1 p) := by
  refine broadcastInDim_apply _ h v _ _ fun a => ?_
  match a with
  | ⟨0, _⟩ => rfl

/-- A [20000, 1] column stretched along the second axis reads, at (p, q), the column's entry (p, 0). -/
private theorem bcastRow_apply {α : Type} (h : S20000x1.BroadcastsInDim S20000x128 ![0, 1]) (v : S20000x1.Idx → α)
    (p : Fin 20000) (q : Fin 128) : broadcastInDim S20000x128 ![0, 1] h v (ix2 p q) = v (ix2 p 0) := by
  refine broadcastInDim_apply _ h v _ _ fun a => ?_
  match a with
  | ⟨0, _⟩ => rfl
  | ⟨1, _⟩ => rfl

/-- A vector of 128 entries as a [1, 128] row reads, at (r, q), its entry q. -/
private theorem bcastVec_apply {α : Type} (h : S128.BroadcastsInDim S1x128 ![1]) (v : S128.Idx → α)
    (r : Fin 1) (q : Fin 128) : broadcastInDim S1x128 ![1] h v (ix2 r q) = v (ix1 q) := by
  refine broadcastInDim_apply _ h v _ _ fun a => ?_
  match a with
  | ⟨0, _⟩ => rfl

/-- A [1, 128] row stretched along the first axis reads, at (p, q), the row's entry (0, q). -/
private theorem bcastDown_apply {α : Type} (h : S1x128.BroadcastsInDim S20000x128 ![0, 1]) (v : S1x128.Idx → α)
    (p : Fin 20000) (q : Fin 128) : broadcastInDim S20000x128 ![0, 1] h v (ix2 p q) = v (ix2 0 q) := by
  refine broadcastInDim_apply _ h v _ _ fun a => ?_
  match a with
  | ⟨0, _⟩ => rfl
  | ⟨1, _⟩ => rfl

/-- A quotient of two arrays at an index is the quotient of the entries. -/
private theorem hdiv_apply {s : Shape} (a b : FVec Ideal s .f32) (i : s.Idx) :
    Host.divf a b i = Ideal.div (a i) (b i) := rfl

/-- A reciprocal square root of an array at an index is that of the entry. -/
private theorem hrsqrt_apply {s : Shape} (a : FVec Ideal s .f32) (i : s.Idx) :
    Host.rsqrt a i = Ideal.rsqrt (a i) := rfl

/-- The word 0x43000000 denotes the real 128. -/
private theorem ofBits_128 : Ideal.ofBits .f32 0x43000000#32 = ((128 : ℝ) : EReal) := by
  simp [Ideal.ofBits, Ideal.ieee, -EReal.coe_mul]; norm_num

/-- So the divisor is positive. -/
private theorem c128_pos : (0 : EReal) < Ideal.ofBits .f32 0x43000000#32 := by
  rw [ofBits_128]; exact_mod_cast (by norm_num : (0 : ℝ) < 128)

/-- The integer word 0 converts to the real 0. -/
private theorem sitofp_zero : (((0#32 : BitVec 32).toInt : ℝ) : EReal) = 0 := by simp

/-- The divisor 128 - 0 is above 0, so the comparison's bit is set. -/
private theorem cmp_div_pos :
    Ideal.cmp .ogt (Ideal.ofBits .f32 0x43000000#32 - (((0#32 : BitVec 32).toInt : ℝ) : EReal)) 0 = 1#1 := by
  rw [sitofp_zero, sub_zero]
  simp [Ideal.cmp, c128_pos]

/-- The row mean as the reference spells it — the row sum from 0, as a column, over the splat of 128, stretched back
    along the row — read at (p, q): the mean of row p. -/
private theorem meanBc_apply (x : FVec Ideal S20000x128 .f32)
    (hR : S20000x128.ReducesTo [1] S20000) (hu : 0 < S_.numel) (hB : S20000.BroadcastsInDim S20000x1 ![0])
    (hC : S_.BroadcastsInDim S20000x1 ![]) (hD : S20000x1.BroadcastsInDim S20000x128 ![0, 1])
    (p : Fin 20000) (q : Fin 128) :
    broadcastInDim S20000x128 ![0, 1] hD
      (Host.divf (broadcastInDim S20000x1 ![0] hB (Host.reduceAdd x (constant (F := Ideal) S_ .f32 0x00000000#32) hR hu))
        (broadcastInDim S20000x1 ![] hC (constant (F := Ideal) S_ .f32 0x43000000#32))) (ix2 p q)
      = Cert.Spec.mean (Cert.Spec.row x p) := by
  rw [bcastRow_apply, hdiv_apply, bcastCol_apply, bcastS_apply, rowSum_apply, constant_apply, constant_apply,
    Ideal.ofBits_zero_f32, zero_add]
  rfl

/-- The reference's variance column, read at (p, r): the biased variance of row p. -/
private theorem varR_apply (x : FVec Ideal S20000x128 .f32) (p : Fin 20000) (r : Fin 1) :
    varR (F := Ideal) x (constantI S_ 32 0#32) (ix2 p r) = Cert.Spec.var (Cert.Spec.row x p) := by
  unfold varR
  simp only [select_apply, hdiv_apply]
  rw [bcastS_apply, bcastS_apply, bcastCol_apply, rowSum_apply, cmpf_apply, subf_apply, sitofp_apply, constant_apply,
    constant_apply, constant_apply]
  have hc : FloatOps.cmpf (F := Ideal) CmpFPredicate.ogt
      (Ideal.ofBits .f32 0x43000000#32 - FloatOps.sitofp (F := Ideal) .f32 (constantI S_ 32 0#32 ix0))
      (Ideal.ofBits .f32 0x00000000#32) = 1#1 := by
    rw [Ideal.ofBits_zero_f32]; exact cmp_div_pos
  rw [hc, select_one]
  have hd : Ideal.ofBits .f32 0x43000000#32 - FloatOps.sitofp (F := Ideal) .f32 (constantI S_ 32 0#32 ix0)
      = Cert.Spec.c128 := by
    show Ideal.ofBits .f32 0x43000000#32 - (((0#32 : BitVec 32).toInt : ℝ) : EReal) = _
    rw [sitofp_zero, sub_zero]; rfl
  rw [hd, Ideal.ofBits_zero_f32, zero_add]
  unfold Cert.Spec.var
  refine congrArg (fun s => Ideal.div s Cert.Spec.c128) ?_
  refine Finset.sum_congr rfl fun k _ => ?_
  rw [mulf_apply, subf_apply, meanBc_apply]
  rfl

/-- The reference's normalised features, read index by index: every row's mean and biased variance as sums over
    its 128 entries, then the affine map. -/
theorem xnR_eq (x : FVec Ideal S20000x128 .f32) (g b : FVec Ideal S128 .f32) :
    xnR (F := Ideal) x g b = Cert.Spec.lnArr x (fun k => g (ix1 k)) (fun k => b (ix1 k)) := by
  funext i
  obtain ⟨p, q, rfl⟩ : ∃ (p : Fin 20000) (q : Fin 128), i = ix2 p q := ⟨i 0, i 1, eq_ix2 i⟩
  unfold xnR
  simp only [addf_apply, mulf_apply, subf_apply]
  rw [meanBc_apply, bcastRow_apply, hrsqrt_apply, addf_apply, varR_apply, bcastS_apply, constant_apply,
    bcastDown_apply, bcastVec_apply, bcastDown_apply, bcastVec_apply]
  rfl

end Cert.ReferenceIdeal.ReadLn

end
-- ==== Proof.RReadEdge.lean ====
import proofs.«408722_j80805514707436_1_alg».proof.Proof.Gen.ReferenceIdeal
import proofs.«408722_j80805514707436_1_alg».proof.Proof.RStages
import proofs.«408722_j80805514707436_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.ReadEdge

open Idealize.ShloMosaic Idealize.ShloMosaic.ValueIdx Cert.ReferenceIdeal Cert.ReferenceIdeal.Facts₀ Cert.ReferenceIdeal.Facts Cert.ReferenceIdeal.Stages

/-! ## A matrix product read at an entry -/

/-- A plain matrix product, rows by contraction times contraction by columns, read at an entry: the sum over the
    contracted coordinate of the products of the entries. -/
private theorem dot_mk_apply {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    Host.dotGeneral (F := Ideal) (⟨[1], [0], [0], [1], [], [], w⟩ : DotDims _ _ _) none A B (ix2 a b)
      = ∑ c : Fin k, A (ix2 a c) * B (ix2 c b) := by
  show FloatOps.dotGeneral _ none _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The radial basis rows (32 entries) times a 32 × 128 weight matrix. -/
private theorem dot32_apply (A : FVec Ideal S640000x32 .f32) (B : FVec Ideal S32x128 .f32) (p : Fin 640000) (q : Fin 128) :
    Host.dotGeneral (F := Ideal) dot_S640000x32_S32x128_S640000x128_1_0_0_1_n_n none A B (ix2 p q)
      = ∑ c : Fin 32, A (ix2 p c) * B (ix2 c q) :=
  dot_mk_apply _ A B p q

/-- Rows of 128 entries times a 128 × 128 weight matrix. -/
private theorem dot128_apply (A : FVec Ideal S640000x128 .f32) (B : FVec Ideal S128x128 .f32) (p : Fin 640000) (q : Fin 128) :
    Host.dotGeneral (F := Ideal) dot_S640000x128_S128x128_S640000x128_1_0_0_1_n_n none A B (ix2 p q)
      = ∑ c : Fin 128, A (ix2 p c) * B (ix2 c q) :=
  dot_mk_apply _ A B p q

/-- Rows of 128 entries times a 128 × 1 column. -/
private theorem dot128x1_apply (A : FVec Ideal S640000x128 .f32) (B : FVec Ideal S128x1 .f32) (p : Fin 640000) (q : Fin 1) :
    Host.dotGeneral (F := Ideal) dot_S640000x128_S128x1_S640000x1_1_0_0_1_n_n none A B (ix2 p q)
      = ∑ c : Fin 128, A (ix2 p c) * B (ix2 c q) :=
  dot_mk_apply _ A B p q

/-! ## Broadcasts read at an entry -/

/-- A bias row of 128 entries laid under every one of the 640000 rows reads, at (p, q), the bias at q. -/
private theorem bias_apply {α : Type} (h₁ : S128.BroadcastsInDim S1x128 (![1] : Fin 1 → Fin S1x128.rank))
    (h₂ : S1x128.BroadcastsInDim S640000x128 (![0, 1] : Fin 2 → Fin S640000x128.rank))
    (v : S128.Idx → α) (p : Fin 640000) (q : Fin 128) :
    broadcastInDim S640000x128 ![0, 1] h₂ (broadcastInDim S1x128 ![1] h₁ v) (ix2 p q) = v (ix1 q) := by
  unfold broadcastInDim
  refine congrArg v (funext fun a => ?_)
  match a with
  | ⟨0, _⟩ => rfl

/-- The one-entry bias laid under every row of a 640000 × 1 column reads, everywhere, that entry. -/
private theorem bias1_apply {α : Type} (h₁ : S1.BroadcastsInDim S1x1 (![1] : Fin 1 → Fin S1x1.rank))
    (h₂ : S1x1.BroadcastsInDim S640000x1 (![0, 1] : Fin 2 → Fin S640000x1.rank))
    (v : S1.Idx → α) (p : Fin 640000) (q : Fin 1) :
    broadcastInDim S640000x1 ![0, 1] h₂ (broadcastInDim S1x1 ![1] h₁ v) (ix2 p q) = v (ix1 0) := by
  unfold broadcastInDim
  refine congrArg v (funext fun a => ?_)
  match a with
  | ⟨0, _⟩ => rfl

/-- A vector of 640000 entries stood up as a column reads, at (p, q), the vector at p. -/
private theorem col_apply {α : Type} (h : S640000.BroadcastsInDim S640000x1 (![0] : Fin 1 → Fin S640000x1.rank))
    (v : S640000.Idx → α) (p : Fin 640000) (q : Fin 1) :
    broadcastInDim S640000x1 ![0] h v (ix2 p q) = v (ix1 p) := by
  unfold broadcastInDim
  refine congrArg v (funext fun a => ?_)
  match a with
  | ⟨0, _⟩ => rfl

/-- A 640000 × 1 column stretched across 128 features reads, at (p, q), the column at p. -/
private theorem stretch_apply {α : Type} (h : S640000x1.BroadcastsInDim S640000x128 (![0, 1] : Fin 2 → Fin S640000x128.rank))
    (v : S640000x1.Idx → α) (p : Fin 640000) (q : Fin 128) :
    broadcastInDim S640000x128 ![0, 1] h v (ix2 p q) = v (ix2 p 0) := by
  unfold broadcastInDim
  refine congrArg v (funext fun a => ?_)
  match a with
  | ⟨0, _⟩ => rfl
  | ⟨1, _⟩ => rfl

/-! ## The elementwise pieces -/

/-- The word of 1.0 denotes 1. -/
private theorem one_word : Ideal.ofBits .f32 0x3F800000#32 = 1 := by
  simp [Ideal.ofBits, Ideal.ieee, -EReal.coe_mul]; norm_num

/-- The spelled-out 1 / (1 + e^(-z)) is the logistic function. -/
private theorem logistic_spelled (z : EReal) :
    Ideal.div (Ideal.ofBits .f32 0x3F800000#32) (Ideal.ofBits .f32 0x3F800000#32 + Ideal.exp (-z)) = Ideal.logistic z := by
  rw [one_word]; rfl

/-- z · (1 / (1 + e^(-z))) over an edge-shaped array, at an entry, is silu of the entry. -/
private theorem siluE_apply (z : FVec Ideal S640000x128 .f32) (i : S640000x128.Idx) :
    siluE (F := Ideal) z i = Cert.Spec.silu (z i) := by
  show z i * Ideal.div (Ideal.ofBits .f32 0x3F800000#32) (Ideal.ofBits .f32 0x3F800000#32 + Ideal.exp (-(z i))) = _
  rw [logistic_spelled]; rfl

/-- A dense layer over the 32 radial basis entries of a row, at an entry: Σ_k x_k · W_{k,q} + b_q. -/
private theorem layer32_apply (x : FVec Ideal S640000x32 .f32) (W : FVec Ideal S32x128 .f32) (b : FVec Ideal S128 .f32)
    (p : Fin 640000) (q : Fin 128) :
    addf (Host.dotGeneral (F := Ideal) dot_S640000x32_S32x128_S640000x128_1_0_0_1_n_n none x W)
        (broadcastInDim S640000x128 ![0, 1] bcast_S1x128_S640000x128_0_1 (broadcastInDim S1x128 ![1] bcast_S128_S1x128_1 b)) (ix2 p q)
      = Cert.Spec.lin (Cert.Spec.row x p) (Cert.Spec.mat W) (fun k => b (ix1 k)) q := by
  rw [addf_apply, dot32_apply, bias_apply]; rfl

/-- A dense layer over the 128 entries of a row whose entries are known (a k at column k), at an entry. -/
private theorem layer128_apply (x : FVec Ideal S640000x128 .f32) (W : FVec Ideal S128x128 .f32) (b : FVec Ideal S128 .f32)
    (p : Fin 640000) (a : Fin 128 → EReal) (ha : ∀ k, x (ix2 p k) = a k) (q : Fin 128) :
    addf (Host.dotGeneral (F := Ideal) dot_S640000x128_S128x128_S640000x128_1_0_0_1_n_n none x W)
        (broadcastInDim S640000x128 ![0, 1] bcast_S1x128_S640000x128_0_1 (broadcastInDim S1x128 ![1] bcast_S128_S1x128_1 b)) (ix2 p q)
      = Cert.Spec.lin a (Cert.Spec.mat W) (fun k => b (ix1 k)) q := by
  rw [addf_apply, dot128_apply, bias_apply]
  exact congrArg (· + b (ix1 q)) (Finset.sum_congr rfl fun k _ => by rw [ha k]; rfl)

/-- The activated first layer (over the 32 radial basis entries), at an entry. -/
private theorem act32_apply (x : FVec Ideal S640000x32 .f32) (W : FVec Ideal S32x128 .f32) (b : FVec Ideal S128 .f32)
    (p : Fin 640000) (q : Fin 128) :
    siluE (F := Ideal) (addf (Host.dotGeneral (F := Ideal) dot_S640000x32_S32x128_S640000x128_1_0_0_1_n_n none x W)
        (broadcastInDim S640000x128 ![0, 1] bcast_S1x128_S640000x128_0_1 (broadcastInDim S1x128 ![1] bcast_S128_S1x128_1 b))) (ix2 p q)
      = Cert.Spec.silu (Cert.Spec.lin (Cert.Spec.row x p) (Cert.Spec.mat W) (fun k => b (ix1 k)) q) := by
  rw [siluE_apply, layer32_apply]

/-- The gate: the cutoff stood up as a column, times the spelled-out logistic of a column, at an entry. -/
private theorem gate_apply (cut : FVec Ideal S640000 .f32) (y : FVec Ideal S640000x1 .f32) (p : Fin 640000) (q : Fin 1) :
    mulf (broadcastInDim S640000x1 ![0] bcast_S640000_S640000x1_0 cut)
        (Host.divf (broadcastInDim S640000x1 ![] bcast_S_S640000x1 (constant (F := Ideal) S_ .f32 0x3F800000#32))
          (addf (broadcastInDim S640000x1 ![] bcast_S_S640000x1 (constant (F := Ideal) S_ .f32 0x3F800000#32))
            (Host.exp (Host.negf y)))) (ix2 p q)
      = cut (ix1 p) * Ideal.logistic (y (ix2 p q)) := by
  rw [mulf_apply, col_apply]
  show _ * Ideal.div (Ideal.ofBits .f32 0x3F800000#32) (Ideal.ofBits .f32 0x3F800000#32 + Ideal.exp (-(y (ix2 p q)))) = _
  rw [logistic_spelled]

/-! ## The stages, read index by index -/

/-- The reference's edge weights, read index by index. -/
theorem ewR_eq (rbf : FVec Ideal S640000x32 .f32) (cut : FVec Ideal S640000 .f32) (w1 : FVec Ideal S32x128 .f32) (b1 : FVec Ideal S128 .f32)
    (w2 : FVec Ideal S128x1 .f32) (b2 : FVec Ideal S1 .f32) :
    ewR (F := Ideal) rbf cut w1 b1 w2 b2
      = Cert.Spec.ewArr rbf (fun k => cut (ix1 k)) w1 (fun k => b1 (ix1 k)) (Cert.Spec.col0 w2) (b2 (ix1 0)) := by
  funext i
  obtain ⟨p, q, rfl⟩ : ∃ (p : Fin 640000) (q : Fin 1), i = ix2 p q := ⟨i 0, i 1, eq_ix2 i⟩
  obtain rfl : q = 0 := Subsingleton.elim _ _
  unfold ewR
  refine (gate_apply cut _ p 0).trans ?_
  show _ = cut (ix1 p) * Ideal.logistic ((∑ k : Fin 128,
      Cert.Spec.silu (Cert.Spec.lin (Cert.Spec.row rbf p) (Cert.Spec.mat w1) (fun k => b1 (ix1 k)) k) * w2 (ix2 k 0)) + b2 (ix1 0))
  rw [addf_apply, dot128x1_apply, bias1_apply]
  refine congrArg (fun s => cut (ix1 p) * Ideal.logistic (s + b2 (ix1 0))) (Finset.sum_congr rfl fun c _ => ?_)
  rw [act32_apply]

/-- The reference's radial factor, read index by index: three dense layers, silu after the first two. -/
private theorem wradR_apply (rbf : FVec Ideal S640000x32 .f32) (w1 : FVec Ideal S32x128 .f32) (b1 : FVec Ideal S128 .f32)
    (w2 : FVec Ideal S128x128 .f32) (b2 : FVec Ideal S128 .f32) (w3 : FVec Ideal S128x128 .f32) (b3 : FVec Ideal S128 .f32)
    (p : Fin 640000) (q : Fin 128) :
    wradR (F := Ideal) rbf w1 b1 w2 b2 w3 b3 (ix2 p q)
      = Cert.Spec.radial (Cert.Spec.row rbf p) (Cert.Spec.mat w1) (fun k => b1 (ix1 k)) (Cert.Spec.mat w2) (fun k => b2 (ix1 k))
          (Cert.Spec.mat w3) (fun k => b3 (ix1 k)) q := by
  unfold wradR Cert.Spec.radial
  refine layer128_apply _ w3 b3 p _ (fun j => ?_) q
  refine (siluE_apply _ _).trans (congrArg Cert.Spec.silu ?_)
  refine layer128_apply _ w2 b2 p _ (fun i => ?_) j
  exact act32_apply rbf w1 b1 p i

/-- The reference's messages, read index by index: gathered row × radial factor × edge weight. -/
theorem msgR_eq (xg : FVec Ideal S640000x128 .f32) (rbf : FVec Ideal S640000x32 .f32) (cut : FVec Ideal S640000 .f32)
    (gw1 : FVec Ideal S32x128 .f32) (gb1 : FVec Ideal S128 .f32) (gw2 : FVec Ideal S128x1 .f32) (gb2 : FVec Ideal S1 .f32)
    (w1 : FVec Ideal S32x128 .f32) (b1 : FVec Ideal S128 .f32) (w2 : FVec Ideal S128x128 .f32) (b2 : FVec Ideal S128 .f32)
    (w3 : FVec Ideal S128x128 .f32) (b3 : FVec Ideal S128 .f32) :
    msgR (F := Ideal) xg (wradR rbf w1 b1 w2 b2 w3 b3) (ewR rbf cut gw1 gb1 gw2 gb2)
      = Cert.Spec.msgArr rbf (fun k => cut (ix1 k)) xg gw1 (fun k => gb1 (ix1 k)) (Cert.Spec.col0 gw2) (gb2 (ix1 0))
          w1 (fun k => b1 (ix1 k)) w2 (fun k => b2 (ix1 k)) w3 (fun k => b3 (ix1 k)) := by
  rw [ewR_eq]
  funext i
  obtain ⟨p, q, rfl⟩ : ∃ (p : Fin 640000) (q : Fin 128), i = ix2 p q := ⟨i 0, i 1, eq_ix2 i⟩
  unfold msgR
  show xg (ix2 p q) * wradR (F := Ideal) rbf w1 b1 w2 b2 w3 b3 (ix2 p q)
      * broadcastInDim S640000x128 ![0, 1] bcast_S640000x1_S640000x128_0_1
          (Cert.Spec.ewArr rbf (fun k => cut (ix1 k)) gw1 (fun k => gb1 (ix1 k)) (Cert.Spec.col0 gw2) (gb2 (ix1 0))) (ix2 p q) = _
  rw [stretch_apply, wradR_apply]
  rfl

end Cert.ReferenceIdeal.ReadEdge

end
-- ==== Proof.RReadNode.lean ====
import proofs.«408722_j80805514707436_1_alg».proof.Proof.Gen.ReferenceIdeal
import proofs.«408722_j80805514707436_1_alg».proof.Proof.RStages
import proofs.«408722_j80805514707436_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.ReadNode

open Idealize.ShloMosaic Idealize.ShloMosaic.ValueIdx Cert.ReferenceIdeal Cert.ReferenceIdeal.Facts₀ Cert.ReferenceIdeal.Facts Cert.ReferenceIdeal.Stages

/-- The literal 1.0 denotes the real one. -/
private theorem one_word : Ideal.ofBits .f32 0x3F800000#32 = 1 := by
  simp [Ideal.ofBits, Ideal.ieee, -EReal.coe_mul]; norm_num

/-- A bias row laid along the second axis reads, at (p, q), the bias at q. -/
private theorem bias_apply (b : FVec Ideal S128 .f32) (p : Fin 20000) (q : Fin 128) :
    broadcastInDim S20000x128 ![0, 1] bcast_S1x128_S20000x128_0_1 (broadcastInDim S1x128 ![1] bcast_S128_S1x128_1 b) (ix2 p q)
      = b (ix1 q) := by
  refine (broadcastInDim_apply _ _ _ (ix2 p q) (ix2 (0 : Fin 1) q) ?_).trans ?_
  · intro a
    match a with
    | ⟨0, _⟩ => rfl
    | ⟨1, _⟩ => rfl
  · refine broadcastInDim_apply _ _ _ (ix2 (0 : Fin 1) q) (ix1 q) ?_
    intro a
    match a with
    | ⟨0, _⟩ => rfl

/-- A scalar broadcast reads the scalar everywhere. -/
private theorem scalar_apply (r : FVec Ideal S_ .f32) (p : Fin 20000) (q : Fin 128) :
    broadcastInDim S20000x128 ![] bcast_S_S20000x128 r (ix2 p q) = r ix0 := by
  refine broadcastInDim_apply _ _ _ (ix2 p q) ix0 ?_
  intro a
  exact a.elim0

/-- The spelled-out z · (1 / (1 + exp (-z))) at an index is silu of the entry. -/
private theorem siluN_apply (z : FVec Ideal S20000x128 .f32) (p : Fin 20000) (q : Fin 128) :
    siluN (F := Ideal) z (ix2 p q) = Cert.Spec.silu (z (ix2 p q)) := by
  unfold siluN
  show z (ix2 p q) * Ideal.div (broadcastInDim S20000x128 ![] bcast_S_S20000x128 (constant (F := Ideal) S_ .f32 0x3F800000#32) (ix2 p q))
      (broadcastInDim S20000x128 ![] bcast_S_S20000x128 (constant (F := Ideal) S_ .f32 0x3F800000#32) (ix2 p q) + Ideal.exp (-(z (ix2 p q)))) = _
  rw [scalar_apply, constant_apply, one_word]
  rfl

/-! The matrix product: the operand indices at output (p, q) and contraction position k are (p, k) and (k, q). -/

private theorem lhs_axis0 (j : S20000x128.Idx) (k : dot_S20000x128_S128x128_S20000x128_1_0_0_1_n_n.contr.Idx) :
    (dot_S20000x128_S128x128_S20000x128_1_0_0_1_n_n.lhsIdx j k 0).val = (j 0).val := by
  simp [DotDims.lhsIdx, dot_S20000x128_S128x128_S20000x128_1_0_0_1_n_n]
  rfl

private theorem lhs_axis1 (j : S20000x128.Idx) (k : dot_S20000x128_S128x128_S20000x128_1_0_0_1_n_n.contr.Idx) :
    (dot_S20000x128_S128x128_S20000x128_1_0_0_1_n_n.lhsIdx j k 1).val = (k ⟨0, by decide⟩).val :=
  DotDims.lhsIdx_val_of_single _ rfl j k

private theorem rhs_axis0 (j : S20000x128.Idx) (k : dot_S20000x128_S128x128_S20000x128_1_0_0_1_n_n.contr.Idx) :
    (dot_S20000x128_S128x128_S20000x128_1_0_0_1_n_n.rhsIdx j k 0).val = (k ⟨0, by decide⟩).val :=
  DotDims.rhsIdx_val_of_single _ rfl j k

private theorem rhs_axis1 (j : S20000x128.Idx) (k : dot_S20000x128_S128x128_S20000x128_1_0_0_1_n_n.contr.Idx) :
    (dot_S20000x128_S128x128_S20000x128_1_0_0_1_n_n.rhsIdx j k 1).val = (j 1).val := by
  simp [DotDims.rhsIdx, dot_S20000x128_S128x128_S20000x128_1_0_0_1_n_n]
  rfl

/-- The product of a [20000, 128] array by a [128, 128] matrix at (p, q) is the sum over the contracted
    coordinate of the products of the entries. -/
private theorem dot_apply (A : FVec Ideal S20000x128 .f32) (B : FVec Ideal S128x128 .f32) (p : Fin 20000) (q : Fin 128) :
    Host.dotGeneral (F := Ideal) dot_S20000x128_S128x128_S20000x128_1_0_0_1_n_n none A B (ix2 p q)
      = ∑ k : Fin 128, A (ix2 p k) * B (ix2 k q) := by
  show FloatOps.dotGeneral _ none _ A B (ix2 p q) = _
  rw [Ideal.dotGeneral_apply,
    ← Equiv.sum_comp (contrEquiv1 dot_S20000x128_S128x128_S20000x128_1_0_0_1_n_n 128 rfl rfl).symm]
  refine Finset.sum_congr rfl fun c _ => ?_
  have hk := contrEquiv1_symm_val dot_S20000x128_S128x128_S20000x128_1_0_0_1_n_n 128 rfl rfl c
  have hl : dot_S20000x128_S128x128_S20000x128_1_0_0_1_n_n.lhsIdx (ix2 p q)
      ((contrEquiv1 dot_S20000x128_S128x128_S20000x128_1_0_0_1_n_n 128 rfl rfl).symm c) = ix2 p c := by
    funext ax; apply Fin.ext
    match ax with
    | ⟨0, _⟩ => exact lhs_axis0 _ _
    | ⟨1, _⟩ => exact (lhs_axis1 _ _).trans hk
  have hr : dot_S20000x128_S128x128_S20000x128_1_0_0_1_n_n.rhsIdx (ix2 p q)
      ((contrEquiv1 dot_S20000x128_S128x128_S20000x128_1_0_0_1_n_n 128 rfl rfl).symm c) = ix2 c q := by
    funext ax; apply Fin.ext
    match ax with
    | ⟨0, _⟩ => exact (rhs_axis0 _ _).trans hk
    | ⟨1, _⟩ => exact rhs_axis1 _ _
  rw [hl, hr]

/-- A dense layer at (p, q): the product plus the bias row is Σ_k a_k · W_{k,q} + b_q, whatever formula
    the left operand's entries have. -/
private theorem dense_apply (A : FVec Ideal S20000x128 .f32) (W : FVec Ideal S128x128 .f32) (b : FVec Ideal S128 .f32)
    (a : Fin 20000 → Fin 128 → EReal) (hA : ∀ p k, A (ix2 p k) = a p k) (p : Fin 20000) (q : Fin 128) :
    addf (Host.dotGeneral (F := Ideal) dot_S20000x128_S128x128_S20000x128_1_0_0_1_n_n none A W)
        (broadcastInDim S20000x128 ![0, 1] bcast_S1x128_S20000x128_0_1 (broadcastInDim S1x128 ![1] bcast_S128_S1x128_1 b)) (ix2 p q)
      = Cert.Spec.lin (a p) (Cert.Spec.mat W) (fun k => b (ix1 k)) q := by
  rw [addf_apply, dot_apply, bias_apply]
  exact congrArg (· + b (ix1 q)) (Finset.sum_congr rfl fun k _ => by rw [hA p k]; rfl)

/-- The reference's node update, read index by index. -/
theorem outR_eq (x xn agg : FVec Ideal S20000x128 .f32) (mw1 : FVec Ideal S128x128 .f32) (mb1 : FVec Ideal S128 .f32)
    (mw2 : FVec Ideal S128x128 .f32) (mb2 : FVec Ideal S128 .f32) (slw : FVec Ideal S128x128 .f32) (slb : FVec Ideal S128 .f32)
    (ulw : FVec Ideal S128x128 .f32) (ulb : FVec Ideal S128 .f32) (rs : FVec Ideal S_ .f32) :
    outR (F := Ideal) x xn agg mw1 mb1 mw2 mb2 slw slb ulw ulb rs
      = Cert.Spec.nodeArr x xn agg mw1 (fun k => mb1 (ix1 k)) mw2 (fun k => mb2 (ix1 k)) slw (fun k => slb (ix1 k)) ulw (fun k => ulb (ix1 k)) (rs ix0) := by
  funext i
  obtain ⟨p, q, rfl⟩ : ∃ (p : Fin 20000) (q : Fin 128), i = ix2 p q := ⟨i 0, i 1, eq_ix2 i⟩
  -- the first hidden layer agg · W₁ + b₁, then its silu
  have h85 := dense_apply agg mw1 mb1 (fun p => Cert.Spec.row agg p) (fun _ _ => rfl)
  have h86 : ∀ p k, siluN (F := Ideal) (addf (Host.dotGeneral (F := Ideal) dot_S20000x128_S128x128_S20000x128_1_0_0_1_n_n none agg mw1)
      (broadcastInDim S20000x128 ![0, 1] bcast_S1x128_S20000x128_0_1 (broadcastInDim S1x128 ![1] bcast_S128_S1x128_1 mb1))) (ix2 p k)
      = Cert.Spec.silu (Cert.Spec.lin (Cert.Spec.row agg p) (Cert.Spec.mat mw1) (fun k => mb1 (ix1 k)) k) :=
    fun p k => by rw [siluN_apply, h85]
  -- the second layer, the self layer, and the update layer over the second
  have h90 := dense_apply _ mw2 mb2 _ h86
  have h94 := dense_apply xn slw slb (fun p => Cert.Spec.row xn p) (fun _ _ => rfl)
  have h98 := dense_apply _ ulw ulb _ h90
  unfold outR
  show x (ix2 p q) + broadcastInDim S20000x128 ![] bcast_S_S20000x128 rs (ix2 p q) * (addf _ _ (ix2 p q) + addf _ _ (ix2 p q)) = _
  rw [scalar_apply, h94, h98]
  rfl

end Cert.ReferenceIdeal.ReadNode

end
-- ==== Proof.Bridge.lean ====
/-
  The two programs' results are one function of the argument arrays wherever the source indices are in range.
  Stage by stage: both normalise the node features the same way; both compute the same cosine cutoff, edge
  weights and radial factors of the radial basis rows; the kernel program's fill-mode row lookup is the
  reference's plain row lookup at the same wrapped indices once no index is out of range; both sum the
  messages and the edge weights over the destination nodes by the same scatter-sum and divide; both apply the
  same node update.
-/
import proofs.«408722_j80805514707436_1_alg».proof.Proof.KStages
import proofs.«408722_j80805514707436_1_alg».proof.Proof.KTake
import proofs.«408722_j80805514707436_1_alg».proof.Proof.RStages
import proofs.«408722_j80805514707436_1_alg».proof.Proof.RReadLn
import proofs.«408722_j80805514707436_1_alg».proof.Proof.RReadEdge
import proofs.«408722_j80805514707436_1_alg».proof.Proof.RReadNode

set_option maxRecDepth 16384

noncomputable section

namespace Cert.Bridge

open Idealize.ShloMosaic Idealize.ShloMosaic.ValueIdx

/-- The cosine cutoff is the same host expression in both programs. -/
theorem cut_eq (len : FVec Ideal Cert.KernelIdeal.S640000 .f32) :
    Cert.ReferenceIdeal.Stages.cutR (F := Ideal) len = Cert.KernelIdeal.Stages.cutK (F := Ideal) len := rfl

/-- The wrapped index column is the same host expression in both programs. -/
theorem idx_eq (src : IVec Cert.KernelIdeal.S640000 32) :
    Cert.ReferenceIdeal.Stages.idxR src = Cert.KernelIdeal.Stages.idxK src := rfl

/-- The row lookup is the same operation in both programs. -/
theorem gather_eq (xn : FVec Ideal Cert.KernelIdeal.S20000x128 .f32) (idx : IVec Cert.KernelIdeal.S640000x1 32) :
    Host.gather Cert.ReferenceIdeal.gather_S20000x128_S640000x1_S640000x128_1_0_n_n_0_1_1128 xn idx
      = Host.gather Cert.KernelIdeal.gather_S20000x128_S640000x1_S640000x128_1_0_n_n_0_1_1128 xn idx := rfl

/-- The normalised scatter-sum is the same host expression in both programs. -/
theorem agg_eq (msg : FVec Ideal Cert.KernelIdeal.S640000x128 .f32) (ew : FVec Ideal Cert.KernelIdeal.S640000x1 .f32)
    (dst : IVec Cert.KernelIdeal.S640000 32) :
    Cert.ReferenceIdeal.Stages.aggR (F := Ideal) msg ew dst = Cert.KernelIdeal.Stages.aggK (F := Ideal) msg ew dst := rfl

open Cert.KernelIdeal in
/-- With every source index in [-20000, 20000) the reference's result is the kernel program's. -/
theorem value_eq (a0 : FVec Ideal S20000x128 .f32) (a1 a2 : IVec S640000 32) (a3 : FVec Ideal S640000x16 .f32) (a4 : FVec Ideal S640000x32 .f32) (a5 : FVec Ideal S640000 .f32)
    (a6 a7 : FVec Ideal S128 .f32) (a8 : FVec Ideal S32x128 .f32) (a9 : FVec Ideal S128 .f32) (a10 : FVec Ideal S128x128 .f32)
    (a11 : FVec Ideal S128 .f32) (a12 : FVec Ideal S128x128 .f32) (a13 : FVec Ideal S128 .f32) (a14 : FVec Ideal S32x128 .f32)
    (a15 : FVec Ideal S128 .f32) (a16 : FVec Ideal S128x1 .f32) (a17 : FVec Ideal S1 .f32) (a18 : FVec Ideal S128x128 .f32)
    (a19 : FVec Ideal S128 .f32) (a20 : FVec Ideal S128x128 .f32) (a21 : FVec Ideal S128 .f32) (a22 : FVec Ideal S128x128 .f32)
    (a23 : FVec Ideal S128 .f32) (a24 : FVec Ideal S128x128 .f32) (a25 : FVec Ideal S128 .f32) (a26 : FVec Ideal S_ .f32)
    (hsrc : ∀ i : S640000.Idx, (-20000 : Int) ≤ (a1 i).toInt ∧ (a1 i).toInt < 20000) :
    Cert.ReferenceIdeal.Stages.resR (F := Ideal) a0 a1 a2 a3 a4 a5 a6 a7 a8 a9 a10 a11 a12 a13 a14 a15 a16 a17 a18 a19 a20 a21 a22 a23 a24 a25 a26
      = Cert.KernelIdeal.Stages.KVal a0 a1 a2 a4 a5 a6 a7 a8 a9 a10 a11 a12 a13 a14 a15 a16 a17 a18 a19 a20 a21 a22 a23 a24 a25 a26 := by
  unfold Cert.ReferenceIdeal.Stages.resR Cert.KernelIdeal.Stages.KVal
  dsimp only
  rw [Cert.ReferenceIdeal.ReadNode.outR_eq, Cert.ReferenceIdeal.ReadEdge.msgR_eq, Cert.ReferenceIdeal.ReadEdge.ewR_eq,
    Cert.ReferenceIdeal.ReadLn.xnR_eq, Cert.KernelIdeal.Take.takeK_eq_gather _ _ hsrc, cut_eq, idx_eq, gather_eq, agg_eq]
  rfl

open Cert.KernelIdeal in
/-- The same for two families of argument arrays that agree entry by entry. -/
theorem value_eq_of_agree (a0 : FVec Ideal S20000x128 .f32) (a1 a2 : IVec S640000 32) (a3 : FVec Ideal S640000x16 .f32) (a4 : FVec Ideal S640000x32 .f32) (a5 : FVec Ideal S640000 .f32)
    (a6 a7 : FVec Ideal S128 .f32) (a8 : FVec Ideal S32x128 .f32) (a9 : FVec Ideal S128 .f32) (a10 : FVec Ideal S128x128 .f32)
    (a11 : FVec Ideal S128 .f32) (a12 : FVec Ideal S128x128 .f32) (a13 : FVec Ideal S128 .f32) (a14 : FVec Ideal S32x128 .f32)
    (a15 : FVec Ideal S128 .f32) (a16 : FVec Ideal S128x1 .f32) (a17 : FVec Ideal S1 .f32) (a18 : FVec Ideal S128x128 .f32)
    (a19 : FVec Ideal S128 .f32) (a20 : FVec Ideal S128x128 .f32) (a21 : FVec Ideal S128 .f32) (a22 : FVec Ideal S128x128 .f32)
    (a23 : FVec Ideal S128 .f32) (a24 : FVec Ideal S128x128 .f32) (a25 : FVec Ideal S128 .f32) (a26 : FVec Ideal S_ .f32)
    (b0 : FVec Ideal S20000x128 .f32) (b1 b2 : IVec S640000 32) (b3 : FVec Ideal S640000x16 .f32) (b4 : FVec Ideal S640000x32 .f32) (b5 : FVec Ideal S640000 .f32)
    (b6 b7 : FVec Ideal S128 .f32) (b8 : FVec Ideal S32x128 .f32) (b9 : FVec Ideal S128 .f32) (b10 : FVec Ideal S128x128 .f32)
    (b11 : FVec Ideal S128 .f32) (b12 : FVec Ideal S128x128 .f32) (b13 : FVec Ideal S128 .f32) (b14 : FVec Ideal S32x128 .f32)
    (b15 : FVec Ideal S128 .f32) (b16 : FVec Ideal S128x1 .f32) (b17 : FVec Ideal S1 .f32) (b18 : FVec Ideal S128x128 .f32)
    (b19 : FVec Ideal S128 .f32) (b20 : FVec Ideal S128x128 .f32) (b21 : FVec Ideal S128 .f32) (b22 : FVec Ideal S128x128 .f32)
    (b23 : FVec Ideal S128 .f32) (b24 : FVec Ideal S128x128 .f32) (b25 : FVec Ideal S128 .f32) (b26 : FVec Ideal S_ .f32)
    (e0 : b0 = a0) (e1 : b1 = a1) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12) (e13 : b13 = a13) (e14 : b14 = a14) (e15 : b15 = a15) (e16 : b16 = a16) (e17 : b17 = a17) (e18 : b18 = a18) (e19 : b19 = a19) (e20 : b20 = a20) (e21 : b21 = a21) (e22 : b22 = a22) (e23 : b23 = a23) (e24 : b24 = a24) (e25 : b25 = a25) (e26 : b26 = a26)
    (hsrc : ∀ i : S640000.Idx, (-20000 : Int) ≤ (a1 i).toInt ∧ (a1 i).toInt < 20000) :
    Cert.ReferenceIdeal.Stages.resR (F := Ideal) b0 b1 b2 b3 b4 b5 b6 b7 b8 b9 b10 b11 b12 b13 b14 b15 b16 b17 b18 b19 b20 b21 b22 b23 b24 b25 b26
      = Cert.KernelIdeal.Stages.KVal a0 a1 a2 a4 a5 a6 a7 a8 a9 a10 a11 a12 a13 a14 a15 a16 a17 a18 a19 a20 a21 a22 a23 a24 a25 a26 := by
  subst e0 e1 e2 e3 e4 e5 e6 e7 e8 e9 e10 e11 e12 e13 e14 e15 e16 e17 e18 e19 e20 e21 e22 e23 e24 e25 e26
  exact value_eq _ _ _ _ _ _ _ _ _ _ _ _ _ _ _ _ _ _ _ _ _ _ _ _ _ _ _ hsrc

end Cert.Bridge

end
-- ==== Proof.lean ====
/-
  The certificate of the message-passing block: a layer norm over each node's 128 features, per edge a gate
  and a radial factor computed from its radial basis row by small dense layers, a row lookup of the
  normalised source node, a scatter-sum of messages and edge weights over destination nodes, and a
  residual node update through three more dense layers.

  The kernel program computes the three dense stages in row blocks of 4000 inside three Pallas regions and
  leaves the row lookup and the scatter-sum to the host; the reference computes everything on the host.
  Over the extended reals both are the same function of the argument arrays wherever every source index
  lies in [-20000, 20000), the range in which indexing a table of 20000 rows is defined (the kernel
  program's lookup fills out-of-range rows with a fill word, the reference's clamps them): each row of each
  block is the same sums of products as the corresponding row of the whole array, a change of float format
  is the identity, and the logistic function is the same function however it is spelt. No finiteness of the
  inputs is used.

  The three frames: the two kernel programs' by their generated frame certificates, the reference's by its
  run. `preserves`: the idealization rewrote nothing. `algebraic`: the kernel program's run with its
  result named (the launch over the generated segments), the result read back through the host stretches
  and the three regions' whole-array forms; the reference's run read stage by stage; the two joined in
  `Cert.Bridge.value_eq`.
-/
import proofs.«408722_j80805514707436_1_alg».proof.Defs
import proofs.«408722_j80805514707436_1_alg».proof.Proof.Gen.Kernel
import proofs.«408722_j80805514707436_1_alg».proof.Proof.Gen.Kernel.Skeleton
import proofs.«408722_j80805514707436_1_alg».proof.Proof.Gen.Kernel.Launch
import proofs.«408722_j80805514707436_1_alg».proof.Proof.Gen.Kernel.Points
import proofs.«408722_j80805514707436_1_alg».proof.Proof.Gen.Kernel.Frame
import proofs.«408722_j80805514707436_1_alg».proof.Proof.Gen.KernelIdeal
import proofs.«408722_j80805514707436_1_alg».proof.Proof.Gen.KernelIdeal.Skeleton
import proofs.«408722_j80805514707436_1_alg».proof.Proof.Gen.KernelIdeal.Launch
import proofs.«408722_j80805514707436_1_alg».proof.Proof.Gen.KernelIdeal.Points
import proofs.«408722_j80805514707436_1_alg».proof.Proof.Gen.KernelIdeal.Frame
import proofs.«408722_j80805514707436_1_alg».proof.Proof.Gen.ReferenceIdeal
import proofs.«408722_j80805514707436_1_alg».proof.Proof.Gen.Pre_finite_inputs
import proofs.«408722_j80805514707436_1_alg».proof.Proof.KRun
import proofs.«408722_j80805514707436_1_alg».proof.Proof.KReg0
import proofs.«408722_j80805514707436_1_alg».proof.Proof.KReg1
import proofs.«408722_j80805514707436_1_alg».proof.Proof.KReg2
import proofs.«408722_j80805514707436_1_alg».proof.Proof.KHost
import proofs.«408722_j80805514707436_1_alg».proof.Proof.RRun
import proofs.«408722_j80805514707436_1_alg».proof.Proof.PreRange
import proofs.«408722_j80805514707436_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunHand.run (F := Ideal) m ρ)

/-- The idealization rewrote nothing. -/
theorem preserves : Cert.preserves_Kernel_KernelIdeal := trivial

/-- Both programs end at one function of the (agreeing) argument arrays. -/
theorem algebraic : Cert.algebraic_KernelIdeal_ReferenceIdeal := by
  intro m ρ m' ρ' hpre hagree
  refine ⟨fun c => Cert.KernelIdeal.Stages.KVal
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25))
      (m ((c.tc : Thread Cert.KernelIdeal.nD Cert.KernelIdeal.τ).loc Cert.KernelIdeal.main_arg26)), ?_, ?_⟩
  · exact (θ_run Cert.KernelIdeal.defs _ _).mono
      (fun r h c => ⟨(h c).1.trans (Cert.KernelIdeal.HostRead.kernel_value
          (fun V c => Cert.KernelIdeal.Reg0.final3 V c) (fun V c => Cert.KernelIdeal.Reg1.final13 V c)
          (fun V c => Cert.KernelIdeal.Reg1.final14 V c) (fun V c => Cert.KernelIdeal.Reg2.final12 V c) m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.RunHand.run (F := Ideal) m' ρ')
    obtain ⟨h0, h1, h2, h3, h4, h5, h6, h7, h8, h9, h10, h11, h12, h13, h14, h15, h16, h17, h18, h19, h20, h21, h22, h23, h24, h25, h26⟩ := hagree c
    exact Cert.Bridge.value_eq_of_agree _ _ _ _ _ _ _ _ _ _ _ _ _ _ _ _ _ _ _ _ _ _ _ _ _ _ _
      _ _ _ _ _ _ _ _ _ _ _ _ _ _ _ _ _ _ _ _ _ _ _ _ _ _ _
      h0 h1 h2 h3 h4 h5 h6 h7 h8 h9 h10 h11 h12 h13 h14 h15 h16 h17 h18 h19 h20 h21 h22 h23 h24 h25 h26
      (Cert.PreRange.src_range _ _ _ _ _ _ _ _ _ _ _ _ _ _ _ _ _ _ _ _ _ _ _ _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
